-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4x512x1024 : Shape := ⟨4, ![8, 4, 512, 1024]⟩
abbrev S8x512x1024 : Shape := ⟨3, ![8, 512, 1024]⟩
abbrev S_ : Shape := ⟨0, ![]⟩

class Facts : Prop where
  bcast_S_S8x4x512x1024 : S_.BroadcastsInDim S8x4x512x1024 (![] : Fin 0 → Fin S8x4x512x1024.rank)
  reducesTo_S8x4x512x1024_S_d0_1_2_3 : S8x4x512x1024.ReducesTo [0, 1, 2, 3] S_
  h_S_ : 0 < S_.numel
  bcast_S_S8x512x1024 : S_.BroadcastsInDim S8x512x1024 (![] : Fin 0 → Fin S8x512x1024.rank)
  reducesTo_S8x512x1024_S_d0_1_2 : S8x512x1024.ReducesTo [0, 1, 2] S_

variable [Facts]

def fn {F : FTy → Type} [FloatOps F] (main_arg0 : FVec F S8x4x512x1024 .f32) (main_arg1 : IVec S8x512x1024 32) : IVec S_ 1 :=
  let main_v0 : FVec F S8x4x512x1024 .f32 := Host.absf main_arg0
  let main_cst : FVec F S_ .f32 := constant S_ .f32 0x7F800000#32
  let main_v1 : FVec F S8x4x512x1024 .f32 := broadcastInDim S8x4x512x1024 ![] bcast_S_S8x4x512x1024 main_cst
  let main_v2 : IVec S8x4x512x1024 1 := cmpf .olt main_v0 main_v1
  let main_c : IVec S_ 1 := constantI S_ 1 1#1
  let main_v3 : IVec S_ 1 := (fun x v => Host.reduce IntOp.andi x v reducesTo_S8x4x512x1024_S_d0_1_2_3 h_S_) main_v2 main_c
  let main_c_0 : IVec S_ 32 := constantI S_ 32 0#32
  let main_v4 : IVec S8x512x1024 32 := broadcastInDim S8x512x1024 ![] bcast_S_S8x512x1024 main_c_0
  let main_v5 : IVec S8x512x1024 1 := cmpi .sge main_arg1 main_v4
  let main_c_1 : IVec S_ 1 := constantI S_ 1 1#1
  let main_v6 : IVec S_ 1 := (fun x v => Host.reduce IntOp.andi x v reducesTo_S8x512x1024_S_d0_1_2 h_S_) main_v5 main_c_1
  let main_v7 : IVec S_ 1 := andi main_v3 main_v6
  let main_c_2 : IVec S_ 32 := constantI S_ 32 8#32
  let main_v8 : IVec S8x512x1024 32 := broadcastInDim S8x512x1024 ![] bcast_S_S8x512x1024 main_c_2
  let main_v9 : IVec S8x512x1024 1 := cmpi .sle main_arg1 main_v8
  let main_c_3 : IVec S_ 1 := constantI S_ 1 1#1
  let main_v10 : IVec S_ 1 := (fun x v => Host.reduce IntOp.andi x v reducesTo_S8x512x1024_S_d0_1_2 h_S_) main_v9 main_c_3
  let main_v11 : IVec S_ 1 := andi main_v7 main_v10
  main_v11
-- ==== Kernel.lean ====
abbrev S8x4x512x1024 : Shape := ⟨4, ![8, 4, 512, 1024]⟩
abbrev S8x512x1024 : Shape := ⟨3, ![8, 512, 1024]⟩
abbrev S8x1x9 : Shape := ⟨3, ![8, 1, 9]⟩
abbrev S8x4x9 : Shape := ⟨3, ![8, 4, 9]⟩
abbrev S1x4x512x1024 : Shape := ⟨4, ![1, 4, 512, 1024]⟩
abbrev S1x512x1024 : Shape := ⟨3, ![1, 512, 1024]⟩
abbrev S1x1x9 : Shape := ⟨3, ![1, 1, 9]⟩
abbrev S1x4x9 : Shape := ⟨3, ![1, 4, 9]⟩
abbrev S4x512x1024 : Shape := ⟨3, ![4, 512, 1024]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S4x512 : Shape := ⟨2, ![4, 512]⟩
abbrev S4x512x1 : Shape := ⟨3, ![4, 512, 1]⟩
abbrev S4x1 : Shape := ⟨2, ![4, 1]⟩
abbrev S4x1x1 : Shape := ⟨3, ![4, 1, 1]⟩
abbrev S1x9 : Shape := ⟨2, ![1, 9]⟩
abbrev S4x1x9 : Shape := ⟨3, ![4, 1, 9]⟩
abbrev S8x9 : Shape := ⟨2, ![8, 9]⟩
abbrev S_ : Shape := ⟨0, ![]⟩
abbrev S8x9x4 : Shape := ⟨3, ![8, 9, 4]⟩
abbrev S1x9x4 : Shape := ⟨3, ![1, 9, 4]⟩
abbrev S9x4 : Shape := ⟨2, ![9, 4]⟩
abbrev S1x4 : Shape := ⟨2, ![1, 4]⟩
abbrev S4 : Shape := ⟨1, ![4]⟩
abbrev S9 : Shape := ⟨1, ![9]⟩
abbrev S8 : Shape := ⟨1, ![8]⟩
abbrev S8x9x1x4 : Shape := ⟨4, ![8, 9, 1, 4]⟩
abbrev S8x1x9x4 : Shape := ⟨4, ![8, 1, 9, 4]⟩
abbrev S8x9x9x4 : Shape := ⟨4, ![8, 9, 9, 4]⟩
abbrev S8x9x9 : Shape := ⟨3, ![8, 9, 9]⟩
abbrev S9x1 : Shape := ⟨2, ![9, 1]⟩
abbrev S9x9 : Shape := ⟨2, ![9, 9]⟩
abbrev S8x9x1 : Shape := ⟨3, ![8, 9, 1]⟩
abbrev S1x9x9 : Shape := ⟨3, ![1, 9, 9]⟩

abbrev nBuf : Space → Nat
  | .hbm => 95
  | .vmem => 16
  | .smem => 0
  | _ => 0

abbrev bufTy : (tb : Table) → Fin (tcTables nBuf tb) → BufTy
  | .hbm, ⟨0, _⟩ => ⟨S8x4x512x1024, .f32⟩
  | .hbm, ⟨1, _⟩ => ⟨S8x512x1024, .i32⟩
  | .hbm, ⟨2, _⟩ => ⟨S8x1x9, .f32⟩
  | .hbm, ⟨3, _⟩ => ⟨S8x4x9, .f32⟩
  | .hbm, ⟨4, _⟩ => ⟨S8x9, .f32⟩
  | .hbm, ⟨5, _⟩ => ⟨S_, .f32⟩
  | .hbm, ⟨6, _⟩ => ⟨S8x9, .f32⟩
  | .hbm, ⟨7, _⟩ => ⟨S8x9, .f32⟩
  | .hbm, ⟨8, _⟩ => ⟨S8x1x9, .f32⟩
  | .hbm, ⟨9, _⟩ => ⟨S8x4x9, .f32⟩
  | .hbm, ⟨10, _⟩ => ⟨S8x4x9, .f32⟩
  | .hbm, ⟨11, _⟩ => ⟨S8x9x4, .f32⟩
  | .hbm, ⟨12, _⟩ => ⟨S8x1x9, .f32⟩
  | .hbm, ⟨13, _⟩ => ⟨S8x9, .f32⟩
  | .hbm, ⟨14, _⟩ => ⟨S8x9, .f32⟩
  | .hbm, ⟨15, _⟩ => ⟨S_, .f32⟩
  | .hbm, ⟨16, _⟩ => ⟨S8x9, .f32⟩
  | .hbm, ⟨17, _⟩ => ⟨S8x9, .i1⟩
  | .hbm, ⟨18, _⟩ => ⟨S9, .i32⟩
  | .hbm, ⟨19, _⟩ => ⟨S1x9, .i32⟩
  | .hbm, ⟨20, _⟩ => ⟨S_, .i32⟩
  | .hbm, ⟨21, _⟩ => ⟨S1x9, .i32⟩
  | .hbm, ⟨22, _⟩ => ⟨S1x9, .i1⟩
  | .hbm, ⟨23, _⟩ => ⟨S8x9, .i1⟩
  | .hbm, ⟨24, _⟩ => ⟨S8x9, .i1⟩
  | .hbm, ⟨25, _⟩ => ⟨S_, .f32⟩
  | .hbm, ⟨26, _⟩ => ⟨S_, .f32⟩
  | .hbm, ⟨27, _⟩ => ⟨S8x9, .f32⟩
  | .hbm, ⟨28, _⟩ => ⟨S8x9, .f32⟩
  | .hbm, ⟨29, _⟩ => ⟨S_, .f32⟩
  | .hbm, ⟨30, _⟩ => ⟨S8, .f32⟩
  | .hbm, ⟨31, _⟩ => ⟨S8x9x1x4, .f32⟩
  | .hbm, ⟨32, _⟩ => ⟨S8x1x9x4, .f32⟩
  | .hbm, ⟨33, _⟩ => ⟨S8x9x9x4, .f32⟩
  | .hbm, ⟨34, _⟩ => ⟨S8x9x9x4, .f32⟩
  | .hbm, ⟨35, _⟩ => ⟨S8x9x9x4, .f32⟩
  | .hbm, ⟨36, _⟩ => ⟨S8x9x9x4, .f32⟩
  | .hbm, ⟨37, _⟩ => ⟨S_, .f32⟩
  | .hbm, ⟨38, _⟩ => ⟨S8x9x9, .f32⟩
  | .hbm, ⟨39, _⟩ => ⟨S_, .f32⟩
  | .hbm, ⟨40, _⟩ => ⟨S8x9x9, .f32⟩
  | .hbm, ⟨41, _⟩ => ⟨S8x9x9, .f32⟩
  | .hbm, ⟨42, _⟩ => ⟨S8x9x9, .f32⟩
  | .hbm, ⟨43, _⟩ => ⟨S_, .f32⟩
  | .hbm, ⟨44, _⟩ => ⟨S8x9x9, .f32⟩
  | .hbm, ⟨45, _⟩ => ⟨S8x9x9, .f32⟩
  | .hbm, ⟨46, _⟩ => ⟨S_, .f32⟩
  | .hbm, ⟨47, _⟩ => ⟨S8x9x9, .f32⟩
  | .hbm, ⟨48, _⟩ => ⟨S8x9x9, .f32⟩
  | .hbm, ⟨49, _⟩ => ⟨S8x9x9, .f32⟩
  | .hbm, ⟨50, _⟩ => ⟨S9, .i32⟩
  | .hbm, ⟨51, _⟩ => ⟨S9x1, .i32⟩
  | .hbm, ⟨52, _⟩ => ⟨S9, .i32⟩
  | .hbm, ⟨53, _⟩ => ⟨S1x9, .i32⟩
  | .hbm, ⟨54, _⟩ => ⟨S9x9, .i32⟩
  | .hbm, ⟨55, _⟩ => ⟨S9x9, .i32⟩
  | .hbm, ⟨56, _⟩ => ⟨S9x9, .i1⟩
  | .hbm, ⟨57, _⟩ => ⟨S8x9x1, .i1⟩
  | .hbm, ⟨58, _⟩ => ⟨S8x1x9, .i1⟩
  | .hbm, ⟨59, _⟩ => ⟨S8x9x9, .i1⟩
  | .hbm, ⟨60, _⟩ => ⟨S8x9x9, .i1⟩
  | .hbm, ⟨61, _⟩ => ⟨S8x9x9, .i1⟩
  | .hbm, ⟨62, _⟩ => ⟨S1x9x9, .i1⟩
  | .hbm, ⟨63, _⟩ => ⟨S8x9x9, .i1⟩
  | .hbm, ⟨64, _⟩ => ⟨S8x9x9, .i1⟩
  | .hbm, ⟨65, _⟩ => ⟨S_, .f32⟩
  | .hbm, ⟨66, _⟩ => ⟨S_, .f32⟩
  | .hbm, ⟨67, _⟩ => ⟨S8x9x9, .f32⟩
  | .hbm, ⟨68, _⟩ => ⟨S8x9x9, .f32⟩
  | .hbm, ⟨69, _⟩ => ⟨S_, .f32⟩
  | .hbm, ⟨70, _⟩ => ⟨S8, .f32⟩
  | .hbm, ⟨71, _⟩ => ⟨S8x9, .i32⟩
  | .hbm, ⟨72, _⟩ => ⟨S_, .i32⟩
  | .hbm, ⟨73, _⟩ => ⟨S8, .i32⟩
  | .hbm, ⟨74, _⟩ => ⟨S8, .f32⟩
  | .hbm, ⟨75, _⟩ => ⟨S_, .f32⟩
  | .hbm, ⟨76, _⟩ => ⟨S8, .f32⟩
  | .hbm, ⟨77, _⟩ => ⟨S8, .i1⟩
  | .hbm, ⟨78, _⟩ => ⟨S_, .f32⟩
  | .hbm, ⟨79, _⟩ => ⟨S8, .f32⟩
  | .hbm, ⟨80, _⟩ => ⟨S8, .f32⟩
  | .hbm, ⟨81, _⟩ => ⟨S_, .f32⟩
  | .hbm, ⟨82, _⟩ => ⟨S8, .f32⟩
  | .hbm, ⟨83, _⟩ => ⟨S8, .f32⟩
  | .hbm, ⟨84, _⟩ => ⟨S8, .f32⟩
  | .hbm, ⟨85, _⟩ => ⟨S_, .f32⟩
  | .hbm, ⟨86, _⟩ => ⟨S_, .f32⟩
  | .hbm, ⟨87, _⟩ => ⟨S8, .f32⟩
  | .hbm, ⟨88, _⟩ => ⟨S8, .f32⟩
  | .hbm, ⟨89, _⟩ => ⟨S8, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S1, .f32⟩
  | .local _ .vmem, ⟨0, _⟩ => ⟨S1x4x512x1024, .f32⟩
  | .local _ .vmem, ⟨1, _⟩ => ⟨S1x4x512x1024, .f32⟩
  | .local _ .vmem, ⟨2, _⟩ => ⟨S1x512x1024, .i32⟩
  | .local _ .vmem, ⟨3, _⟩ => ⟨S1x512x1024, .i32⟩
  | .local _ .vmem, ⟨4, _⟩ => ⟨S1x1x9, .f32⟩
  | .local _ .vmem, ⟨5, _⟩ => ⟨S1x1x9, .f32⟩
  | .local _ .vmem, ⟨6, _⟩ => ⟨S1x4x9, .f32⟩
  | .local _ .vmem, ⟨7, _⟩ => ⟨S1x4x9, .f32⟩
  | .local _ .vmem, ⟨8, _⟩ => ⟨S1x4x512x1024, .f32⟩
  | .local _ .vmem, ⟨9, _⟩ => ⟨S1x4x512x1024, .f32⟩
  | .local _ .vmem, ⟨10, _⟩ => ⟨S1x512x1024, .i32⟩
  | .local _ .vmem, ⟨11, _⟩ => ⟨S1x512x1024, .i32⟩
  | .local _ .vmem, ⟨12, _⟩ => ⟨S1x9x4, .f32⟩
  | .local _ .vmem, ⟨13, _⟩ => ⟨S1x9x4, .f32⟩
  | .local _ .vmem, ⟨14, _⟩ => ⟨S1x1x9, .f32⟩
  | .local _ .vmem, ⟨15, _⟩ => ⟨S1x1x9, .f32⟩
  | _, _ => ⟨S8x4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_7 : Ref sig .tc := ⟨.hbm, 65, rfl⟩
abbrev main_call1_v0 : Ref sig .tc := ⟨.hbm, 66, rfl⟩
abbrev main_call1_v1 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_c_9 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_cst_11 : Ref sig .tc := ⟨.hbm, 78, rfl⟩
abbrev main_v58 : Ref sig .tc := ⟨.hbm, 79, rfl⟩
abbrev main_v59 : Ref sig .tc := ⟨.hbm, 80, rfl⟩
abbrev main_cst_12 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_13 : Ref sig .tc := ⟨.hbm, 85, rfl⟩
abbrev main_call2_v0 : Ref sig .tc := ⟨.hbm, 86, rfl⟩
abbrev main_call2_v1 : Ref sig .tc := ⟨.hbm, 87, rfl⟩
abbrev main_v63 : Ref sig .tc := ⟨.hbm, 88, rfl⟩
abbrev main_v64 : Ref sig .tc := ⟨.hbm, 89, rfl⟩
abbrev main_cst_14 : Ref sig .tc := ⟨.hbm, 90, rfl⟩
abbrev main_v65 : Ref sig .tc := ⟨.hbm, 91, rfl⟩
abbrev main_cst_15 : Ref sig .tc := ⟨.hbm, 92, rfl⟩
abbrev main_v66 : Ref sig .tc := ⟨.hbm, 93, rfl⟩
abbrev main_v67 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x9 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x9x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x9 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S1x4x512x1024_S1x4x512x1024_0_0_0_0 : ∀ a, (![0, 0, 0, 0] : Fin 4 → Nat) a + S1x4x512x1024.size a ≤ S1x4x512x1024.size a
  h_S1x4x512x1024 : 0 < S1x4x512x1024.numel
  shapeCasts_S1x4x512x1024_S4x512x1024 : S1x4x512x1024.ShapeCasts S4x512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  natLt_1_32 : 1 < 32
  reduces_S512x1024_S512 : S512x1024.Reduces [1] S512
  shapeCasts_S512_S512x1 : S512.ShapeCasts S512x1
  reduces_S512x1_S1 : S512x1.Reduces [0] S1
  shapeCasts_S1_S1x1 : S1.ShapeCasts S1x1
  shapeCasts_S512x1024_S1x512x1024 : S512x1024.ShapeCasts S1x512x1024
  broadcasts_S1x512x1024_S4x512x1024 : S1x512x1024.Broadcasts S4x512x1024
  reduces_S4x512x1024_S4x512 : S4x512x1024.Reduces [2] S4x512
  shapeCasts_S4x512_S4x512x1 : S4x512.ShapeCasts S4x512x1
  reduces_S4x512x1_S4x1 : S4x512x1.Reduces [1] S4x1
  shapeCasts_S4x1_S4x1x1 : S4x1.ShapeCasts S4x1x1
  concatenates_S1x1_S1x1_S1x1_S1x1_S1x1_S1x1_S1x1_S1x1_S1x1_S1x9_d1 : Shape.Concatenates [S1x1, S1x1, S1x1, S1x1, S1x1, S1x1, S1x1, S1x1, S1x1] S1x9 1
  concatenates_S4x1x1_S4x1x1_S4x1x1_S4x1x1_S4x1x1_S4x1x1_S4x1x1_S4x1x1_S4x1x1_S4x1x9_d2 : Shape.Concatenates [S4x1x1, S4x1x1, S4x1x1, S4x1x1, S4x1x1, S4x1x1, S4x1x1, S4x1x1, S4x1x1] S4x1x9 2
  shapeCasts_S1x9_S1x1x9 : S1x9.ShapeCasts S1x1x9
  inb_S1x1x9_S1x1x9_0_0_0 : ∀ a, (![0, 0, 0] : Fin 3 → Nat) a + S1x1x9.size a ≤ S1x1x9.size a
  h_S1x1x9 : 0 < S1x1x9.numel
  shapeCasts_S4x1x9_S1x4x9 : S4x1x9.ShapeCasts S1x4x9
  inb_S1x4x9_S1x4x9_0_0_0 : ∀ a, (![0, 0, 0] : Fin 3 → Nat) a + S1x4x9.size a ≤ S1x4x9.size a
  h_S1x4x9 : 0 < S1x4x9.numel
  shapeCasts_S8x1x9_S8x9 : S8x1x9.ShapeCasts S8x9
  bcast_S_S8x9 : S_.BroadcastsInDim S8x9 (![] : Fin 0 → Fin S8x9.rank)
  bcast_S8x9_S8x1x9_0_2 : S8x9.BroadcastsInDim S8x1x9 (![0, 2] : Fin 2 → Fin S8x1x9.rank)
  bcast_S8x1x9_S8x4x9_0_1_2 : S8x1x9.BroadcastsInDim S8x4x9 (![0, 1, 2] : Fin 3 → Fin S8x4x9.rank)
  transposes_S8x4x9_S8x9x4_0_2_1 : S8x4x9.Transposes [0, 2, 1] S8x9x4
  inb_S1x9x4_S1x9x4_0_0_0 : ∀ a, (![0, 0, 0] : Fin 3 → Nat) a + S1x9x4.size a ≤ S1x9x4.size a
  h_S1x9x4 : 0 < S1x9x4.numel
  shapeCasts_S1x9x4_S9x4 : S1x9x4.ShapeCasts S9x4
  slices_S9x4_o0_0_S1x4 : S9x4.Slices ![0, 0] S1x4
  shapeCasts_S1x4_S4 : S1x4.ShapeCasts S4
  shapeCasts_S4_S4x1x1 : S4.ShapeCasts S4x1x1
  broadcasts_S4x1x1_S4x512x1024 : S4x1x1.Broadcasts S4x512x1024
  reduces_S4x512x1024_S512x1024 : S4x512x1024.Reduces [0] S512x1024
  slices_S9x4_o1_0_S1x4 : S9x4.Slices ![1, 0] S1x4
  slices_S9x4_o2_0_S1x4 : S9x4.Slices ![2, 0] S1x4
  slices_S9x4_o3_0_S1x4 : S9x4.Slices ![3, 0] S1x4
  slices_S9x4_o4_0_S1x4 : S9x4.Slices ![4, 0] S1x4
  slices_S9x4_o5_0_S1x4 : S9x4.Slices ![5, 0] S1x4
  slices_S9x4_o6_0_S1x4 : S9x4.Slices ![6, 0] S1x4
  slices_S9x4_o7_0_S1x4 : S9x4.Slices ![7, 0] S1x4
  slices_S9x4_o8_0_S1x4 : S9x4.Slices ![8, 0] S1x4
  bcast_S9_S1x9_1 : S9.BroadcastsInDim S1x9 (![1] : Fin 1 → Fin S1x9.rank)
  bcast_S_S1x9 : S_.BroadcastsInDim S1x9 (![] : Fin 0 → Fin S1x9.rank)
  bcast_S1x9_S8x9_0_1 : S1x9.BroadcastsInDim S8x9 (![0, 1] : Fin 2 → Fin S8x9.rank)
  reducesTo_S8x9_S8_d1 : S8x9.ReducesTo [1] S8
  h_S_ : 0 < S_.numel
  bcast_S8x9x4_S8x9x1x4_0_1_3 : S8x9x4.BroadcastsInDim S8x9x1x4 (![0, 1, 3] : Fin 3 → Fin S8x9x1x4.rank)
  bcast_S8x9x4_S8x1x9x4_0_2_3 : S8x9x4.BroadcastsInDim S8x1x9x4 (![0, 2, 3] : Fin 3 → Fin S8x1x9x4.rank)
  bcast_S8x9x1x4_S8x9x9x4_0_1_2_3 : S8x9x1x4.BroadcastsInDim S8x9x9x4 (![0, 1, 2, 3] : Fin 4 → Fin S8x9x9x4.rank)
  bcast_S8x1x9x4_S8x9x9x4_0_1_2_3 : S8x1x9x4.BroadcastsInDim S8x9x9x4 (![0, 1, 2, 3] : Fin 4 → Fin S8x9x9x4.rank)
  reducesTo_S8x9x9x4_S8x9x9_d3 : S8x9x9x4.ReducesTo [3] S8x9x9
  bcast_S_S8x9x9 : S_.BroadcastsInDim S8x9x9 (![] : Fin 0 → Fin S8x9x9.rank)
  bcast_S9_S9x1_0 : S9.BroadcastsInDim S9x1 (![0] : Fin 1 → Fin S9x1.rank)
  bcast_S9x1_S9x9_0_1 : S9x1.BroadcastsInDim S9x9 (![0, 1] : Fin 2 → Fin S9x9.rank)
  bcast_S1x9_S9x9_0_1 : S1x9.BroadcastsInDim S9x9 (![0, 1] : Fin 2 → Fin S9x9.rank)
  bcast_S8x9_S8x9x1_0_1 : S8x9.BroadcastsInDim S8x9x1 (![0, 1] : Fin 2 → Fin S8x9x1.rank)
  bcast_S8x9x1_S8x9x9_0_1_2 : S8x9x1.BroadcastsInDim S8x9x9 (![0, 1, 2] : Fin 3 → Fin S8x9x9.rank)
  bcast_S8x1x9_S8x9x9_0_1_2 : S8x1x9.BroadcastsInDim S8x9x9 (![0, 1, 2] : Fin 3 → Fin S8x9x9.rank)
  bcast_S9x9_S1x9x9_1_2 : S9x9.BroadcastsInDim S1x9x9 (![1, 2] : Fin 2 → Fin S1x9x9.rank)
  bcast_S1x9x9_S8x9x9_0_1_2 : S1x9x9.BroadcastsInDim S8x9x9 (![0, 1, 2] : Fin 3 → Fin S8x9x9.rank)
  reducesTo_S8x9x9_S8_d1_2 : S8x9x9.ReducesTo [1, 2] S8
  bcast_S_S8 : S_.BroadcastsInDim S8 (![] : Fin 0 → Fin S8.rank)
  reducesTo_S8_S_d0 : S8.ReducesTo [0] S_
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x512x1024.size a ≤ S8x4x512x1024.size a
  hwx0_0 : ∀ i : grid0.Coords, EltTy.bits .f32 = 32 ∨ (Rect.block (s := S8x4x512x1024) S1x4x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x512x1024.size a
  hwx0_1 : ∀ i : grid0.Coords, EltTy.bits .i32 = 32 ∨ (Rect.block (s := S8x512x1024) S1x512x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x9.size a ≤ S8x1x9.size a
  hwx0_2 : ∀ i : grid0.Coords, EltTy.bits .f32 = 32 ∨ (Rect.block (s := S8x1x9) S1x1x9.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x9.size a ≤ S8x4x9.size a
  hwx0_3 : ∀ i : grid0.Coords, EltTy.bits .f32 = 32 ∨ (Rect.block (s := S8x4x9) S1x4x9.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4x512x1024.size a ≤ S8x4x512x1024.size a
  hwx1_0 : ∀ i : grid1.Coords, EltTy.bits .f32 = 32 ∨ (Rect.block (s := S8x4x512x1024) S1x4x512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S8x512x1024.size a
  hwx1_1 : ∀ i : grid1.Coords, EltTy.bits .i32 = 32 ∨ (Rect.block (s := S8x512x1024) S1x512x1024.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x9x4.size a ≤ S8x9x4.size a
  hwx1_2 : ∀ i : grid1.Coords, EltTy.bits .f32 = 32 ∨ (Rect.block (s := S8x9x4) S1x9x4.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x9.size a ≤ S8x1x9.size a
  hwx1_3 : ∀ i : grid1.Coords, EltTy.bits .f32 = 32 ∨ (Rect.block (s := S8x1x9) S1x1x9.size (cc1_transform_3 i) (hinb1_3 i)).WholeWords (EltTy.packing .f32)

variable [Facts₀]

abbrev win0_0 : Pipeline.Window sig grid0 :=
  Pipeline.Window.ofSpec (Memref.whole main_arg0) S1x4x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x9.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x4x9.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x4x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x9x4.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x1x9.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x4x512x1024 : Shape := ⟨4, ![8, 4, 512, 1024]⟩
abbrev S8x512x1024 : Shape := ⟨3, ![8, 512, 1024]⟩
abbrev S8x524288 : Shape := ⟨2, ![8, 524288]⟩
abbrev S8 : Shape := ⟨1, ![8]⟩
abbrev S_ : Shape := ⟨0, ![]⟩
abbrev S8x1 : Shape := ⟨2, ![8, 1]⟩
abbrev S4194304 : Shape := ⟨1, ![4194304]⟩
abbrev S8x4x524288 : Shape := ⟨3, ![8, 4, 524288]⟩
abbrev S8x524288x4 : Shape := ⟨3, ![8, 524288, 4]⟩
abbrev S4194304x4 : Shape := ⟨2, ![4194304, 4]⟩
abbrev S72 : Shape := ⟨1, ![72]⟩
abbrev S4194304x1 : Shape := ⟨2, ![4194304, 1]⟩
abbrev S72x4 : Shape := ⟨2, ![72, 4]⟩
abbrev S72x1 : Shape := ⟨2, ![72, 1]⟩
abbrev S8x9 : Shape := ⟨2, ![8, 9]⟩
abbrev S8x9x4 : Shape := ⟨3, ![8, 9, 4]⟩
abbrev S9 : Shape := ⟨1, ![9]⟩
abbrev S1x9 : Shape := ⟨2, ![1, 9]⟩
abbrev S8x9x1x4 : Shape := ⟨4, ![8, 9, 1, 4]⟩
abbrev S8x1x9x4 : Shape := ⟨4, ![8, 1, 9, 4]⟩
abbrev S8x9x9x4 : Shape := ⟨4, ![8, 9, 9, 4]⟩
abbrev S8x9x9 : Shape := ⟨3, ![8, 9, 9]⟩
abbrev S9x1 : Shape := ⟨2, ![9, 1]⟩
abbrev S9x9 : Shape := ⟨2, ![9, 9]⟩
abbrev S8x9x1 : Shape := ⟨3, ![8, 9, 1]⟩
abbrev S8x1x9 : Shape := ⟨3, ![8, 1, 9]⟩
abbrev S1x9x9 : Shape := ⟨3, ![1, 9, 9]⟩
abbrev S1 : Shape := ⟨1, ![1]⟩

abbrev nBuf : Space → Nat
  | .hbm => 142
  | .vmem => 0
  | .smem => 0
  | _ => 0

abbrev hbmTy0_0 (i : Nat) : BufTy := match i % 128 with
  | 0 => ⟨S8x4x512x1024, .f32⟩
  | 1 => ⟨S8x512x1024, .i32⟩
  | 2 => ⟨S8x524288, .i32⟩
  | 3 => ⟨S8, .i32⟩
  | 4 => ⟨S_, .i32⟩
  | 5 => ⟨S8, .i32⟩
  | 6 => ⟨S8, .i32⟩
  | 7 => ⟨S8x1, .i32⟩
  | 8 => ⟨S8x524288, .i32⟩
  | 9 => ⟨S8x524288, .i32⟩
  | 10 => ⟨S4194304, .i32⟩
  | 11 => ⟨S8x4x524288, .f32⟩
  | 12 => ⟨S8x524288x4, .f32⟩
  | 13 => ⟨S4194304x4, .f32⟩
  | 14 => ⟨S_, .f32⟩
  | 15 => ⟨S4194304, .f32⟩
  | 16 => ⟨S_, .f32⟩
  | 17 => ⟨S72, .f32⟩
  | 18 => ⟨S4194304x1, .i32⟩
  | 19 => ⟨S72, .f32⟩
  | 20 => ⟨S_, .f32⟩
  | 21 => ⟨S72x4, .f32⟩
  | 22 => ⟨S4194304x1, .i32⟩
  | 23 => ⟨S72x4, .f32⟩
  | 24 => ⟨S_, .f32⟩
  | 25 => ⟨S72, .f32⟩
  | 26 => ⟨S72, .f32⟩
  | 27 => ⟨S72x1, .f32⟩
  | 28 => ⟨S72x4, .f32⟩
  | 29 => ⟨S72x4, .f32⟩
  | 30 => ⟨S_, .i32⟩
  | 31 => ⟨S4194304, .i32⟩
  | 32 => ⟨S4194304, .i1⟩
  | 33 => ⟨S_, .i32⟩
  | 34 => ⟨S4194304, .i32⟩
  | 35 => ⟨S4194304, .i32⟩
  | 36 => ⟨S4194304, .i32⟩
  | 37 => ⟨S4194304x1, .i32⟩
  | 38 => ⟨S4194304x4, .f32⟩
  | 39 => ⟨S4194304x4, .f32⟩
  | 40 => ⟨S4194304x4, .f32⟩
  | 41 => ⟨S_, .f32⟩
  | 42 => ⟨S4194304, .f32⟩
  | 43 => ⟨S_, .f32⟩
  | 44 => ⟨S4194304, .f32⟩
  | 45 => ⟨S4194304, .f32⟩
  | 46 => ⟨S4194304, .f32⟩
  | 47 => ⟨S_, .f32⟩
  | 48 => ⟨S4194304, .f32⟩
  | 49 => ⟨S4194304, .f32⟩
  | 50 => ⟨S_, .f32⟩
  | 51 => ⟨S4194304, .f32⟩
  | 52 => ⟨S4194304, .f32⟩
  | 53 => ⟨S4194304, .f32⟩
  | 54 => ⟨S_, .f32⟩
  | 55 => ⟨S72, .f32⟩
  | 56 => ⟨S4194304x1, .i32⟩
  | 57 => ⟨S72, .f32⟩
  | 58 => ⟨S72, .f32⟩
  | 59 => ⟨S8x9, .f32⟩
  | 60 => ⟨S8x9, .f32⟩
  | 61 => ⟨S8x9x4, .f32⟩
  | 62 => ⟨S_, .f32⟩
  | 63 => ⟨S8x9, .f32⟩
  | 64 => ⟨S8x9, .i1⟩
  | 65 => ⟨S9, .i32⟩
  | 66 => ⟨S1x9, .i32⟩
  | 67 => ⟨S_, .i32⟩
  | 68 => ⟨S1x9, .i32⟩
  | 69 => ⟨S1x9, .i1⟩
  | 70 => ⟨S8x9, .i1⟩
  | 71 => ⟨S8x9, .i1⟩
  | 72 => ⟨S_, .f32⟩
  | 73 => ⟨S_, .f32⟩
  | 74 => ⟨S8x9, .f32⟩
  | 75 => ⟨S8x9, .f32⟩
  | 76 => ⟨S_, .f32⟩
  | 77 => ⟨S8, .f32⟩
  | 78 => ⟨S8x9x1x4, .f32⟩
  | 79 => ⟨S8x1x9x4, .f32⟩
  | 80 => ⟨S8x9x9x4, .f32⟩
  | 81 => ⟨S8x9x9x4, .f32⟩
  | 82 => ⟨S8x9x9x4, .f32⟩
  | 83 => ⟨S8x9x9x4, .f32⟩
  | 84 => ⟨S_, .f32⟩
  | 85 => ⟨S8x9x9, .f32⟩
  | 86 => ⟨S_, .f32⟩
  | 87 => ⟨S8x9x9, .f32⟩
  | 88 => ⟨S8x9x9, .f32⟩
  | 89 => ⟨S8x9x9, .f32⟩
  | 90 => ⟨S_, .f32⟩
  | 91 => ⟨S8x9x9, .f32⟩
  | 92 => ⟨S8x9x9, .f32⟩
  | 93 => ⟨S_, .f32⟩
  | 94 => ⟨S8x9x9, .f32⟩
  | 95 => ⟨S8x9x9, .f32⟩
  | 96 => ⟨S8x9x9, .f32⟩
  | 97 => ⟨S9, .i32⟩
  | 98 => ⟨S9x1, .i32⟩
  | 99 => ⟨S9, .i32⟩
  | 100 => ⟨S1x9, .i32⟩
  | 101 => ⟨S9x9, .i32⟩
  | 102 => ⟨S9x9, .i32⟩
  | 103 => ⟨S9x9, .i1⟩
  | 104 => ⟨S8x9x1, .i1⟩
  | 105 => ⟨S8x1x9, .i1⟩
  | 106 => ⟨S8x9x9, .i1⟩
  | 107 => ⟨S8x9x9, .i1⟩
  | 108 => ⟨S8x9x9, .i1⟩
  | 109 => ⟨S1x9x9, .i1⟩
  | 110 => ⟨S8x9x9, .i1⟩
  | 111 => ⟨S8x9x9, .i1⟩
  | 112 => ⟨S_, .f32⟩
  | 113 => ⟨S_, .f32⟩
  | 114 => ⟨S8x9x9, .f32⟩
  | 115 => ⟨S8x9x9, .f32⟩
  | 116 => ⟨S_, .f32⟩
  | 117 => ⟨S8, .f32⟩
  | 118 => ⟨S8x9, .i32⟩
  | 119 => ⟨S_, .i32⟩
  | 120 => ⟨S8, .i32⟩
  | 121 => ⟨S8, .f32⟩
  | 122 => ⟨S_, .f32⟩
  | 123 => ⟨S8, .f32⟩
  | 124 => ⟨S8, .i1⟩
  | 125 => ⟨S_, .f32⟩
  | 126 => ⟨S8, .f32⟩
  | 127 => ⟨S8, .f32⟩
  | _ => ⟨S8x4x512x1024, .f32⟩

abbrev hbmTy0_1 (i : Nat) : BufTy := match i % 128 with
  | 0 => ⟨S_, .f32⟩
  | 1 => ⟨S8, .f32⟩
  | 2 => ⟨S8, .f32⟩
  | 3 => ⟨S8, .f32⟩
  | 4 => ⟨S_, .f32⟩
  | 5 => ⟨S_, .f32⟩
  | 6 => ⟨S8, .f32⟩
  | 7 => ⟨S8, .f32⟩
  | 8 => ⟨S8, .f32⟩
  | 9 => ⟨S_, .f32⟩
  | 10 => ⟨S_, .f32⟩
  | 11 => ⟨S_, .f32⟩
  | 12 => ⟨S_, .f32⟩
  | 13 => ⟨S1, .f32⟩
  | _ => ⟨S8x4x512x1024, .f32⟩

abbrev hbmTy (i : Nat) : BufTy := match i / 128 with
  | 0 => hbmTy0_0 i
  | 1 => hbmTy0_1 i
  | _ => ⟨S8x4x512x1024, .f32⟩

abbrev bufTy : (tb : Table) → Fin (tcTables nBuf tb) → BufTy
  | .hbm, ⟨i, _⟩ => hbmTy i
  | _, _ => ⟨S8x4x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_3 : Ref sig .tc := ⟨.hbm, 30, rfl⟩
abbrev main_v23 : Ref sig .tc := ⟨.hbm, 31, rfl⟩
abbrev main_v24 : Ref sig .tc := ⟨.hbm, 32, rfl⟩
abbrev main_c_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_7 : Ref sig .tc := ⟨.hbm, 47, rfl⟩
abbrev main_v36 : Ref sig .tc := ⟨.hbm, 48, rfl⟩
abbrev main_v37 : Ref sig .tc := ⟨.hbm, 49, rfl⟩
abbrev main_cst_8 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_9 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_10 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c_11 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_12 : Ref sig .tc := ⟨.hbm, 72, rfl⟩
abbrev main_call0_v0 : Ref sig .tc := ⟨.hbm, 73, rfl⟩
abbrev main_call0_v1 : Ref sig .tc := ⟨.hbm, 74, rfl⟩
abbrev main_v56 : Ref sig .tc := ⟨.hbm, 75, rfl⟩
abbrev main_cst_13 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_14 : Ref sig .tc := ⟨.hbm, 84, rfl⟩
abbrev main_v64 : Ref sig .tc := ⟨.hbm, 85, rfl⟩
abbrev main_cst_15 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_16 : Ref sig .tc := ⟨.hbm, 90, rfl⟩
abbrev main_v68 : Ref sig .tc := ⟨.hbm, 91, rfl⟩
abbrev main_v69 : Ref sig .tc := ⟨.hbm, 92, rfl⟩
abbrev main_cst_17 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_18 : Ref sig .tc := ⟨.hbm, 112, rfl⟩
abbrev main_call1_v0 : Ref sig .tc := ⟨.hbm, 113, rfl⟩
abbrev main_call1_v1 : Ref sig .tc := ⟨.hbm, 114, rfl⟩
abbrev main_v88 : Ref sig .tc := ⟨.hbm, 115, rfl⟩
abbrev main_cst_19 : Ref sig .tc := ⟨.hbm, 116, rfl⟩
abbrev main_v89 : Ref sig .tc := ⟨.hbm, 117, rfl⟩
abbrev main_v90 : Ref sig .tc := ⟨.hbm, 118, rfl⟩
abbrev main_c_20 : Ref sig .tc := ⟨.hbm, 119, rfl⟩
abbrev main_v91 : Ref sig .tc := ⟨.hbm, 120, rfl⟩
abbrev main_v92 : Ref sig .tc := ⟨.hbm, 121, rfl⟩
abbrev main_cst_21 : Ref sig .tc := ⟨.hbm, 122, rfl⟩
abbrev main_v93 : Ref sig .tc := ⟨.hbm, 123, rfl⟩
abbrev main_v94 : Ref sig .tc := ⟨.hbm, 124, rfl⟩
abbrev main_cst_22 : Ref sig .tc := ⟨.hbm, 125, rfl⟩
abbrev main_v95 : Ref sig .tc := ⟨.hbm, 126, rfl⟩
abbrev main_v96 : Ref sig .tc := ⟨.hbm, 127, rfl⟩
abbrev main_cst_23 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_24 : Ref sig .tc := ⟨.hbm, 132, rfl⟩
abbrev main_call2_v0 : Ref sig .tc := ⟨.hbm, 133, rfl⟩
abbrev main_call2_v1 : Ref sig .tc := ⟨.hbm, 134, rfl⟩
abbrev main_v100 : Ref sig .tc := ⟨.hbm, 135, rfl⟩
abbrev main_v101 : Ref sig .tc := ⟨.hbm, 136, rfl⟩
abbrev main_cst_25 : Ref sig .tc := ⟨.hbm, 137, rfl⟩
abbrev main_v102 : Ref sig .tc := ⟨.hbm, 138, rfl⟩
abbrev main_cst_26 : Ref sig .tc := ⟨.hbm, 139, rfl⟩
abbrev main_v103 : Ref sig .tc := ⟨.hbm, 140, rfl⟩
abbrev main_v104 : Ref sig .tc := ⟨.hbm, 141, rfl⟩

abbrev nD : Nat := 1
abbrev τ : Topo := Topo.v7x

variable {F : FTy → Type} [FloatOps F]

class Facts₀ : Prop where
  shapeCasts_S8x512x1024_S8x524288 : S8x512x1024.ShapeCasts S8x524288
  bcast_S_S8 : S_.BroadcastsInDim S8 (![] : Fin 0 → Fin S8.rank)
  bcast_S8_S8x1_0 : S8.BroadcastsInDim S8x1 (![0] : Fin 1 → Fin S8x1.rank)
  bcast_S8x1_S8x524288_0_1 : S8x1.BroadcastsInDim S8x524288 (![0, 1] : Fin 2 → Fin S8x524288.rank)
  shapeCasts_S8x524288_S4194304 : S8x524288.ShapeCasts S4194304
  shapeCasts_S8x4x512x1024_S8x4x524288 : S8x4x512x1024.ShapeCasts S8x4x524288
  transposes_S8x4x524288_S8x524288x4_0_2_1 : S8x4x524288.Transposes [0, 2, 1] S8x524288x4
  shapeCasts_S8x524288x4_S4194304x4 : S8x524288x4.ShapeCasts S4194304x4
  bcast_S_S4194304 : S_.BroadcastsInDim S4194304 (![] : Fin 0 → Fin S4194304.rank)
  bcast_S_S72 : S_.BroadcastsInDim S72 (![] : Fin 0 → Fin S72.rank)
  bcast_S4194304_S4194304x1_0 : S4194304.BroadcastsInDim S4194304x1 (![0] : Fin 1 → Fin S4194304x1.rank)
  bcast_S_S72x4 : S_.BroadcastsInDim S72x4 (![] : Fin 0 → Fin S72x4.rank)
  bcast_S72_S72x1_0 : S72.BroadcastsInDim S72x1 (![0] : Fin 1 → Fin S72x1.rank)
  bcast_S72x1_S72x4_0_1 : S72x1.BroadcastsInDim S72x4 (![0, 1] : Fin 2 → Fin S72x4.rank)
  reducesTo_S4194304x4_S4194304_d1 : S4194304x4.ReducesTo [1] S4194304
  h_S_ : 0 < S_.numel
  shapeCasts_S72_S8x9 : S72.ShapeCasts S8x9
  shapeCasts_S72x4_S8x9x4 : S72x4.ShapeCasts S8x9x4
  bcast_S_S8x9 : S_.BroadcastsInDim S8x9 (![] : Fin 0 → Fin S8x9.rank)
  bcast_S9_S1x9_1 : S9.BroadcastsInDim S1x9 (![1] : Fin 1 → Fin S1x9.rank)
  bcast_S_S1x9 : S_.BroadcastsInDim S1x9 (![] : Fin 0 → Fin S1x9.rank)
  bcast_S1x9_S8x9_0_1 : S1x9.BroadcastsInDim S8x9 (![0, 1] : Fin 2 → Fin S8x9.rank)
  reducesTo_S8x9_S8_d1 : S8x9.ReducesTo [1] S8
  bcast_S8x9x4_S8x9x1x4_0_1_3 : S8x9x4.BroadcastsInDim S8x9x1x4 (![0, 1, 3] : Fin 3 → Fin S8x9x1x4.rank)
  bcast_S8x9x4_S8x1x9x4_0_2_3 : S8x9x4.BroadcastsInDim S8x1x9x4 (![0, 2, 3] : Fin 3 → Fin S8x1x9x4.rank)
  bcast_S8x9x1x4_S8x9x9x4_0_1_2_3 : S8x9x1x4.BroadcastsInDim S8x9x9x4 (![0, 1, 2, 3] : Fin 4 → Fin S8x9x9x4.rank)
  bcast_S8x1x9x4_S8x9x9x4_0_1_2_3 : S8x1x9x4.BroadcastsInDim S8x9x9x4 (![0, 1, 2, 3] : Fin 4 → Fin S8x9x9x4.rank)
  reducesTo_S8x9x9x4_S8x9x9_d3 : S8x9x9x4.ReducesTo [3] S8x9x9
  bcast_S_S8x9x9 : S_.BroadcastsInDim S8x9x9 (![] : Fin 0 → Fin S8x9x9.rank)
  bcast_S9_S9x1_0 : S9.BroadcastsInDim S9x1 (![0] : Fin 1 → Fin S9x1.rank)
  bcast_S9x1_S9x9_0_1 : S9x1.BroadcastsInDim S9x9 (![0, 1] : Fin 2 → Fin S9x9.rank)
  bcast_S1x9_S9x9_0_1 : S1x9.BroadcastsInDim S9x9 (![0, 1] : Fin 2 → Fin S9x9.rank)
  bcast_S8x9_S8x9x1_0_1 : S8x9.BroadcastsInDim S8x9x1 (![0, 1] : Fin 2 → Fin S8x9x1.rank)
  bcast_S8x9_S8x1x9_0_2 : S8x9.BroadcastsInDim S8x1x9 (![0, 2] : Fin 2 → Fin S8x1x9.rank)
  bcast_S8x9x1_S8x9x9_0_1_2 : S8x9x1.BroadcastsInDim S8x9x9 (![0, 1, 2] : Fin 3 → Fin S8x9x9.rank)
  bcast_S8x1x9_S8x9x9_0_1_2 : S8x1x9.BroadcastsInDim S8x9x9 (![0, 1, 2] : Fin 3 → Fin S8x9x9.rank)
  bcast_S9x9_S1x9x9_1_2 : S9x9.BroadcastsInDim S1x9x9 (![1, 2] : Fin 2 → Fin S1x9x9.rank)
  bcast_S1x9x9_S8x9x9_0_1_2 : S1x9x9.BroadcastsInDim S8x9x9 (![0, 1, 2] : Fin 3 → Fin S8x9x9.rank)
  reducesTo_S8x9x9_S8_d1_2 : S8x9x9.ReducesTo [1, 2] S8
  natLt_1_32 : 1 < 32
  reducesTo_S8_S_d0 : S8.ReducesTo [0] S_
  shapeCasts_S_S1 : S_.ShapeCasts S1
  scatter_S72_S4194304x1_S4194304_n_0_0_1_wf : ScatterDims.WF S72 S4194304x1 S4194304 [] [0] [0] 1
  scatter_S72x4_S4194304x1_S4194304x4_1_0_0_1_wf : ScatterDims.WF S72x4 S4194304x1 S4194304x4 [1] [0] [0] 1
  gather_S72x4_S4194304x1_S4194304x4_1_0_n_n_0_1_14_wf : GatherDims.WF S72x4 S4194304x1 S4194304x4 [1] [0] [] [0] [] 1 ![1, 4]

variable [Facts₀]

def scatter_S72_S4194304x1_S4194304_n_0_0_1 : ScatterDims S72 S4194304x1 S4194304 where
  updateWindowDims := []
  insertedWindowDims := [0]
  scatterDimsToOperandDims := [0]
  indexVectorDim := 1
  wf := scatter_S72_S4194304x1_S4194304_n_0_0_1_wf
def scatter_S72x4_S4194304x1_S4194304x4_1_0_0_1 : ScatterDims S72x4 S4194304x1 S4194304x4 where
  updateWindowDims := [1]
  insertedWindowDims := [0]
  scatterDimsToOperandDims := [0]
  indexVectorDim := 1
  wf := scatter_S72x4_S4194304x1_S4194304x4_1_0_0_1_wf
def gather_S72x4_S4194304x1_S4194304x4_1_0_n_n_0_1_14 : GatherDims S72x4 S4194304x1 S4194304x4 where
  offsetDims := [1]
  collapsedSliceDims := [0]
  operandBatchingDims := []
  startIndicesBatchingDims := []
  startIndexMap := [0]
  indexVectorDim := 1
  sliceSizes := ![1, 4]
  wf := gather_S72x4_S4194304x1_S4194304x4_1_0_n_n_0_1_14_wf

class Facts : Prop extends Facts₀ where

variable [Facts]
-- ==== Proof.Spec.lean ====
/-
  What both programs hand to their common host tail, as functions of the inputs.

  Inputs: `x : f32[8, 4, 512, 1024]` (image `b`, channel `c`, pixel `(h, w)`) and labels `t : i32[8, 512, 1024]`, a label in
  0 … 8 per pixel. For image `b` and label `m`:

    cnt b m        the number of pixels of image `b` labelled `m`
    lsum b c m     the sum of channel `c` over those pixels
    safe b m       max (cnt b m) 1
    mean b m c     lsum b c m / safe b m
    hsum b m       the sum over those pixels of  (max (√(Σ_c (x_c − mean_c)² + ε) − ½) 0)²
    var b m        hsum b m / safe b m

  A sum over the pixels that carry label `m` is written as a sum over ALL pixels of the summand times the 0/1 indicator
  "this pixel is labelled `m`": on the extended reals `a * 1 = a` and `a * 0 = 0` for every `a`, infinite ones included, so
  the two readings agree with no finiteness assumption. The float literals stay as the words both programs print.
-/
import Idealize.ShloMosaic.Lib.ValueIdx
import Idealize.ShloMosaic.PureOps.Ideal

open scoped BigOperators

noncomputable section

namespace Cert.Spec

open Idealize.ShloMosaic Idealize.ShloMosaic.ValueIdx

abbrev SX : Shape := ⟨4, ![8, 4, 512, 1024]⟩
abbrev ST : Shape := ⟨3, ![8, 512, 1024]⟩
abbrev S89 : Shape := ⟨2, ![8, 9]⟩
abbrev S894 : Shape := ⟨3, ![8, 9, 4]⟩

/-- The word both programs print for 1.0, for ε = f32(1e-8), for ½ and for 0.0. -/
abbrev one : EReal := Ideal.ofBits .f32 0x3F800000#32
abbrev eps : EReal := Ideal.ofBits .f32 0x322BCC77#32
abbrev half : EReal := Ideal.ofBits .f32 0x3F000000#32
abbrev zero : EReal := Ideal.ofBits .f32 0x00000000#32

/-- 1 if the label word `l` is the label `m`, else 0. -/
def isLab (l : BitVec 32) (m : Fin 9) : EReal := if l = BitVec.ofNat 32 m.val then 1 else 0

theorem mul_isLab (a : EReal) (l : BitVec 32) (m : Fin 9) :
    a * isLab l m = if l = BitVec.ofNat 32 m.val then a else 0 := by
  unfold isLab; split <;> simp

/-- One pixel's hinge: its channel values `p` against a mean `μ`. -/
def hingeAt (p μ : Fin 4 → EReal) : EReal :=
  max (Ideal.sqrt ((∑ c : Fin 4, (p c - μ c) * (p c - μ c)) + eps) - half) zero
    * max (Ideal.sqrt ((∑ c : Fin 4, (p c - μ c) * (p c - μ c)) + eps) - half) zero

variable (x : SX.Idx → EReal) (t : ST.Idx → BitVec 32)

/-- Every label word, read signed, is one of the labels 0 … 8. -/
def InRange : Prop := ∀ i : ST.Idx, 0 ≤ (t i).toInt ∧ (t i).toInt ≤ 8

/-- 1 where pixel `(h, w)` of image `b` carries label `m`. -/
def ind (b : Fin 8) (m : Fin 9) (h : Fin 512) (w : Fin 1024) : EReal := isLab (t (ix3 b h w)) m

def cnt (b : Fin 8) (m : Fin 9) : EReal := ∑ h : Fin 512, ∑ w : Fin 1024, ind t b m h w

def lsum (b : Fin 8) (c : Fin 4) (m : Fin 9) : EReal := ∑ h : Fin 512, ∑ w : Fin 1024, x (ix4 b c h w) * ind t b m h w

def safe (b : Fin 8) (m : Fin 9) : EReal := max (cnt t b m) one

def mean (b : Fin 8) (m : Fin 9) (c : Fin 4) : EReal := Ideal.div (lsum x t b c m) (safe t b m)

def hsum (b : Fin 8) (m : Fin 9) : EReal :=
  ∑ h : Fin 512, ∑ w : Fin 1024, hingeAt (fun c => x (ix4 b c h w)) (mean x t b m) * ind t b m h w

def var (b : Fin 8) (m : Fin 9) : EReal := Ideal.div (hsum x t b m) (safe t b m)

/-- The three arrays: counts and per-label mean hinge as [8, 9], means as [8, 9, 4]. -/
def countsG : S89.Idx → EReal := fun i => cnt t (i 0 : Fin 8) (i 1 : Fin 9)
def varG : S89.Idx → EReal := fun i => var x t (i 0 : Fin 8) (i 1 : Fin 9)
def meansG : S894.Idx → EReal := fun i => mean x t (i 0 : Fin 8) (i 1 : Fin 9) (i 2 : Fin 4)

theorem countsG_apply (b : Fin 8) (m : Fin 9) : countsG t (ix2 b m) = cnt t b m := rfl
theorem varG_apply (b : Fin 8) (m : Fin 9) : varG x t (ix2 b m) = var x t b m := rfl
theorem meansG_apply (b : Fin 8) (m : Fin 9) (c : Fin 4) : meansG x t (ix3 b m c) = mean x t b m c := rfl

end Cert.Spec

end
-- ==== Proof.PreLab.lean ====
/-
  The label range out of the precondition. The printed precondition is the conjunction of three tests, each an `and` over
  a whole array: every input value is finite, every label is at least 0 (signed), every label is at most 8 (signed).
  Where it holds, every label word read signed lies in 0 … 8.
-/
import proofs.«410175_j15839839388116_2_alg».proof.Pre_finite_inputs
import proofs.«410175_j15839839388116_2_alg».proof.Proof.Gen.Pre_finite_inputs
import proofs.«410175_j15839839388116_2_alg».proof.Proof.Spec
import Idealize.ShloMosaic.Lib.ReduceAll
import Idealize.ShloMosaic.Lib.Affine
import Idealize.ShloMosaic.PureOps.Ideal

noncomputable section

namespace Cert.PreLab

open Idealize.ShloMosaic Cert.Pre_finite_inputs

instance : Subsingleton S_.Idx := ⟨fun a b => funext fun d => d.elim0⟩

theorem inRange_of_fn (x : FVec Ideal S8x4x512x1024 .f32) (t : IVec S8x512x1024 32)
    (h : Cert.Pre_finite_inputs.fn (F := Ideal) x t = fun _ => 1#1) : Cert.Spec.InRange t := by
  have h0 := congrFun h ValueIdx.ix0
  dsimp only [Cert.Pre_finite_inputs.fn] at h0
  have h1 := IntOp.andi_eq_one.1 h0
  have h2 := IntOp.andi_eq_one.1 h1.1
  intro i
  have hge := Host.reduce_andi_all _ _ _ _ _ h2.2 i
  have hle := Host.reduce_andi_all _ _ _ _ _ h1.2 i
  refine ⟨?_, ?_⟩
  · have := IntOp.cmpi_sge.1 hge
    exact this
  · have := IntOp.cmpi_sle.1 hle
    exact this

end Cert.PreLab

end
-- ==== Proof.KStats.lean ====
/-
  The statistics kernel's two output blocks, entry by entry. For one image (the block's leading axis has extent 1) with
  channel values `x0` and labels `x1`: entry `l` of the count block is the number of pixels labelled `l`, and entry
  `(c, l)` of the sum block is the sum of channel `c` over those pixels — each written as a sum over all pixels against
  the 0/1 indicator of the label.
-/
import proofs.«410175_j15839839388116_2_alg».proof.Proof.Gen.KernelIdeal.Frame
import proofs.«410175_j15839839388116_2_alg».proof.Proof.Spec
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.KStats

open Idealize.ShloMosaic Idealize.ShloMosaic.ValueIdx Cert.KernelIdeal Cert.KernelIdeal.Gen

/-! ## One label's indicator, count and channel sums, generic over the label word -/

/-- The 0/1 indicator of the label word `k` over the pixels: compare, widen the bit, convert. -/
def maskOf (t : IVec S512x1024 32) (k : BitVec 32) : FVec Ideal S512x1024 .f32 :=
  sitofp .f32 (extui 32 (cmpi .eq t (broadcast S512x1024 k)) natLt_1_32)

/-- A pixel array summed along each row, kept as a column. -/
def rowSums (a : FVec Ideal S512x1024 .f32) : FVec Ideal S512x1 .f32 :=
  shapeCast S512x1 (multiReduction .add [1] S512 a 0x00000000#32 reduces_S512x1024_S512 (.inl rfl) rfl) shapeCasts_S512_S512x1

/-- A column summed to one entry. -/
def colSum (r : FVec Ideal S512x1 .f32) : FVec Ideal S1x1 .f32 :=
  shapeCast S1x1 (multiReduction .add [0] S1 r 0x00000000#32 reduces_S512x1_S1 (.inl rfl) rfl) shapeCasts_S1_S1x1

/-- The sum of a pixel array over all pixels. -/
def cntOf (a : FVec Ideal S512x1024 .f32) : FVec Ideal S1x1 .f32 := colSum (rowSums a)

/-- Per channel, the sum over all pixels of the channel's value times a pixel array. -/
def rowOf (x : FVec Ideal S4x512x1024 .f32) (a : FVec Ideal S512x1024 .f32) : FVec Ideal S4x1x1 .f32 :=
  shapeCast S4x1x1
    (multiReduction .add [1] S4x1
      (shapeCast S4x512x1
        (multiReduction .add [2] S4x512
          (mulf x (broadcastTo S4x512x1024 (shapeCast S1x512x1024 a shapeCasts_S512x1024_S1x512x1024) broadcasts_S1x512x1024_S4x512x1024))
          0x00000000#32 reduces_S4x512x1024_S4x512 (.inl rfl) rfl)
        shapeCasts_S4x512_S4x512x1)
      0x00000000#32 reduces_S4x512x1_S4x1 (.inl rfl) rfl)
    shapeCasts_S4x1_S4x1x1

theorem maskOf_apply (t : IVec S512x1024 32) (k : BitVec 32) (h : Fin 512) (w : Fin 1024) :
    maskOf t k (ix2 h w) = if t (ix2 h w) = k then 1 else 0 := by
  show ((((IntOp.cmpi .eq (t (ix2 h w)) k).setWidth 32).toInt : ℝ) : EReal) = _
  by_cases e : t (ix2 h w) = k
  · rw [if_pos e, e]
    have : ((IntOp.cmpi .eq k k).setWidth 32) = 1#32 := by
      simp [IntOp.cmpi]
    rw [this]; norm_num
  · rw [if_neg e]
    have hb : (t (ix2 h w) == k) = false := by simpa using e
    have : ((IntOp.cmpi .eq (t (ix2 h w)) k).setWidth 32) = 0#32 := by
      simp [IntOp.cmpi, hb]
    rw [this]; norm_num

/-! ## The sums read at an index -/

/-- Row `h` of the row sums is the sum of the array along that row. -/
theorem rowSums_apply (a : FVec Ideal S512x1024 .f32) (h : Fin 512) (u : Fin 1) :
    rowSums a (ix2 h u) = ∑ w : Fin 1024, a (ix2 h w) := by
  unfold rowSums
  rw [shapeCast_apply _ shapeCasts_S512_S512x1 (ix2 h u) (ix1 h) (by
    rw [Shape.rowMajor_val_two, Shape.rowMajor_val_one]
    show h.val = h.val * 1 + u.val
    omega)]
  refine (Ideal.multiReduction_add_single a 0x00000000#32 reduces_S512x1024_S512 (.inl rfl) rfl (ix1 h)).trans ?_
  show ∑ w : Fin 1024, a (reduces_S512x1024_S512.lift (ix1 h) w) = _
  refine Finset.sum_congr rfl fun w _ => congrArg a (funext fun c => ?_)
  match c with
  | ⟨0, _⟩ => rfl
  | ⟨1, _⟩ => rfl

/-- The one entry of a column's sum is the sum of the column. -/
theorem colSum_apply (r : FVec Ideal S512x1 .f32) (u v : Fin 1) :
    colSum r (ix2 u v) = ∑ h : Fin 512, r (ix2 h (0 : Fin 1)) := by
  unfold colSum
  rw [shapeCast_apply _ shapeCasts_S1_S1x1 (ix2 u v) (ix1 (0 : Fin 1)) (by
    rw [Shape.rowMajor_val_two, Shape.rowMajor_val_one]
    show 0 = u.val * 1 + v.val
    omega)]
  refine (Ideal.multiReduction_add_single r 0x00000000#32 reduces_S512x1_S1 (.inl rfl) rfl (ix1 (0 : Fin 1))).trans ?_
  show ∑ h : Fin 512, r (reduces_S512x1_S1.lift (ix1 (0 : Fin 1)) h) = _
  refine Finset.sum_congr rfl fun h _ => congrArg r (funext fun c => ?_)
  match c with
  | ⟨0, _⟩ => rfl
  | ⟨1, _⟩ => rfl

/-- The total of a pixel array, as the double sum over rows and columns. -/
theorem cntOf_apply (a : FVec Ideal S512x1024 .f32) (u v : Fin 1) :
    cntOf a (ix2 u v) = ∑ h : Fin 512, ∑ w : Fin 1024, a (ix2 h w) := by
  unfold cntOf
  rw [colSum_apply]
  exact Finset.sum_congr rfl fun h _ => rowSums_apply a h 0

/-- The channel values times a pixel array copied to every channel, at `(c, h, w)`. -/
theorem prod_apply (x : FVec Ideal S4x512x1024 .f32) (a : FVec Ideal S512x1024 .f32) (c : Fin 4) (h : Fin 512) (w : Fin 1024) :
    mulf x (broadcastTo S4x512x1024 (shapeCast S1x512x1024 a shapeCasts_S512x1024_S1x512x1024) broadcasts_S1x512x1024_S4x512x1024)
      (ix3 c h w) = x (ix3 c h w) * a (ix2 h w) := by
  rw [mulf_apply]
  congr 1
  rw [broadcastTo_apply _ broadcasts_S1x512x1024_S4x512x1024 (ix3 c h w) (ix3 (0 : Fin 1) h w) (fun ax => by
    match ax with
    | ⟨0, _⟩ => rfl
    | ⟨1, _⟩ => rfl
    | ⟨2, _⟩ => rfl)]
  exact shapeCast_ab_1ab_apply a shapeCasts_S512x1024_S1x512x1024 0 h w

/-- Channel `c`'s entry: the double sum over the pixels of the channel's value times the pixel array. -/
theorem rowOf_apply (x : FVec Ideal S4x512x1024 .f32) (a : FVec Ideal S512x1024 .f32) (c : Fin 4) (u v : Fin 1) :
    rowOf x a (ix3 c u v) = ∑ h : Fin 512, ∑ w : Fin 1024, x (ix3 c h w) * a (ix2 h w) := by
  unfold rowOf
  rw [shapeCast_apply _ shapeCasts_S4x1_S4x1x1 (ix3 c u v) (ix2 c (0 : Fin 1)) (by
    rw [Shape.rowMajor_val_three, Shape.rowMajor_val_two]
    show c.val * 1 + 0 = (c.val * 1 + u.val) * 1 + v.val
    omega)]
  refine (Ideal.multiReduction_add_single _ 0x00000000#32 reduces_S4x512x1_S4x1 (.inl rfl) rfl (ix2 c (0 : Fin 1))).trans ?_
  show ∑ h : Fin 512, shapeCast S4x512x1 _ shapeCasts_S4x512_S4x512x1 (reduces_S4x512x1_S4x1.lift (ix2 c (0 : Fin 1)) h) = _
  refine Finset.sum_congr rfl fun h _ => ?_
  have e1 : reduces_S4x512x1_S4x1.lift (ix2 c (0 : Fin 1)) h = ix3 c h (0 : Fin 1) := by
    funext d
    match d with
    | ⟨0, _⟩ => rfl
    | ⟨1, _⟩ => rfl
    | ⟨2, _⟩ => rfl
  rw [e1, shapeCast_apply _ shapeCasts_S4x512_S4x512x1 (ix3 c h (0 : Fin 1)) (ix2 c h) (by
    rw [Shape.rowMajor_val_three, Shape.rowMajor_val_two]
    show c.val * 512 + h.val = (c.val * 512 + h.val) * 1 + 0
    omega)]
  refine (Ideal.multiReduction_add_single _ 0x00000000#32 reduces_S4x512x1024_S4x512 (.inl rfl) rfl (ix2 c h)).trans ?_
  show ∑ w : Fin 1024, mulf x _ (reduces_S4x512x1024_S4x512.lift (ix2 c h) w) = _
  refine Finset.sum_congr rfl fun w _ => ?_
  have e2 : reduces_S4x512x1024_S4x512.lift (ix2 c h) w = ix3 c h w := by
    funext d
    match d with
    | ⟨0, _⟩ => rfl
    | ⟨1, _⟩ => rfl
    | ⟨2, _⟩ => rfl
  rw [e2]
  exact prod_apply x a c h w

/-! ## The two blocks as a cast of nine pieces laid side by side -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Piece `n` of the count block: the count of the label whose word is `n`. -/
def cntPiece (t : IVec S512x1024 32) (n : Fin 9) : FVec Ideal S1x1 .f32 := cntOf (maskOf t (BitVec.ofNat 32 n.val))

/-- Piece `n` of the sum block: the channel sums against the indicator of the label whose word is `n`. -/
def rowPiece (x : FVec Ideal S4x512x1024 .f32) (t : IVec S512x1024 32) (n : Fin 9) : FVec Ideal S4x1x1 .f32 :=
  rowOf x (maskOf t (BitVec.ofNat 32 n.val))

theorem out0_2_eq (x0 : Vec Ideal S1x4x512x1024 .f32) (x1 : Vec Ideal S1x512x1024 .i32) :
    out0_2 (F := Ideal) x0 x1
      = shapeCast S1x1x9
          (concatenate S1x9 1 (List.ofFn fun n : Fin 9 => (⟨S1x1, cntPiece (k0_pay4 (F := Ideal) x1) n⟩ : (s : Shape) × (s.Idx → EReal)))
            concatenates_S1x1_S1x1_S1x1_S1x1_S1x1_S1x1_S1x1_S1x1_S1x1_S1x9_d1)
          shapeCasts_S1x9_S1x1x9 := by
  unfold out0_2
  rw [View.canon_unit_zero hz3]
  simp only [View.ld_unit_zero (S := S1x512x1024) hz3]
  rfl

theorem out0_3_eq (x0 : Vec Ideal S1x4x512x1024 .f32) (x1 : Vec Ideal S1x512x1024 .i32) :
    out0_3 (F := Ideal) x0 x1
      = shapeCast S1x4x9
          (concatenate S4x1x9 2
            (List.ofFn fun n : Fin 9 =>
              (⟨S4x1x1, rowPiece (k0_pay3 (F := Ideal) x0) (k0_pay4 (F := Ideal) x1) n⟩ : (s : Shape) × (s.Idx → EReal)))
            concatenates_S4x1x1_S4x1x1_S4x1x1_S4x1x1_S4x1x1_S4x1x1_S4x1x1_S4x1x1_S4x1x1_S4x1x9_d2)
          shapeCasts_S4x1x9_S1x4x9 := by
  unfold out0_3
  rw [View.canon_unit_zero hz3]
  simp only [View.ld_unit_zero (S := S1x512x1024) hz3, View.ld_unit_zero (S := S1x4x512x1024) hz4]
  rfl

/-! ## The label words and the channel values behind the leading unit axis -/

theorem labels_apply (x1 : Vec Ideal S1x512x1024 .i32) (h : Fin 512) (w : Fin 1024) :
    k0_pay4 (F := Ideal) x1 (ix2 h w) = x1 (ix3 (0 : Fin 1) h w) :=
  shapeCast_1ab_ab_apply x1 shapeCasts_S1x512x1024_S512x1024 h w

theorem values_apply (x0 : Vec Ideal S1x4x512x1024 .f32) (c : Fin 4) (h : Fin 512) (w : Fin 1024) :
    k0_pay3 (F := Ideal) x0 (ix3 c h w) = x0 (ix4 (0 : Fin 1) c h w) :=
  shapeCast_1abc_abc_apply x0 shapeCasts_S1x4x512x1024_S4x512x1024 c h w

/-- The indicator of the label whose word is `l` is the specification's. -/
theorem maskOf_isLab (t : IVec S512x1024 32) (l : Fin 9) (h : Fin 512) (w : Fin 1024) :
    maskOf t (BitVec.ofNat 32 l.val) (ix2 h w) = Cert.Spec.isLab (t (ix2 h w)) l := by
  rw [maskOf_apply]; rfl

/-! ## The blocks read at an entry -/

theorem out0_2_apply (x0 : Vec Ideal S1x4x512x1024 .f32) (x1 : Vec Ideal S1x512x1024 .i32) (l : Fin 9) :
    out0_2 (F := Ideal) x0 x1 (ix3 (0 : Fin 1) (0 : Fin 1) l)
      = ∑ h : Fin 512, ∑ w : Fin 1024, Cert.Spec.isLab (x1 (ix3 (0 : Fin 1) h w)) l := by
  rw [out0_2_eq, shapeCast_ab_1ab_apply _ shapeCasts_S1x9_S1x1x9 0 0 l]
  refine (concatenate_ofFn_unit_apply (t := S1x9) (s₁ := S1x1) (1 : Fin 2) (cntPiece (k0_pay4 (F := Ideal) x1))
    concatenates_S1x1_S1x1_S1x1_S1x1_S1x1_S1x1_S1x1_S1x1_S1x1_S1x9_d1 rfl rfl (ix2 (0 : Fin 1) l) l rfl
    (ix2 (0 : Fin 1) (0 : Fin 1)) (fun b hb => by
      match b with
      | ⟨0, _⟩ => rfl
      | ⟨1, _⟩ => exact absurd rfl hb)).trans ?_
  unfold cntPiece
  rw [cntOf_apply]
  refine Finset.sum_congr rfl fun h _ => Finset.sum_congr rfl fun w _ => ?_
  rw [maskOf_isLab, labels_apply]

theorem out0_3_apply (x0 : Vec Ideal S1x4x512x1024 .f32) (x1 : Vec Ideal S1x512x1024 .i32) (ch : Fin 4) (l : Fin 9) :
    out0_3 (F := Ideal) x0 x1 (ix3 (0 : Fin 1) ch l)
      = ∑ h : Fin 512, ∑ w : Fin 1024, x0 (ix4 (0 : Fin 1) ch h w) * Cert.Spec.isLab (x1 (ix3 (0 : Fin 1) h w)) l := by
  rw [out0_3_eq, shapeCast_apply _ shapeCasts_S4x1x9_S1x4x9 (ix3 (0 : Fin 1) ch l) (ix3 ch (0 : Fin 1) l) (by
    rw [Shape.rowMajor_val_three, Shape.rowMajor_val_three]
    show (ch.val * 1 + 0) * 9 + l.val = (0 * 4 + ch.val) * 9 + l.val
    omega)]
  refine (concatenate_ofFn_unit_apply (t := S4x1x9) (s₁ := S4x1x1) (2 : Fin 3)
    (rowPiece (k0_pay3 (F := Ideal) x0) (k0_pay4 (F := Ideal) x1))
    concatenates_S4x1x1_S4x1x1_S4x1x1_S4x1x1_S4x1x1_S4x1x1_S4x1x1_S4x1x1_S4x1x1_S4x1x9_d2 rfl rfl (ix3 ch (0 : Fin 1) l) l rfl
    (ix3 ch (0 : Fin 1) (0 : Fin 1)) (fun b hb => by
      match b with
      | ⟨0, _⟩ => rfl
      | ⟨1, _⟩ => rfl
      | ⟨2, _⟩ => exact absurd rfl hb)).trans ?_
  unfold rowPiece
  rw [rowOf_apply]
  refine Finset.sum_congr rfl fun h _ => Finset.sum_congr rfl fun w _ => ?_
  rw [maskOf_isLab, labels_apply, values_apply]

end Cert.KernelIdeal.KStats

end
-- ==== Proof.KHinge.lean ====
/-
  The hinge kernel's output block, entry by entry. For one image with channel values `x0`, labels `x1` and the nine
  label means `x2` (a [1, 9, 4] block): entry `l` is the sum, over the pixels labelled `l`, of the pixel's hinge against
  mean `l` — written as a sum over all pixels against the 0/1 indicator of the label.

  The body repeats one computation for the nine labels. It is written once here, with the label word and the row of
  the means as parameters, and read at its one index; the nine pieces of the output are then instances of it.
-/
import proofs.«410175_j15839839388116_2_alg».proof.Proof.Gen.KernelIdeal.Frame
import proofs.«410175_j15839839388116_2_alg».proof.Proof.Spec
import Idealize.ShloMosaic.Lib.Pipeline.Value
import Idealize.ShloMosaic.Lib.ValueIdx
import Idealize.ShloMosaic.PureOps.Ideal.Laws

open scoped BigOperators

noncomputable section

namespace Cert.KernelIdeal.KHinge

open Idealize.ShloMosaic Idealize.ShloMosaic.ValueIdx Cert.KernelIdeal Cert.KernelIdeal.Gen

/-! ## One label's computation -/

/-- The 0/1 array of one label word `k`: 1 where the pixel's label word is `k`. -/
def maskLab (k : BitVec 32) (v3 : IVec S512x1024 32) : FVec Ideal S512x1024 .f32 :=
  sitofp .f32 (extui 32 (cmpi .eq v3 (broadcast S512x1024 k)) natLt_1_32)

/-- One row of the [9, 4] means, laid along the channel axis and repeated over every pixel. -/
def meanLab (off : Fin 2 → Nat) (hs : S9x4.Slices off S1x4) (v5 : FVec Ideal S9x4 .f32) : FVec Ideal S4x512x1024 .f32 :=
  broadcastTo S4x512x1024
    (shapeCast S4x1x1 (shapeCast S4 (extractStridedSlice S1x4 off v5 hs) shapeCasts_S1x4_S4) shapeCasts_S4_S4x1x1)
    broadcasts_S4x1x1_S4x512x1024

/-- Per pixel, from the squared differences: their sum over the channels, plus ε, the root, minus ½, clamped at 0. -/
def clampLab (sq : FVec Ideal S4x512x1024 .f32) : FVec Ideal S512x1024 .f32 :=
  maximumf
    (subf
      (sqrt (addf (multiReduction .add [0] S512x1024 sq 0x00000000#32 reduces_S4x512x1024_S512x1024 (.inl rfl) rfl)
        (broadcast S512x1024 (Scalar.ofBits (F := Ideal) .f32 0x322BCC77#32))))
      (broadcast S512x1024 (Scalar.ofBits (F := Ideal) .f32 0x3F000000#32)))
    (broadcast S512x1024 (Scalar.ofBits (F := Ideal) .f32 0x00000000#32))

/-- A [512, 1024] array summed over its columns, then over its rows, as a [1, 1] array. -/
def sumAll (g : FVec Ideal S512x1024 .f32) : FVec Ideal S1x1 .f32 :=
  shapeCast S1x1
    (multiReduction .add [0] S1
      (shapeCast S512x1 (multiReduction .add [1] S512 g 0x00000000#32 reduces_S512x1024_S512 (.inl rfl) rfl)
        shapeCasts_S512_S512x1)
      0x00000000#32 reduces_S512x1_S1 (.inl rfl) rfl)
    shapeCasts_S1_S1x1

/-- The whole computation for one label: the label word `k`, the row of the means cut at `off`. -/
def hingeLab (k : BitVec 32) (off : Fin 2 → Nat) (hs : S9x4.Slices off S1x4)
    (v1 : FVec Ideal S4x512x1024 .f32) (v3 : IVec S512x1024 32) (v5 : FVec Ideal S9x4 .f32) : FVec Ideal S1x1 .f32 :=
  sumAll
    (mulf
      (mulf (clampLab (mulf (subf v1 (meanLab off hs v5)) (subf v1 (meanLab off hs v5))))
        (clampLab (mulf (subf v1 (meanLab off hs v5)) (subf v1 (meanLab off hs v5)))))
      (maskLab k v3))

/-! ## Read at an index -/

/-- The 0/1 array at a pixel: the comparison's bit, widened and converted, is 1 or 0. -/
theorem maskLab_apply (k : BitVec 32) (v3 : IVec S512x1024 32) (h : Fin 512) (w : Fin 1024) :
    maskLab k v3 (ix2 h w) = if v3 (ix2 h w) = k then 1 else 0 := by
  show (((((IntOp.cmpi .eq (v3 (ix2 h w)) k).setWidth 32).toInt : ℝ)) : EReal) = _
  by_cases hx : v3 (ix2 h w) = k
  · rw [if_pos hx, hx]; simp [IntOp.cmpi]
  · rw [if_neg hx]
    have hb : (v3 (ix2 h w) == k) = false := beq_eq_false_iff_ne.mpr hx
    simp [IntOp.cmpi, hb]

/-- The repeated row of means at (channel, pixel): row `l` of the means at that channel. Outermost first: the
    repetition reads (c, 0, 0), the two views keep the position, the cut shifts the row by its offset. -/
theorem meanLab_apply (off : Fin 2 → Nat) (hs : S9x4.Slices off S1x4) (v5 : FVec Ideal S9x4 .f32) (l : Fin 9)
    (h0 : off 0 = l.val) (h1 : off 1 = 0) (c : Fin 4) (h : Fin 512) (w : Fin 1024) :
    meanLab off hs v5 (ix3 c h w) = v5 (ix2 l c) := by
  unfold meanLab
  refine (broadcastTo_apply _ _ (ix3 c h w) (ix3 c (0 : Fin 1) (0 : Fin 1))
    (fun a => match a with | ⟨0, _⟩ => rfl | ⟨1, _⟩ => rfl | ⟨2, _⟩ => rfl)).trans ?_
  refine (shapeCast_apply _ _ (ix3 c (0 : Fin 1) (0 : Fin 1)) (ix1 c) (by
    rw [Shape.rowMajor_val_one, Shape.rowMajor_val_three]; show c.val = (c.val * 1 + 0) * 1 + 0; omega)).trans ?_
  refine (shapeCast_apply _ _ (ix1 c) (ix2 (0 : Fin 1) c) (by
    rw [Shape.rowMajor_val_one, Shape.rowMajor_val_two]; show 0 * 4 + c.val = c.val; omega)).trans ?_
  exact extractStridedSlice_apply off v5 hs (ix2 (0 : Fin 1) c) (ix2 l c)
    (fun a => match a with
      | ⟨0, _⟩ => by show l.val = off 0 + 0; omega
      | ⟨1, _⟩ => by show c.val = off 1 + c.val; omega)

/-- The sum over the channel axis at a pixel. -/
theorem red0_apply (v : FVec Ideal S4x512x1024 .f32) (h : Fin 512) (w : Fin 1024) :
    multiReduction (F := Ideal) .add [0] S512x1024 v 0x00000000#32 reduces_S4x512x1024_S512x1024 (.inl rfl) rfl (ix2 h w)
      = ∑ c : Fin 4, v (ix3 c h w) := by
  refine (Ideal.multiReduction_add_single v _ reduces_S4x512x1024_S512x1024 _ _ (ix2 h w)).trans ?_
  refine Finset.sum_congr rfl fun c _ => congrArg v (funext fun a => ?_)
  match a with
  | ⟨0, _⟩ => rfl
  | ⟨1, _⟩ => rfl
  | ⟨2, _⟩ => rfl

/-- The clamped root at a pixel, over the squared differences against the row of means. -/
theorem clampLab_apply (off : Fin 2 → Nat) (hs : S9x4.Slices off S1x4)
    (v1 : FVec Ideal S4x512x1024 .f32) (v5 : FVec Ideal S9x4 .f32) (l : Fin 9)
    (h0 : off 0 = l.val) (h1 : off 1 = 0) (h : Fin 512) (w : Fin 1024) :
    clampLab (mulf (subf v1 (meanLab off hs v5)) (subf v1 (meanLab off hs v5))) (ix2 h w)
      = max (Ideal.sqrt ((∑ c : Fin 4, (v1 (ix3 c h w) - v5 (ix2 l c)) * (v1 (ix3 c h w) - v5 (ix2 l c))) + Cert.Spec.eps)
          - Cert.Spec.half) Cert.Spec.zero := by
  have hsq : multiReduction (F := Ideal) .add [0] S512x1024 (mulf (subf v1 (meanLab off hs v5)) (subf v1 (meanLab off hs v5)))
        0x00000000#32 reduces_S4x512x1024_S512x1024 (.inl rfl) rfl (ix2 h w)
      = ∑ c : Fin 4, (v1 (ix3 c h w) - v5 (ix2 l c)) * (v1 (ix3 c h w) - v5 (ix2 l c)) := by
    rw [red0_apply]
    refine Finset.sum_congr rfl fun c _ => ?_
    show (v1 (ix3 c h w) - meanLab off hs v5 (ix3 c h w)) * (v1 (ix3 c h w) - meanLab off hs v5 (ix3 c h w)) = _
    rw [meanLab_apply off hs v5 l h0 h1]
  show max (Ideal.sqrt (multiReduction (F := Ideal) .add [0] S512x1024 (mulf (subf v1 (meanLab off hs v5)) (subf v1 (meanLab off hs v5)))
        0x00000000#32 reduces_S4x512x1024_S512x1024 (.inl rfl) rfl (ix2 h w) + Ideal.ofBits .f32 0x322BCC77#32)
        - Ideal.ofBits .f32 0x3F000000#32) (Ideal.ofBits .f32 0x00000000#32) = _
  rw [hsq]

/-- The two sums: over the columns of each row, then over the rows. -/
theorem sumAll_apply (g : FVec Ideal S512x1024 .f32) :
    sumAll g (ix2 (0 : Fin 1) (0 : Fin 1)) = ∑ h : Fin 512, ∑ w : Fin 1024, g (ix2 h w) := by
  unfold sumAll
  refine (shapeCast_apply _ _ (ix2 (0 : Fin 1) (0 : Fin 1)) (ix1 (0 : Fin 1)) (by
    rw [Shape.rowMajor_val_one, Shape.rowMajor_val_two]; rfl)).trans ?_
  refine (Ideal.multiReduction_add_single _ _ reduces_S512x1_S1 _ _ (ix1 (0 : Fin 1))).trans ?_
  refine Finset.sum_congr rfl fun h _ => ?_
  have e : reduces_S512x1_S1.lift (ix1 (0 : Fin 1)) h = ix2 h (0 : Fin 1) :=
    funext fun a => match a with | ⟨0, _⟩ => rfl | ⟨1, _⟩ => rfl
  rw [e]
  refine (shapeCast_apply _ _ (ix2 h (0 : Fin 1)) (ix1 h) (by
    rw [Shape.rowMajor_val_one, Shape.rowMajor_val_two]; show h.val = h.val * 1 + 0; omega)).trans ?_
  refine (Ideal.multiReduction_add_single g _ reduces_S512x1024_S512 _ _ (ix1 h)).trans ?_
  exact Finset.sum_congr rfl fun w _ => congrArg g (funext fun a => match a with | ⟨0, _⟩ => rfl | ⟨1, _⟩ => rfl)

/-- One label's [1, 1] value: the sum over all pixels of the pixel's hinge against row `l` of the means, times the
    0/1 indicator of the label word. -/
theorem hingeLab_apply (k : BitVec 32) (off : Fin 2 → Nat) (hs : S9x4.Slices off S1x4)
    (v1 : FVec Ideal S4x512x1024 .f32) (v3 : IVec S512x1024 32) (v5 : FVec Ideal S9x4 .f32) (l : Fin 9)
    (h0 : off 0 = l.val) (h1 : off 1 = 0) :
    hingeLab k off hs v1 v3 v5 (ix2 (0 : Fin 1) (0 : Fin 1))
      = ∑ h : Fin 512, ∑ w : Fin 1024,
          Cert.Spec.hingeAt (fun c => v1 (ix3 c h w)) (fun c => v5 (ix2 l c)) * (if v3 (ix2 h w) = k then 1 else 0) := by
  unfold hingeLab
  rw [sumAll_apply]
  refine Finset.sum_congr rfl fun h _ => Finset.sum_congr rfl fun w _ => ?_
  show clampLab (mulf (subf v1 (meanLab off hs v5)) (subf v1 (meanLab off hs v5))) (ix2 h w)
      * clampLab (mulf (subf v1 (meanLab off hs v5)) (subf v1 (meanLab off hs v5))) (ix2 h w)
      * maskLab k v3 (ix2 h w) = _
  rw [clampLab_apply off hs v1 v5 l h0 h1, maskLab_apply]
  rfl

/-! ## The nine pieces of the output -/

/-- Every row of the [9, 4] means can be cut. -/
theorem sliceRow (n : Fin 9) : S9x4.Slices ![n.val, 0] S1x4 := by revert n; decide

/-- Piece `n`: the computation at the label word `n` and row `n` of the means. -/
def labPiece (v1 : FVec Ideal S4x512x1024 .f32) (v3 : IVec S512x1024 32) (v5 : FVec Ideal S9x4 .f32) (n : Fin 9) :
    FVec Ideal S1x1 .f32 :=
  hingeLab (BitVec.ofNat 32 n.val) ![n.val, 0] (sliceRow n) v1 v3 v5

section Pieces
variable (x0 : Vec Ideal S1x4x512x1024 .f32) (x1 : Vec Ideal S1x512x1024 .i32) (x2 : Vec Ideal S1x9x4 .f32)
variable (v1 : FVec Ideal S4x512x1024 .f32) (v3 : IVec S512x1024 32) (v5 : FVec Ideal S9x4 .f32)

/-! Each piece, as the payloads cut it, is that computation: the definitions unfold to the same operations. -/

set_option maxHeartbeats 40000 in
theorem piece0 : k1_pay4 (F := Ideal) x0 x1 x2 = labPiece (k1_pay1 x0) (k1_pay2 x1) (k1_pay3 x2) ⟨0, by decide⟩ := rfl

set_option maxHeartbeats 40000 in
theorem piece1 : k1_pay7 (F := Ideal) (k1_pay5 x1) (k1_pay6 x0 x2)
    = labPiece (k1_pay1 x0) (k1_pay2 x1) (k1_pay3 x2) ⟨1, by decide⟩ := rfl

set_option maxHeartbeats 40000 in
theorem piece2 : k1_pay8 (F := Ideal) v1 v3 v5 = labPiece v1 v3 v5 ⟨2, by decide⟩ := rfl

set_option maxHeartbeats 40000 in
theorem piece3 : k1_pay11 (F := Ideal) (k1_pay9 v3) (k1_pay10 v1 v5) = labPiece v1 v3 v5 ⟨3, by decide⟩ := rfl

set_option maxHeartbeats 40000 in
theorem piece4 : k1_pay12 (F := Ideal) v1 v3 v5 = labPiece v1 v3 v5 ⟨4, by decide⟩ := rfl

set_option maxHeartbeats 40000 in
theorem piece5 : k1_pay15 (F := Ideal) v1 (k1_pay13 v3) (k1_pay14 v5) = labPiece v1 v3 v5 ⟨5, by decide⟩ := rfl

set_option maxHeartbeats 40000 in
theorem piece6 : k1_pay16 (F := Ideal) v1 v3 v5 = labPiece v1 v3 v5 ⟨6, by decide⟩ := rfl

set_option maxHeartbeats 40000 in
/-- The last payload computes pieces 7 and 8 itself, lays the nine side by side and views the row as [1, 1, 9]. -/
theorem last_eq :
    k1_pay19 (F := Ideal) v1 v3 v5 (labPiece v1 v3 v5 ⟨0, by decide⟩) (labPiece v1 v3 v5 ⟨1, by decide⟩)
        (labPiece v1 v3 v5 ⟨2, by decide⟩) (labPiece v1 v3 v5 ⟨3, by decide⟩) (labPiece v1 v3 v5 ⟨4, by decide⟩)
        (labPiece v1 v3 v5 ⟨5, by decide⟩) (labPiece v1 v3 v5 ⟨6, by decide⟩) (k1_pay17 v3) (k1_pay18 v5)
      = shapeCast S1x1x9
          (concatenate S1x9 1 (List.ofFn fun n : Fin 9 => (⟨S1x1, labPiece v1 v3 v5 n⟩ : (s : Shape) × (s.Idx → Ideal .f32)))
            concatenates_S1x1_S1x1_S1x1_S1x1_S1x1_S1x1_S1x1_S1x1_S1x1_S1x9_d1)
          shapeCasts_S1x9_S1x1x9 := rfl

end Pieces

/-! ## The output block -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The buffer after the body: the nine pieces over the three loaded blocks without their leading unit axis. -/
theorem out1_3_eq (x0 : Vec Ideal S1x4x512x1024 .f32) (x1 : Vec Ideal S1x512x1024 .i32) (x2 : Vec Ideal S1x9x4 .f32) :
    out1_3 (F := Ideal) x0 x1 x2
      = shapeCast S1x1x9
          (concatenate S1x9 1
            (List.ofFn fun n : Fin 9 =>
              (⟨S1x1, labPiece (k1_pay1 x0) (k1_pay2 x1) (k1_pay3 x2) n⟩ : (s : Shape) × (s.Idx → Ideal .f32)))
            concatenates_S1x1_S1x1_S1x1_S1x1_S1x1_S1x1_S1x1_S1x1_S1x1_S1x9_d1)
          shapeCasts_S1x9_S1x1x9 := by
  unfold out1_3
  rw [View.canon_unit_zero hz3]
  simp only [View.ld_unit_zero (S := S1x4x512x1024) hz4, View.ld_unit_zero (S := S1x512x1024) hz3,
    View.ld_unit_zero (S := S1x9x4) hz3]
  rw [piece0, piece1, piece2, piece3, piece4, piece5, piece6, last_eq]

theorem out1_3_apply (x0 : Vec Ideal S1x4x512x1024 .f32) (x1 : Vec Ideal S1x512x1024 .i32) (x2 : Vec Ideal S1x9x4 .f32)
    (l : Fin 9) :
    out1_3 (F := Ideal) x0 x1 x2 (ix3 (0 : Fin 1) (0 : Fin 1) l)
      = ∑ h : Fin 512, ∑ w : Fin 1024,
          Cert.Spec.hingeAt (fun ch => x0 (ix4 (0 : Fin 1) ch h w)) (fun ch => x2 (ix3 (0 : Fin 1) l ch))
            * Cert.Spec.isLab (x1 (ix3 (0 : Fin 1) h w)) l := by
  rw [out1_3_eq]
  -- entry (0, 0, l) of the [1, 1, 9] view is entry (0, l) of the row of nine
  refine (shapeCast_apply _ _ (ix3 (0 : Fin 1) (0 : Fin 1) l) (ix2 (0 : Fin 1) l) (by
    rw [Shape.rowMajor_val_two, Shape.rowMajor_val_three]; show 0 * 9 + l.val = (0 * 1 + 0) * 9 + l.val; omega)).trans ?_
  -- which is piece `l` at its one index
  refine (concatenate_ofFn_unit_apply (t := S1x9) (s₁ := S1x1) (1 : Fin 2) (labPiece (k1_pay1 x0) (k1_pay2 x1) (k1_pay3 x2)) _ rfl rfl
    (ix2 (0 : Fin 1) l) l rfl (ix2 (0 : Fin 1) (0 : Fin 1))
    (fun b hb => match b, hb with
      | ⟨0, _⟩, _ => rfl
      | ⟨1, _⟩, hb => absurd rfl hb)).trans ?_
  unfold labPiece
  rw [hingeLab_apply _ _ _ _ _ _ l rfl rfl]
  -- the three blocks without their leading unit axis, read through
  refine Finset.sum_congr rfl fun h _ => Finset.sum_congr rfl fun w _ => ?_
  have e1 : ∀ c : Fin 4, k1_pay1 (F := Ideal) x0 (ix3 c h w) = x0 (ix4 (0 : Fin 1) c h w) := fun c =>
    shapeCast_apply _ _ (ix3 c h w) (ix4 (0 : Fin 1) c h w) (by
      rw [Shape.rowMajor_val_three, Shape.rowMajor_val_four]
      show (((0 * 4 + c.val) * 512 + h.val) * 1024 + w.val) = (c.val * 512 + h.val) * 1024 + w.val; omega)
  have e3 : k1_pay2 (F := Ideal) x1 (ix2 h w) = x1 (ix3 (0 : Fin 1) h w) :=
    shapeCast_apply _ _ (ix2 h w) (ix3 (0 : Fin 1) h w) (by
      rw [Shape.rowMajor_val_two, Shape.rowMajor_val_three]
      show (0 * 512 + h.val) * 1024 + w.val = h.val * 1024 + w.val; omega)
  have e5 : ∀ c : Fin 4, k1_pay3 (F := Ideal) x2 (ix2 l c) = x2 (ix3 (0 : Fin 1) l c) := fun c =>
    shapeCast_apply _ _ (ix2 l c) (ix3 (0 : Fin 1) l c) (by
      rw [Shape.rowMajor_val_two, Shape.rowMajor_val_three]
      show (0 * 9 + l.val) * 4 + c.val = l.val * 4 + c.val; omega)
  rw [e3, funext e1, funext e5]
  rfl

end Cert.KernelIdeal.KHinge

end
-- ==== Proof.KArrays.lean ====
/-
  What the two kernels leave in their output arrays, entry by entry, on core `c`: after the statistics kernel the count
  array [8, 1, 9] holds the number of pixels of image `b` labelled `l` and the sum array [8, 4, 9] the channel sums
  over them (grid point `b` writes block `b`, and the eight blocks tile the array); after the hinge kernel the array
  [8, 1, 9] holds, for image `b` and label `l`, the sum of the pixels' hinges against the mean the kernel was handed.

  The argument, three times over: at grid point `t` every window's block is image `t`'s slab of its array (block
  coordinate = block index × block size + coordinate inside the block, and the index maps are `t ↦ (t, 0, …)`); so what
  the point writes back, a sum over the block's pixels, is entry by entry the slab `t` of ONE whole-array
  function of the input arrays; the eight slabs cover the output array (index `(b, …)` lies in slab `b`), hence the
  array ends holding that function.
-/
import proofs.«410175_j15839839388116_2_alg».proof.Proof.Gen.KernelIdeal.Frame
import proofs.«410175_j15839839388116_2_alg».proof.Proof.Spec
import proofs.«410175_j15839839388116_2_alg».proof.Proof.KStats
import proofs.«410175_j15839839388116_2_alg».proof.Proof.KHinge
import Idealize.ShloMosaic.Lib.Pipeline.Value

open scoped BigOperators

noncomputable section

namespace Cert.KernelIdeal.KArrays

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ) (ρ : Dev nD → PrngReg)

/-- The two inputs as launched, on core `c`. -/
abbrev xs (c : Dev nD) : Cert.Spec.SX.Idx → EReal := m ((c : Thread nD τ).loc main_arg0)
abbrev ts (c : Dev nD) : Cert.Spec.ST.Idx → BitVec 32 := m ((c : Thread nD τ).loc main_arg1)

/-- A [1, 1, 9] block is determined by its nine entries. -/
theorem ext119 {α : Type} (f g : S1x1x9.Idx → α)
    (h : ∀ l : Fin 9, f (ix3 (0 : Fin 1) (0 : Fin 1) l) = g (ix3 (0 : Fin 1) (0 : Fin 1) l)) : f = g := by
  funext j
  have hj : j = ix3 (0 : Fin 1) (0 : Fin 1) (j 2) := by
    funext d
    match d with
    | ⟨0, _⟩ => exact Subsingleton.elim (α := Fin 1) _ _
    | ⟨1, _⟩ => exact Subsingleton.elim (α := Fin 1) _ _
    | ⟨2, _⟩ => rfl
  rw [hj]; exact h _

/-- A [1, 4, 9] block is determined by its thirty-six entries. -/
theorem ext149 {α : Type} (f g : S1x4x9.Idx → α)
    (h : ∀ (ch : Fin 4) (l : Fin 9), f (ix3 (0 : Fin 1) ch l) = g (ix3 (0 : Fin 1) ch l)) : f = g := by
  funext j
  have hj : j = ix3 (0 : Fin 1) (j 1) (j 2) := by
    funext d
    match d with
    | ⟨0, _⟩ => exact Subsingleton.elim (α := Fin 1) _ _
    | ⟨1, _⟩ => rfl
    | ⟨2, _⟩ => rfl
  rw [hj]; exact h _ _

/-- The image a grid point works on. -/
abbrev img (t : Fin cfg0.N) : Fin 8 := Fin.cast N_0 t
/-- The grid point that works on an image. -/
abbrev pt (b : Fin 8) : Fin cfg0.N := Fin.cast N_0.symm b

/-! ## The statistics kernel (entered with the buffers at `V`) -/

section Region0
variable (V : (c : Dev nD) → (b : Ref sig .tc) → Buf (Elt Ideal) ((c : Thread nD τ).loc b))

/-- The statistics kernel's index maps over its grid: every window's block at point `t` is image `t`'s, all other block
    coordinates being 0. -/
theorem idx0 : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- Point `t`'s block of the pixel array is image `t`: entry `(0, ch, h, w)` of the block is entry `(t, ch, h, w)` of the array. -/
theorem xblk0_apply (c : Dev nD) (t : Fin cfg0.N) (b : Fin 8) (hb : b.val = t.val) (ch : Fin 4) (h : Fin 512) (w : Fin 1024) :
    (iblk0 V c 0 t : Vec Ideal S1x4x512x1024 .f32) (ix4 (0 : Fin 1) ch h w)
      = (V c main_arg0 : S8x4x512x1024.Idx → EReal) (ix4 b ch h w) := by
  obtain ⟨e0, e1, e2, e3, -⟩ := idx0 t
  unfold iblk0
  rw [View.read_apply]
  show (V c main_arg0 : S8x4x512x1024.Idx → EReal) _ = _
  congr 1
  funext a
  apply Fin.ext
  match a with
  | ⟨0, _⟩ => show win0_0.index t (0 : Fin 4) * 1 + 1 * 0 = b.val; omega
  | ⟨1, _⟩ => show win0_0.index t (1 : Fin 4) * 4 + 1 * ch.val = ch.val; omega
  | ⟨2, _⟩ => show win0_0.index t (2 : Fin 4) * 512 + 1 * h.val = h.val; omega
  | ⟨3, _⟩ => show win0_0.index t (3 : Fin 4) * 1024 + 1 * w.val = w.val; omega

/-- Point `t`'s block of the label array is image `t`. -/
theorem tblk0_apply (c : Dev nD) (t : Fin cfg0.N) (b : Fin 8) (hb : b.val = t.val) (h : Fin 512) (w : Fin 1024) :
    (iblk0 V c 1 t : Vec Ideal S1x512x1024 .i32) (ix3 (0 : Fin 1) h w)
      = (V c main_arg1 : S8x512x1024.Idx → BitVec 32) (ix3 b h w) := by
  obtain ⟨-, -, -, -, e0, e1, e2, -⟩ := idx0 t
  unfold iblk0
  rw [View.read_apply]
  show (V c main_arg1 : S8x512x1024.Idx → BitVec 32) _ = _
  congr 1
  funext a
  apply Fin.ext
  match a with
  | ⟨0, _⟩ => show win0_1.index t (0 : Fin 3) * 1 + 1 * 0 = b.val; omega
  | ⟨1, _⟩ => show win0_1.index t (1 : Fin 3) * 512 + 1 * h.val = h.val; omega
  | ⟨2, _⟩ => show win0_1.index t (2 : Fin 3) * 1024 + 1 * w.val = w.val; omega

/-- The count array as a function of the label array: entry `(b, 0, l)` is the number of pixels of image `b` labelled `l`. -/
abbrev cntG (t : S8x512x1024.Idx → BitVec 32) : S8x1x9.Idx → EReal := fun i => Cert.Spec.cnt t (i 0) (i 2)

/-- Entry `l` of point `t`'s count block sits at `(t, 0, l)` in the array. -/
theorem emb0_2 (t : Fin cfg0.N) (l : Fin 9) :
    ((cfg0.win 2).blk t).view.emb (ix3 (0 : Fin 1) (0 : Fin 1) l) = (ix3 (img t) (0 : Fin 1) l : S8x1x9.Idx) := by
  obtain ⟨-, -, -, -, -, -, -, e0, e1, e2, -⟩ := idx0 t
  funext a
  apply Fin.ext
  match a with
  | ⟨0, _⟩ => show win0_2.index t (0 : Fin 3) * 1 + 1 * 0 = t.val; omega
  | ⟨1, _⟩ => show win0_2.index t (1 : Fin 3) * 1 + 1 * 0 = 0; omega
  | ⟨2, _⟩ => show win0_2.index t (2 : Fin 3) * 9 + 1 * l.val = l.val; omega

/-- What point `t` writes back to the count array is block `t` of `cntG`. -/
theorem flushed_cnt (c : Dev nD) (t : Fin cfg0.N) :
    (dat0 V c).flushed 2 t = ((cfg0.win 2).blk t).view.read (Elt Ideal) (cntG (V c main_arg1)) := by
  show (cfg0.win 2).cut (grid0.coords t) ((dat0 V c).after 2 t) = _
  rw [after0_2]
  refine ext119 _ _ fun l => ?_
  show out0_2 (F := Ideal) (iblk0 V c 0 t) (iblk0 V c 1 t) (ix3 (0 : Fin 1) (0 : Fin 1) l)
    = cntG (V c main_arg1) (((cfg0.win 2).blk t).view.emb (ix3 (0 : Fin 1) (0 : Fin 1) l))
  refine (KStats.out0_2_apply (iblk0 V c 0 t) (iblk0 V c 1 t) l).trans ?_
  refine Eq.trans ?_ (congrArg (cntG (V c main_arg1)) (emb0_2 t l)).symm
  show _ = Cert.Spec.cnt (V c main_arg1) (img t) l
  unfold Cert.Spec.cnt Cert.Spec.ind
  refine Finset.sum_congr rfl fun h _ => Finset.sum_congr rfl fun w _ => ?_
  exact congrArg (fun z => Cert.Spec.isLab z l) (tblk0_apply V c t (img t) rfl h w)

/-- Point `t`'s count block as a box of the array: axis by axis, from block index × block extent, one block extent long. -/
theorem mem_blk0_2 (t : Fin cfg0.N) (i : S8x1x9.Idx) :
    i ∈ ((cfg0.win 2).blk t).view.set ↔ ∀ a : Fin 3, win0_2.index t a * S1x1x9.size a ≤ (i a).val ∧ (i a).val < win0_2.index t a * S1x1x9.size a + S1x1x9.size a := by
  show i ∈ ((View.whole main_v0_0).slice (win0_2.rect t)).set ↔ _
  rw [View.set_slice_whole, Rect.mem_set_unit]
  exact Iff.rfl

/-- The eight blocks tile the count array: index `(b, 0, l)` is in point `b`'s block. -/
theorem cover0_2 (i : S8x1x9.Idx) : ∃ t : Fin cfg0.N, (cfg0.win 2).flush t = true ∧ i ∈ ((cfg0.win 2).blk t).view.set := by
  refine ⟨pt (i 0), flush0_2 _, ?_⟩
  rw [mem_blk0_2]
  obtain ⟨-, -, -, -, -, -, -, e0, e1, e2, -⟩ := idx0 (pt (i 0))
  have h0 : (pt (i 0)).val = (i 0).val := rfl
  have h1 : (i 1).val < 1 := (i 1).isLt
  have h2 : (i 2).val < 9 := (i 2).isLt
  intro a
  match a with
  | ⟨0, _⟩ => show win0_2.index (pt (i 0)) (0 : Fin 3) * 1 ≤ (i 0).val ∧ (i 0).val < win0_2.index (pt (i 0)) (0 : Fin 3) * 1 + 1; omega
  | ⟨1, _⟩ => show win0_2.index (pt (i 0)) (1 : Fin 3) * 1 ≤ (i 1).val ∧ (i 1).val < win0_2.index (pt (i 0)) (1 : Fin 3) * 1 + 1; omega
  | ⟨2, _⟩ => show win0_2.index (pt (i 0)) (2 : Fin 3) * 9 ≤ (i 2).val ∧ (i 2).val < win0_2.index (pt (i 0)) (2 : Fin 3) * 9 + 9; omega

/-- So the count array ends holding `cntG` of the labels. -/
theorem counts_arr (c : Dev nD) : (dat0 V c).arrAt 2 cfg0.N = cntG (V c main_arg1) :=
  (dat0 V c).arrAt_eq_of_cover 2 (cntG (V c main_arg1)) (fun t _ => flushed_cnt V c t) cover0_2

/-- The sum array as a function of the two inputs: entry `(b, ch, l)` is the sum of channel `ch` over the pixels of
    image `b` labelled `l`. -/
abbrev sumG (x : S8x4x512x1024.Idx → EReal) (t : S8x512x1024.Idx → BitVec 32) : S8x4x9.Idx → EReal :=
  fun i => Cert.Spec.lsum x t (i 0) (i 1) (i 2)

/-- Entry `(ch, l)` of point `t`'s sum block sits at `(t, ch, l)` in the array. -/
theorem emb0_3 (t : Fin cfg0.N) (ch : Fin 4) (l : Fin 9) :
    ((cfg0.win 3).blk t).view.emb (ix3 (0 : Fin 1) ch l) = (ix3 (img t) ch l : S8x4x9.Idx) := by
  obtain ⟨-, -, -, -, -, -, -, -, -, -, e0, e1, e2⟩ := idx0 t
  funext a
  apply Fin.ext
  match a with
  | ⟨0, _⟩ => show win0_3.index t (0 : Fin 3) * 1 + 1 * 0 = t.val; omega
  | ⟨1, _⟩ => show win0_3.index t (1 : Fin 3) * 4 + 1 * ch.val = ch.val; omega
  | ⟨2, _⟩ => show win0_3.index t (2 : Fin 3) * 9 + 1 * l.val = l.val; omega

/-- What point `t` writes back to the sum array is block `t` of `sumG`. -/
theorem flushed_sum (c : Dev nD) (t : Fin cfg0.N) :
    (dat0 V c).flushed 3 t = ((cfg0.win 3).blk t).view.read (Elt Ideal) (sumG (V c main_arg0) (V c main_arg1)) := by
  show (cfg0.win 3).cut (grid0.coords t) ((dat0 V c).after 3 t) = _
  rw [after0_3]
  refine ext149 _ _ fun ch l => ?_
  show out0_3 (F := Ideal) (iblk0 V c 0 t) (iblk0 V c 1 t) (ix3 (0 : Fin 1) ch l)
    = sumG (V c main_arg0) (V c main_arg1) (((cfg0.win 3).blk t).view.emb (ix3 (0 : Fin 1) ch l))
  refine (KStats.out0_3_apply (iblk0 V c 0 t) (iblk0 V c 1 t) ch l).trans ?_
  refine Eq.trans ?_ (congrArg (sumG (V c main_arg0) (V c main_arg1)) (emb0_3 t ch l)).symm
  show _ = Cert.Spec.lsum (V c main_arg0) (V c main_arg1) (img t) ch l
  unfold Cert.Spec.lsum Cert.Spec.ind
  refine Finset.sum_congr rfl fun h _ => Finset.sum_congr rfl fun w _ => ?_
  exact congrArg₂ (fun a z => a * Cert.Spec.isLab z l) (xblk0_apply V c t (img t) rfl ch h w) (tblk0_apply V c t (img t) rfl h w)

/-- Point `t`'s sum block as a box of the array: axis by axis, from block index × block extent, one block extent long. -/
theorem mem_blk0_3 (t : Fin cfg0.N) (i : S8x4x9.Idx) :
    i ∈ ((cfg0.win 3).blk t).view.set ↔ ∀ a : Fin 3, win0_3.index t a * S1x4x9.size a ≤ (i a).val ∧ (i a).val < win0_3.index t a * S1x4x9.size a + S1x4x9.size a := by
  show i ∈ ((View.whole main_v0_1).slice (win0_3.rect t)).set ↔ _
  rw [View.set_slice_whole, Rect.mem_set_unit]
  exact Iff.rfl

/-- The eight blocks tile the sum array: index `(b, ch, l)` is in point `b`'s block. -/
theorem cover0_3 (i : S8x4x9.Idx) : ∃ t : Fin cfg0.N, (cfg0.win 3).flush t = true ∧ i ∈ ((cfg0.win 3).blk t).view.set := by
  refine ⟨pt (i 0), flush0_3 _, ?_⟩
  rw [mem_blk0_3]
  obtain ⟨-, -, -, -, -, -, -, -, -, -, e0, e1, e2⟩ := idx0 (pt (i 0))
  have h0 : (pt (i 0)).val = (i 0).val := rfl
  have h1 : (i 1).val < 4 := (i 1).isLt
  have h2 : (i 2).val < 9 := (i 2).isLt
  intro a
  match a with
  | ⟨0, _⟩ => show win0_3.index (pt (i 0)) (0 : Fin 3) * 1 ≤ (i 0).val ∧ (i 0).val < win0_3.index (pt (i 0)) (0 : Fin 3) * 1 + 1; omega
  | ⟨1, _⟩ => show win0_3.index (pt (i 0)) (1 : Fin 3) * 4 ≤ (i 1).val ∧ (i 1).val < win0_3.index (pt (i 0)) (1 : Fin 3) * 4 + 4; omega
  | ⟨2, _⟩ => show win0_3.index (pt (i 0)) (2 : Fin 3) * 9 ≤ (i 2).val ∧ (i 2).val < win0_3.index (pt (i 0)) (2 : Fin 3) * 9 + 9; omega

/-- So the sum array ends holding `sumG` of the inputs. -/
theorem sums_arr (c : Dev nD) : (dat0 V c).arrAt 3 cfg0.N = sumG (V c main_arg0) (V c main_arg1) :=
  (dat0 V c).arrAt_eq_of_cover 3 (sumG (V c main_arg0) (V c main_arg1)) (fun t _ => flushed_sum V c t) cover0_3

end Region0

theorem W1_counts (c : Dev nD) (b : Fin 8) (l : Fin 9) :
    (W1 m ρ c (Proc.devRef .tc main_v0_0) : S8x1x9.Idx → EReal) (ix3 b (0 : Fin 1) l) = Cert.Spec.cnt (ts m c) b l := by
  show (W1 m ρ c (Proc.devRef .tc (Pipeline.arrRef spec0 2)) : S8x1x9.Idx → EReal) (ix3 b (0 : Fin 1) l) = _
  rw [W1_arr, counts_arr]

theorem W1_sums (c : Dev nD) (b : Fin 8) (ch : Fin 4) (l : Fin 9) :
    (W1 m ρ c (Proc.devRef .tc main_v0_1) : S8x4x9.Idx → EReal) (ix3 b ch l) = Cert.Spec.lsum (xs m c) (ts m c) b ch l := by
  show (W1 m ρ c (Proc.devRef .tc (Pipeline.arrRef spec0 3)) : S8x4x9.Idx → EReal) (ix3 b ch l) = _
  rw [W1_arr, sums_arr]

/-! ## The hinge kernel (entered with the buffers at `V`) -/

section Region1
variable (V : (c : Dev nD) → (b : Ref sig .tc) → Buf (Elt Ideal) ((c : Thread nD τ).loc b))

/-- The image a point of the second grid works on, and the point that works on an image. -/
abbrev img1 (t : Fin cfg1.N) : Fin 8 := Fin.cast N_1 t
abbrev pt1 (b : Fin 8) : Fin cfg1.N := Fin.cast N_1.symm b

/-- The hinge kernel's index maps over its grid: every window's block at point `t` is image `t`'s, all other block
    coordinates being 0. -/
theorem idx1 : ∀ t : Fin cfg1.N,
    win1_0.index t (0 : Fin 4) = t.val ∧ win1_0.index t (1 : Fin 4) = 0 ∧ win1_0.index t (2 : Fin 4) = 0 ∧ win1_0.index t (3 : Fin 4) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0 :=
  (by decide +kernel : ∀ t : Fin grid1.N, _)

/-- Point `t`'s block of the pixel array is image `t`. -/
theorem xblk1_apply (c : Dev nD) (t : Fin cfg1.N) (b : Fin 8) (hb : b.val = t.val) (ch : Fin 4) (h : Fin 512) (w : Fin 1024) :
    (iblk1 V c 0 t : Vec Ideal S1x4x512x1024 .f32) (ix4 (0 : Fin 1) ch h w)
      = (V c main_arg0 : S8x4x512x1024.Idx → EReal) (ix4 b ch h w) := by
  obtain ⟨e0, e1, e2, e3, -⟩ := idx1 t
  unfold iblk1
  rw [View.read_apply]
  show (V c main_arg0 : S8x4x512x1024.Idx → EReal) _ = _
  congr 1
  funext a
  apply Fin.ext
  match a with
  | ⟨0, _⟩ => show win1_0.index t (0 : Fin 4) * 1 + 1 * 0 = b.val; omega
  | ⟨1, _⟩ => show win1_0.index t (1 : Fin 4) * 4 + 1 * ch.val = ch.val; omega
  | ⟨2, _⟩ => show win1_0.index t (2 : Fin 4) * 512 + 1 * h.val = h.val; omega
  | ⟨3, _⟩ => show win1_0.index t (3 : Fin 4) * 1024 + 1 * w.val = w.val; omega

/-- Point `t`'s block of the label array is image `t`. -/
theorem tblk1_apply (c : Dev nD) (t : Fin cfg1.N) (b : Fin 8) (hb : b.val = t.val) (h : Fin 512) (w : Fin 1024) :
    (iblk1 V c 1 t : Vec Ideal S1x512x1024 .i32) (ix3 (0 : Fin 1) h w)
      = (V c main_arg1 : S8x512x1024.Idx → BitVec 32) (ix3 b h w) := by
  obtain ⟨-, -, -, -, e0, e1, e2, -⟩ := idx1 t
  unfold iblk1
  rw [View.read_apply]
  show (V c main_arg1 : S8x512x1024.Idx → BitVec 32) _ = _
  congr 1
  funext a
  apply Fin.ext
  match a with
  | ⟨0, _⟩ => show win1_1.index t (0 : Fin 3) * 1 + 1 * 0 = b.val; omega
  | ⟨1, _⟩ => show win1_1.index t (1 : Fin 3) * 512 + 1 * h.val = h.val; omega
  | ⟨2, _⟩ => show win1_1.index t (2 : Fin 3) * 1024 + 1 * w.val = w.val; omega

/-- Point `t`'s block of the mean array is image `t`'s nine means. -/
theorem mblk1_apply (c : Dev nD) (t : Fin cfg1.N) (b : Fin 8) (hb : b.val = t.val) (l : Fin 9) (ch : Fin 4) :
    (iblk1 V c 2 t : Vec Ideal S1x9x4 .f32) (ix3 (0 : Fin 1) l ch)
      = (V c main_v7 : S8x9x4.Idx → EReal) (ix3 b l ch) := by
  obtain ⟨-, -, -, -, -, -, -, e0, e1, e2, -⟩ := idx1 t
  unfold iblk1
  rw [View.read_apply]
  show (V c main_v7 : S8x9x4.Idx → EReal) _ = _
  congr 1
  funext a
  apply Fin.ext
  match a with
  | ⟨0, _⟩ => show win1_2.index t (0 : Fin 3) * 1 + 1 * 0 = b.val; omega
  | ⟨1, _⟩ => show win1_2.index t (1 : Fin 3) * 9 + 1 * l.val = l.val; omega
  | ⟨2, _⟩ => show win1_2.index t (2 : Fin 3) * 4 + 1 * ch.val = ch.val; omega

/-- The hinge array as a function of the pixels, the labels and the means handed in: entry `(b, 0, l)` is the sum over
    the pixels of image `b` labelled `l` of the pixel's hinge against mean `(b, l)`. -/
abbrev hingeG (x : S8x4x512x1024.Idx → EReal) (t : S8x512x1024.Idx → BitVec 32) (μ : S8x9x4.Idx → EReal) :
    S8x1x9.Idx → EReal :=
  fun i => ∑ h : Fin 512, ∑ w : Fin 1024,
    Cert.Spec.hingeAt (fun ch => x (ix4 (i 0) ch h w)) (fun ch => μ (ix3 (i 0) (i 2) ch)) * Cert.Spec.ind t (i 0) (i 2) h w

/-- Entry `l` of point `t`'s hinge block sits at `(t, 0, l)` in the array. -/
theorem emb1_3 (t : Fin cfg1.N) (l : Fin 9) :
    ((cfg1.win 3).blk t).view.emb (ix3 (0 : Fin 1) (0 : Fin 1) l) = (ix3 (img1 t) (0 : Fin 1) l : S8x1x9.Idx) := by
  obtain ⟨-, -, -, -, -, -, -, -, -, -, e0, e1, e2⟩ := idx1 t
  funext a
  apply Fin.ext
  match a with
  | ⟨0, _⟩ => show win1_3.index t (0 : Fin 3) * 1 + 1 * 0 = t.val; omega
  | ⟨1, _⟩ => show win1_3.index t (1 : Fin 3) * 1 + 1 * 0 = 0; omega
  | ⟨2, _⟩ => show win1_3.index t (2 : Fin 3) * 9 + 1 * l.val = l.val; omega

/-- What point `t` writes back to the hinge array is block `t` of `hingeG`. -/
theorem flushed_hinge (c : Dev nD) (t : Fin cfg1.N) :
    (dat1 V c).flushed 3 t
      = ((cfg1.win 3).blk t).view.read (Elt Ideal) (hingeG (V c main_arg0) (V c main_arg1) (V c main_v7)) := by
  show (cfg1.win 3).cut (grid1.coords t) ((dat1 V c).after 3 t) = _
  rw [after1_3]
  refine ext119 _ _ fun l => ?_
  show out1_3 (F := Ideal) (iblk1 V c 0 t) (iblk1 V c 1 t) (iblk1 V c 2 t) (ix3 (0 : Fin 1) (0 : Fin 1) l)
    = hingeG (V c main_arg0) (V c main_arg1) (V c main_v7) (((cfg1.win 3).blk t).view.emb (ix3 (0 : Fin 1) (0 : Fin 1) l))
  refine (KHinge.out1_3_apply (iblk1 V c 0 t) (iblk1 V c 1 t) (iblk1 V c 2 t) l).trans ?_
  refine Eq.trans ?_ (congrArg (hingeG (V c main_arg0) (V c main_arg1) (V c main_v7)) (emb1_3 t l)).symm
  show _ = ∑ h : Fin 512, ∑ w : Fin 1024,
    Cert.Spec.hingeAt (fun ch => (V c main_arg0 : S8x4x512x1024.Idx → EReal) (ix4 (img1 t) ch h w))
      (fun ch => (V c main_v7 : S8x9x4.Idx → EReal) (ix3 (img1 t) l ch))
      * Cert.Spec.isLab ((V c main_arg1 : S8x512x1024.Idx → BitVec 32) (ix3 (img1 t) h w)) l
  refine Finset.sum_congr rfl fun h _ => Finset.sum_congr rfl fun w _ => ?_
  have ex : (fun ch => (iblk1 V c 0 t : Vec Ideal S1x4x512x1024 .f32) (ix4 (0 : Fin 1) ch h w))
      = fun ch => (V c main_arg0 : S8x4x512x1024.Idx → EReal) (ix4 (img1 t) ch h w) :=
    funext fun ch => xblk1_apply V c t (img1 t) rfl ch h w
  have eμ : (fun ch => (iblk1 V c 2 t : Vec Ideal S1x9x4 .f32) (ix3 (0 : Fin 1) l ch))
      = fun ch => (V c main_v7 : S8x9x4.Idx → EReal) (ix3 (img1 t) l ch) :=
    funext fun ch => mblk1_apply V c t (img1 t) rfl l ch
  have et := tblk1_apply V c t (img1 t) rfl h w
  exact congrArg₂ (· * ·) (congrArg₂ Cert.Spec.hingeAt ex eμ) (congrArg (fun z => Cert.Spec.isLab z l) et)

/-- Point `t`'s hinge block as a box of the array: axis by axis, from block index × block extent, one block extent long. -/
theorem mem_blk1_3 (t : Fin cfg1.N) (i : S8x1x9.Idx) :
    i ∈ ((cfg1.win 3).blk t).view.set ↔ ∀ a : Fin 3, win1_3.index t a * S1x1x9.size a ≤ (i a).val ∧ (i a).val < win1_3.index t a * S1x1x9.size a + S1x1x9.size a := by
  show i ∈ ((View.whole main_v8).slice (win1_3.rect t)).set ↔ _
  rw [View.set_slice_whole, Rect.mem_set_unit]
  exact Iff.rfl

/-- The eight blocks tile the hinge array: index `(b, 0, l)` is in point `b`'s block. -/
theorem cover1_3 (i : S8x1x9.Idx) : ∃ t : Fin cfg1.N, (cfg1.win 3).flush t = true ∧ i ∈ ((cfg1.win 3).blk t).view.set := by
  refine ⟨pt1 (i 0), flush1_3 _, ?_⟩
  rw [mem_blk1_3]
  obtain ⟨-, -, -, -, -, -, -, -, -, -, e0, e1, e2⟩ := idx1 (pt1 (i 0))
  have h0 : (pt1 (i 0)).val = (i 0).val := rfl
  have h1 : (i 1).val < 1 := (i 1).isLt
  have h2 : (i 2).val < 9 := (i 2).isLt
  intro a
  match a with
  | ⟨0, _⟩ => show win1_3.index (pt1 (i 0)) (0 : Fin 3) * 1 ≤ (i 0).val ∧ (i 0).val < win1_3.index (pt1 (i 0)) (0 : Fin 3) * 1 + 1; omega
  | ⟨1, _⟩ => show win1_3.index (pt1 (i 0)) (1 : Fin 3) * 1 ≤ (i 1).val ∧ (i 1).val < win1_3.index (pt1 (i 0)) (1 : Fin 3) * 1 + 1; omega
  | ⟨2, _⟩ => show win1_3.index (pt1 (i 0)) (2 : Fin 3) * 9 ≤ (i 2).val ∧ (i 2).val < win1_3.index (pt1 (i 0)) (2 : Fin 3) * 9 + 9; omega

/-- So the hinge array ends holding `hingeG` of the three arrays the kernel was entered with. -/
theorem hinge_arr (c : Dev nD) :
    (dat1 V c).arrAt 3 cfg1.N = hingeG (V c main_arg0) (V c main_arg1) (V c main_v7) :=
  (dat1 V c).arrAt_eq_of_cover 3 (hingeG (V c main_arg0) (V c main_arg1) (V c main_v7)) (fun t _ => flushed_hinge V c t) cover1_3

end Region1

/-- The hinge kernel is entered with the pixel array as launched: the statistics kernel only reads it and the host
    operations in between write other buffers. -/
theorem V2_main_arg0 (c : Dev nD) : (V2 m ρ c main_arg0 : S8x4x512x1024.Idx → EReal) = xs m c :=
  calc W2 m ρ c (Proc.devRef .tc main_arg0)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

/-- Likewise the label array. -/
theorem V2_main_arg1 (c : Dev nD) : (V2 m ρ c main_arg1 : S8x512x1024.Idx → BitVec 32) = ts m c :=
  calc W2 m ρ c (Proc.devRef .tc main_arg1)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

theorem W3_hsum (c : Dev nD) (b : Fin 8) (l : Fin 9) :
    (W3 m ρ c (Proc.devRef .tc main_v8) : S8x1x9.Idx → EReal) (ix3 b (0 : Fin 1) l)
      = ∑ h : Fin 512, ∑ w : Fin 1024,
          Cert.Spec.hingeAt (fun ch => xs m c (ix4 b ch h w))
            (fun ch => (W2 m ρ c (Proc.devRef .tc main_v7) : S8x9x4.Idx → EReal) (ix3 b l ch))
            * Cert.Spec.ind (ts m c) b l h w := by
  show (W3 m ρ c (Proc.devRef .tc (Pipeline.arrRef spec1 3)) : S8x1x9.Idx → EReal) (ix3 b (0 : Fin 1) l) = _
  rw [W3_arr, hinge_arr]
  show hingeG (V2 m ρ c main_arg0) (V2 m ρ c main_arg1) (V2 m ρ c main_v7) (ix3 b (0 : Fin 1) l)
    = hingeG (xs m c) (ts m c) (W2 m ρ c (Proc.devRef .tc main_v7)) (ix3 b (0 : Fin 1) l)
  rw [V2_main_arg0, V2_main_arg1]

end Cert.KernelIdeal.KArrays

end
-- ==== Proof.Tail.lean ====
/-
  The host operations both programs apply, in the same order, to the three arrays they have computed — the per-label
  counts `A` [8, 9], the per-label mean hinge `B` [8, 9] and the label means `C` [8, 9, 4] — to reach the one result.
-/
import proofs.«410175_j15839839388116_2_alg».proof.KernelIdeal
import proofs.«410175_j15839839388116_2_alg».proof.Proof.Gen.KernelIdeal

noncomputable section

namespace Cert.KernelIdeal.Tail

open Idealize.ShloMosaic Cert.KernelIdeal Cert.KernelIdeal.Gen

variable {F : FTy → Type} [FloatOps F]

-- an array of 32-bit floats, of 32-bit integers, of booleans, of the given shape
set_option quotPrecheck false in
local notation "f32[" s "]" => (⟨s, .f32⟩ : BufTy).Contents (Elt F)
set_option quotPrecheck false in
local notation "i32[" s "]" => (⟨s, .i32⟩ : BufTy).Contents (Elt F)
set_option quotPrecheck false in
local notation "i1[" s "]" => (⟨s, .i1⟩ : BufTy).Contents (Elt F)

/-- A label of an image is "present" when its count exceeds 1 and it is not the label 0. The result is the mean over
    the 8 images of

      (the sum over the present labels of their mean hinge)
        + (the sum over the pairs `l < l'` of present labels of `(max (1 − √(Σ_c (mean_l c − mean_l' c)² + ε)) 0)²`)
            / (n − 1 + ε),   `n` the number of present labels, this second term kept only when `n > 1`.

    Every operation is written with the types of its operands and of its result. -/
def tail (A B : FVec F S8x9 .f32) (C : FVec F S8x9x4 .f32) : FVec F S1 .f32 :=
  -- the mask of present labels: count > 1.0, and label index ≥ 1
  let cst_0 : f32[S_] := constant S_ .f32 0x3F800000#32
  let v11 : f32[S8x9] := (broadcastInDim S8x9 ![] bcast_S_S8x9 : f32[S_] → f32[S8x9]) cst_0
  let v12 : i1[S8x9] := (cmpf (F := F) .ogt : f32[S8x9] → f32[S8x9] → i1[S8x9]) A v11
  let v13 : i32[S9] := iotaInDim S9 32 0
  let v14 : i32[S1x9] := (broadcastInDim S1x9 ![1] bcast_S9_S1x9_1 : i32[S9] → i32[S1x9]) v13
  let c : i32[S_] := constantI S_ 32 1#32
  let v15 : i32[S1x9] := (broadcastInDim S1x9 ![] bcast_S_S1x9 : i32[S_] → i32[S1x9]) c
  let v16 : i1[S1x9] := (cmpi .sge : i32[S1x9] → i32[S1x9] → i1[S1x9]) v14 v15
  let v17 : i1[S8x9] := (broadcastInDim S8x9 ![0, 1] bcast_S1x9_S8x9_0_1 : i1[S1x9] → i1[S8x9]) v16
  let v18 : i1[S8x9] := (andi : i1[S8x9] → i1[S8x9] → i1[S8x9]) v12 v17
  -- the mean hinge of the present labels (0 elsewhere), summed over the labels of each image
  let cst_1 : f32[S_] := constant S_ .f32 0x00000000#32
  let call0_v0 : f32[S_] := (id : f32[S_] → f32[S_]) cst_1
  let call0_v1 : f32[S8x9] := (broadcastInDim S8x9 ![] bcast_S_S8x9 : f32[S_] → f32[S8x9]) call0_v0
  let v19 : f32[S8x9] := (select : i1[S8x9] → f32[S8x9] → f32[S8x9] → f32[S8x9]) v18 B call0_v1
  let cst_2 : f32[S_] := constant S_ .f32 0x00000000#32
  let v20 : f32[S8] := Host.reduceAdd v19 cst_2 reducesTo_S8x9_S8_d1 h_S_
  -- the pairwise term: mean_l − mean_l' per channel, squared and summed over the 4 channels
  let v21 : f32[S8x9x1x4] := (broadcastInDim S8x9x1x4 ![0, 1, 3] bcast_S8x9x4_S8x9x1x4_0_1_3 : f32[S8x9x4] → f32[S8x9x1x4]) C
  let v22 : f32[S8x1x9x4] := (broadcastInDim S8x1x9x4 ![0, 2, 3] bcast_S8x9x4_S8x1x9x4_0_2_3 : f32[S8x9x4] → f32[S8x1x9x4]) C
  let v23 : f32[S8x9x9x4] := (broadcastInDim S8x9x9x4 ![0, 1, 2, 3] bcast_S8x9x1x4_S8x9x9x4_0_1_2_3 : f32[S8x9x1x4] → f32[S8x9x9x4]) v21
  let v24 : f32[S8x9x9x4] := (broadcastInDim S8x9x9x4 ![0, 1, 2, 3] bcast_S8x1x9x4_S8x9x9x4_0_1_2_3 : f32[S8x1x9x4] → f32[S8x9x9x4]) v22
  let v25 : f32[S8x9x9x4] := (subf : f32[S8x9x9x4] → f32[S8x9x9x4] → f32[S8x9x9x4]) v23 v24
  let v26 : f32[S8x9x9x4] := (mulf : f32[S8x9x9x4] → f32[S8x9x9x4] → f32[S8x9x9x4]) v25 v25
  let cst_3 : f32[S_] := constant S_ .f32 0x00000000#32
  let v27 : f32[S8x9x9] := Host.reduceAdd v26 cst_3 reducesTo_S8x9x9x4_S8x9x9_d3 h_S_
  -- (max (1 − √(· + ε)) 0)²
  let cst_4 : f32[S_] := constant S_ .f32 0x322BCC77#32
  let v28 : f32[S8x9x9] := (broadcastInDim S8x9x9 ![] bcast_S_S8x9x9 : f32[S_] → f32[S8x9x9]) cst_4
  let v29 : f32[S8x9x9] := (addf : f32[S8x9x9] → f32[S8x9x9] → f32[S8x9x9]) v27 v28
  let v30 : f32[S8x9x9] := (Host.sqrt : f32[S8x9x9] → f32[S8x9x9]) v29
  let cst_5 : f32[S_] := constant S_ .f32 0x3F800000#32
  let v31 : f32[S8x9x9] := (broadcastInDim S8x9x9 ![] bcast_S_S8x9x9 : f32[S_] → f32[S8x9x9]) cst_5
  let v32 : f32[S8x9x9] := (subf : f32[S8x9x9] → f32[S8x9x9] → f32[S8x9x9]) v31 v30
  let cst_6 : f32[S_] := constant S_ .f32 0x00000000#32
  let v33 : f32[S8x9x9] := (broadcastInDim S8x9x9 ![] bcast_S_S8x9x9 : f32[S_] → f32[S8x9x9]) cst_6
  let v34 : f32[S8x9x9] := (maximumf : f32[S8x9x9] → f32[S8x9x9] → f32[S8x9x9]) v32 v33
  let v35 : f32[S8x9x9] := (mulf : f32[S8x9x9] → f32[S8x9x9] → f32[S8x9x9]) v34 v34
  -- the pairs kept: l < l', both present
  let v36 : i32[S9] := iotaInDim S9 32 0
  let v37 : i32[S9x1] := (broadcastInDim S9x1 ![0] bcast_S9_S9x1_0 : i32[S9] → i32[S9x1]) v36
  let v38 : i32[S9] := iotaInDim S9 32 0
  let v39 : i32[S1x9] := (broadcastInDim S1x9 ![1] bcast_S9_S1x9_1 : i32[S9] → i32[S1x9]) v38
  let v40 : i32[S9x9] := (broadcastInDim S9x9 ![0, 1] bcast_S9x1_S9x9_0_1 : i32[S9x1] → i32[S9x9]) v37
  let v41 : i32[S9x9] := (broadcastInDim S9x9 ![0, 1] bcast_S1x9_S9x9_0_1 : i32[S1x9] → i32[S9x9]) v39
  let v42 : i1[S9x9] := (cmpi .slt : i32[S9x9] → i32[S9x9] → i1[S9x9]) v40 v41
  let v43 : i1[S8x9x1] := (broadcastInDim S8x9x1 ![0, 1] bcast_S8x9_S8x9x1_0_1 : i1[S8x9] → i1[S8x9x1]) v18
  let v44 : i1[S8x1x9] := (broadcastInDim S8x1x9 ![0, 2] bcast_S8x9_S8x1x9_0_2 : i1[S8x9] → i1[S8x1x9]) v18
  let v45 : i1[S8x9x9] := (broadcastInDim S8x9x9 ![0, 1, 2] bcast_S8x9x1_S8x9x9_0_1_2 : i1[S8x9x1] → i1[S8x9x9]) v43
  let v46 : i1[S8x9x9] := (broadcastInDim S8x9x9 ![0, 1, 2] bcast_S8x1x9_S8x9x9_0_1_2 : i1[S8x1x9] → i1[S8x9x9]) v44
  let v47 : i1[S8x9x9] := (andi : i1[S8x9x9] → i1[S8x9x9] → i1[S8x9x9]) v45 v46
  let v48 : i1[S1x9x9] := (broadcastInDim S1x9x9 ![1, 2] bcast_S9x9_S1x9x9_1_2 : i1[S9x9] → i1[S1x9x9]) v42
  let v49 : i1[S8x9x9] := (broadcastInDim S8x9x9 ![0, 1, 2] bcast_S1x9x9_S8x9x9_0_1_2 : i1[S1x9x9] → i1[S8x9x9]) v48
  let v50 : i1[S8x9x9] := (andi : i1[S8x9x9] → i1[S8x9x9] → i1[S8x9x9]) v47 v49
  let cst_7 : f32[S_] := constant S_ .f32 0x00000000#32
  let call1_v0 : f32[S_] := (id : f32[S_] → f32[S_]) cst_7
  let call1_v1 : f32[S8x9x9] := (broadcastInDim S8x9x9 ![] bcast_S_S8x9x9 : f32[S_] → f32[S8x9x9]) call1_v0
  let v51 : f32[S8x9x9] := (select : i1[S8x9x9] → f32[S8x9x9] → f32[S8x9x9] → f32[S8x9x9]) v50 v35 call1_v1
  -- summed over the kept pairs of each image
  let cst_8 : f32[S_] := constant S_ .f32 0x00000000#32
  let v52 : f32[S8] := Host.reduceAdd v51 cst_8 reducesTo_S8x9x9_S8_d1_2 h_S_
  -- n, the number of present labels of each image, as a float; the pair sum over n − 1 + ε, kept when n > 1
  let v53 : i32[S8x9] := extui 32 v18 natLt_1_32
  let c_9 : i32[S_] := constantI S_ 32 0#32
  let v54 : i32[S8] := Host.reduce IntOp.addi v53 c_9 reducesTo_S8x9_S8_d1 h_S_
  let v55 : f32[S8] := (sitofp (F := F) .f32 : i32[S8] → f32[S8]) v54
  let cst_10 : f32[S_] := constant S_ .f32 0x3F800000#32
  let v56 : f32[S8] := (broadcastInDim S8 ![] bcast_S_S8 : f32[S_] → f32[S8]) cst_10
  let v57 : i1[S8] := (cmpf (F := F) .ogt : f32[S8] → f32[S8] → i1[S8]) v55 v56
  let cst_11 : f32[S_] := constant S_ .f32 0x3F800000#32
  let v58 : f32[S8] := (broadcastInDim S8 ![] bcast_S_S8 : f32[S_] → f32[S8]) cst_11
  let v59 : f32[S8] := (subf : f32[S8] → f32[S8] → f32[S8]) v55 v58
  let cst_12 : f32[S_] := constant S_ .f32 0x322BCC77#32
  let v60 : f32[S8] := (broadcastInDim S8 ![] bcast_S_S8 : f32[S_] → f32[S8]) cst_12
  let v61 : f32[S8] := (addf : f32[S8] → f32[S8] → f32[S8]) v59 v60
  let v62 : f32[S8] := (Host.divf : f32[S8] → f32[S8] → f32[S8]) v52 v61
  let cst_13 : f32[S_] := constant S_ .f32 0x00000000#32
  let call2_v0 : f32[S_] := (id : f32[S_] → f32[S_]) cst_13
  let call2_v1 : f32[S8] := (broadcastInDim S8 ![] bcast_S_S8 : f32[S_] → f32[S8]) call2_v0
  let v63 : f32[S8] := (select : i1[S8] → f32[S8] → f32[S8] → f32[S8]) v57 v62 call2_v1
  -- the two terms added per image, summed over the 8 images, divided by 8.0
  let v64 : f32[S8] := (addf : f32[S8] → f32[S8] → f32[S8]) v63 v20
  let cst_14 : f32[S_] := constant S_ .f32 0x00000000#32
  let v65 : f32[S_] := Host.reduceAdd v64 cst_14 reducesTo_S8_S_d0 h_S_
  let cst_15 : f32[S_] := constant S_ .f32 0x41000000#32
  let v66 : f32[S_] := (Host.divf : f32[S_] → f32[S_] → f32[S_]) v65 cst_15
  shapeCast S1 v66 shapeCasts_S_S1

end Cert.KernelIdeal.Tail

end
-- ==== Proof.KGlue.lean ====
/-
  The host operations around the two kernels, read on core `c`: between them the counts are reshaped to [8, 9], clamped
  below by 1, and the sums divided by them and transposed into the means [8, 9, 4]; after the hinge kernel its sums are
  reshaped and divided by the clamped counts; and the rest of @main is the common tail applied to those three arrays.
-/
import proofs.«410175_j15839839388116_2_alg».proof.Proof.Gen.KernelIdeal.Frame
import proofs.«410175_j15839839388116_2_alg».proof.Proof.Spec
import proofs.«410175_j15839839388116_2_alg».proof.Proof.KArrays
import proofs.«410175_j15839839388116_2_alg».proof.Proof.Tail

open scoped BigOperators

noncomputable section

namespace Cert.KernelIdeal.KGlue

open Idealize.ShloMosaic Idealize.ShloMosaic.TcCoe Idealize.ShloMosaic.ValueIdx Idealize.SL.Sem Cert.KernelIdeal Cert.KernelIdeal.Gen Cert.KernelIdeal.KArrays

/-- From the hinge kernel's exit on, @main is the common tail: of the reshaped counts, of the hinge sums reshaped to
    [8, 9] and divided by the clamped counts, and of the means, each as the hinge kernel's exit holds it. The operations
    after the hinge kernel, read one by one at the result buffer, are the tail's own, whatever the float model. -/
theorem W10_tail {F : FTy → Type} [FloatOps F] (m : (ℓ : Loc nD τ sig) → Buf (Elt F) ℓ) (ρ : Dev nD → PrngReg) (c : Dev nD) :
    (W10 m ρ c (Proc.devRef .tc main_v67) : FVec F S1 .f32)
      = Cert.KernelIdeal.Tail.tail (W3 m ρ c (Proc.devRef .tc main_v1))
          (Host.divf (F := F) (φ := .f32)
            (fun i => shapeCast S8x9 (W3 m ρ c (Proc.devRef .tc main_v8) : FVec F S8x1x9 .f32) shapeCasts_S8x1x9_S8x9 i)
            (W3 m ρ c (Proc.devRef .tc main_v3)))
          (W3 m ρ c (Proc.devRef .tc main_v7)) := by
  show StableHlo.after hostOps2_6 (StableHlo.after hostOps2_5 (StableHlo.after hostOps2_4 (StableHlo.after hostOps2_3
    (StableHlo.after hostOps2_2 (StableHlo.after hostOps2_1 (StableHlo.after hostOps2 (W3 m ρ c)))))))
      (Proc.devRef .tc main_v67) = _
  after_results_simp
  rfl

variable (m : (ℓ : Loc nD τ sig) → Buf (Elt Ideal) ℓ) (ρ : Dev nD → PrngReg)

/-! ## Between the kernels -/

/-- The count array [8, 1, 9] is reshaped to [8, 9]. -/
theorem W2_v1_eq (c : Dev nD) :
    (W2 m ρ c (Proc.devRef .tc main_v1) : S8x9.Idx → EReal)
      = fun i => shapeCast S8x9 (W1 m ρ c (Proc.devRef .tc main_v0_0) : S8x1x9.Idx → EReal) shapeCasts_S8x1x9_S8x9 i := by
  show StableHlo.after hostOps1 (W1 m ρ c) (Proc.devRef .tc main_v1) = _
  after_results
  rfl

/-- Entry `(b, l)` of the reshaped array is entry `(b, 0, l)` of the count array (both sit at row-major position
    `9 b + l`), the number of pixels of image `b` labelled `l`. -/
theorem W2_counts (c : Dev nD) :
    (W2 m ρ c (Proc.devRef .tc main_v1) : S8x9.Idx → EReal) = Cert.Spec.countsG (ts m c) := by
  rw [W2_v1_eq]
  funext i
  obtain ⟨b, l, rfl⟩ : ∃ b l, i = ix2 b l := ⟨i 0, i 1, eq_ix2 i⟩
  rw [Cert.Spec.countsG_apply, ← W1_counts m ρ c b l]
  exact shapeCast_apply _ shapeCasts_S8x1x9_S8x9 (ix2 b l) (ix3 b (0 : Fin 1) l)
    (by rw [Shape.rowMajor_val_two, Shape.rowMajor_val_three]
        show (b.val * 1 + 0) * 9 + l.val = b.val * 9 + l.val
        omega)

/-- The clamped counts: the larger of the reshaped counts and the constant 1.0 spread over [8, 9]. -/
theorem W2_v3_eq (c : Dev nD) :
    (W2 m ρ c (Proc.devRef .tc main_v3) : S8x9.Idx → EReal)
      = maximumf (W2 m ρ c (Proc.devRef .tc main_v1) : S8x9.Idx → EReal)
          (broadcastInDim S8x9 ![] bcast_S_S8x9 (constant (F := Ideal) S_ .f32 0x3F800000#32)) := by
  rw [W2_v1_eq]
  show StableHlo.after hostOps1 (W1 m ρ c) (Proc.devRef .tc main_v3) = _
  after_results
  rfl

/-- Entry by entry that is `max (count) 1`: on the extended reals the float maximum is `max`, and a spread scalar
    reads as the scalar at every index. -/
theorem W2_safe (c : Dev nD) (b : Fin 8) (l : Fin 9) :
    (W2 m ρ c (Proc.devRef .tc main_v3) : S8x9.Idx → EReal) (ix2 b l) = Cert.Spec.safe (ts m c) b l := by
  rw [W2_v3_eq, W2_counts]
  rfl

/-- The means: the sum array [8, 4, 9] divided by the clamped counts spread along the channel axis ([8, 9] → [8, 1, 9]
    → [8, 4, 9]), then the channel axis moved last. -/
theorem W2_v7_eq (c : Dev nD) :
    (W2 m ρ c (Proc.devRef .tc main_v7) : S8x9x4.Idx → EReal)
      = transpose S8x9x4 [0, 2, 1]
          (Host.divf (F := Ideal) (φ := .f32) (W1 m ρ c (Proc.devRef .tc main_v0_1) : S8x4x9.Idx → EReal)
            (broadcastInDim S8x4x9 ![0, 1, 2] bcast_S8x1x9_S8x4x9_0_1_2
              (broadcastInDim S8x1x9 ![0, 2] bcast_S8x9_S8x1x9_0_2
                (W2 m ρ c (Proc.devRef .tc main_v3) : S8x9.Idx → EReal))))
          transposes_S8x4x9_S8x9x4_0_2_1 := by
  rw [W2_v3_eq, W2_v1_eq]
  show StableHlo.after hostOps1 (W1 m ρ c) (Proc.devRef .tc main_v7) = _
  after_results
  rfl

/-- Entry `(b, l, ch)` of the transposed array is entry `(b, ch, l)` of the quotient: the channel sum over the pixels
    of image `b` labelled `l`, divided by the clamped count at `(b, l)` (the spread arrays read at `(b, ch, l)` and at
    `(b, 0, l)` are the clamped counts at `(b, l)`). The host division on the extended reals is `Ideal.div`. -/
theorem W2_means (c : Dev nD) :
    (W2 m ρ c (Proc.devRef .tc main_v7) : S8x9x4.Idx → EReal) = Cert.Spec.meansG (xs m c) (ts m c) := by
  rw [W2_v7_eq]
  funext i
  obtain ⟨b, l, ch, rfl⟩ : ∃ b l ch, i = ix3 b l ch := ⟨i 0, i 1, i 2, eq_ix3 i⟩
  rw [Cert.Spec.meansG_apply]
  rw [transpose_apply [0, 2, 1] _ transposes_S8x4x9_S8x9x4_0_2_1 (ix3 b l ch) (ix3 b ch l)
    (by intro a; match a with | ⟨0, _⟩ => rfl | ⟨1, _⟩ => rfl | ⟨2, _⟩ => rfl)]
  show Ideal.div ((W1 m ρ c (Proc.devRef .tc main_v0_1) : S8x4x9.Idx → EReal) (ix3 b ch l)) _ = _
  rw [W1_sums,
    broadcastInDim_apply _ bcast_S8x1x9_S8x4x9_0_1_2 _ (ix3 b ch l) (ix3 b (0 : Fin 1) l)
      (by intro a; match a with | ⟨0, _⟩ => rfl | ⟨1, _⟩ => rfl | ⟨2, _⟩ => rfl),
    broadcastInDim_apply _ bcast_S8x9_S8x1x9_0_2 _ (ix3 b (0 : Fin 1) l) (ix2 b l)
      (by intro a; match a with | ⟨0, _⟩ => rfl | ⟨1, _⟩ => rfl),
    W2_safe]
  rfl

/-! ## At the hinge kernel's exit

The hinge kernel writes only its own output array: the reshaped and the clamped counts are as it found them, and the
means, which it reads through an input window, too. -/

theorem W3_counts (c : Dev nD) :
    (W3 m ρ c (Proc.devRef .tc main_v1) : S8x9.Idx → EReal) = Cert.Spec.countsG (ts m c) :=
  (W3_of_ne m ρ c main_v1 (by decide)).trans (W2_counts m ρ c)

theorem W3_safe (c : Dev nD) (b : Fin 8) (l : Fin 9) :
    (W3 m ρ c (Proc.devRef .tc main_v3) : S8x9.Idx → EReal) (ix2 b l) = Cert.Spec.safe (ts m c) b l :=
  (congrFun (W3_of_ne m ρ c main_v3 (by decide)) (ix2 b l)).trans (W2_safe m ρ c b l)

theorem W3_means (c : Dev nD) :
    (W3 m ρ c (Proc.devRef .tc main_v7) : S8x9x4.Idx → EReal) = Cert.Spec.meansG (xs m c) (ts m c) :=
  ((W3_arr m ρ c 2).trans (((dat1 (V2 m ρ) c).arrAt_in 2 rfl _).trans (A_eq1 (V2 m ρ) c 2))).trans (W2_means m ρ c)

/-- The hinge sums [8, 1, 9], reshaped to [8, 9] and divided by the clamped counts, are the per-label mean hinge: entry
    `(b, l)` is the sum over the pixels of image `b` labelled `l` of the pixel's hinge against the mean `(b, l)` — the
    means the kernel was handed being the specification's —, over `max (count) 1`. -/
theorem W3_var (c : Dev nD) :
    Host.divf (F := Ideal) (φ := .f32)
        (fun i => shapeCast S8x9 (W3 m ρ c (Proc.devRef .tc main_v8) : S8x1x9.Idx → EReal) shapeCasts_S8x1x9_S8x9 i)
        (W3 m ρ c (Proc.devRef .tc main_v3) : S8x9.Idx → EReal)
      = Cert.Spec.varG (xs m c) (ts m c) := by
  funext i
  obtain ⟨b, l, rfl⟩ : ∃ b l, i = ix2 b l := ⟨i 0, i 1, eq_ix2 i⟩
  show Ideal.div (shapeCast S8x9 (W3 m ρ c (Proc.devRef .tc main_v8) : S8x1x9.Idx → EReal) shapeCasts_S8x1x9_S8x9 (ix2 b l))
      ((W3 m ρ c (Proc.devRef .tc main_v3) : S8x9.Idx → EReal) (ix2 b l)) = _
  rw [shapeCast_apply _ shapeCasts_S8x1x9_S8x9 (ix2 b l) (ix3 b (0 : Fin 1) l)
      (by rw [Shape.rowMajor_val_two, Shape.rowMajor_val_three]
          show (b.val * 1 + 0) * 9 + l.val = b.val * 9 + l.val
          omega),
    W3_hsum, W3_safe, W2_means]
  rfl

/-- The result buffer at the end of @main is the common tail of the three arrays. -/
theorem W10_result (c : Dev nD) :
    (W10 m ρ c (Proc.devRef .tc main_v67) : S1.Idx → EReal)
      = Cert.KernelIdeal.Tail.tail (F := Ideal) (Cert.Spec.countsG (ts m c)) (Cert.Spec.varG (xs m c) (ts m c))
          (Cert.Spec.meansG (xs m c) (ts m c)) := by
  rw [W10_tail, W3_counts, W3_var, W3_means]

end Cert.KernelIdeal.KGlue

end
-- ==== Proof.LibGatherScatter.lean ====
/-
  ROWS READ AND ROWS SUMMED. A host `stablehlo.gather` whose start indices are an [n × 1] column and whose operand's
  leading axis is collapsed and start-indexed reads, at result row `e`, the operand's row named by start index `e` read
  signed and clamped into the operand (`gather_rows` for an [N × D] operand, `gather_row1` for an [N] one). A host float
  `stablehlo.scatter` with an `add` body over the same column of indices, its operand's leading axis inserted, adds to
  operand row `i` every update row whose start index read signed (not clamped) is `i` (`scatterAdd_rows`,
  `scatterAdd_row1`); an update row whose index is negative or past the end lands nowhere.
-/
import Idealize.ShloMosaic.Lib.StableHlo.Predicate
import Idealize.ShloMosaic.Lib.ValueIdx
import Idealize.ShloMosaic.PureOps.Ideal.Laws

open scoped BigOperators

namespace Idealize.ShloMosaic.RowOps

open Idealize.ShloMosaic Idealize.ShloMosaic.ValueIdx Idealize.ShloMosaic.StableHlo.Predicate

/-! ## The row a start index names -/

/-- Row `e` of an [n,1] column of start indices, read signed and clamped into [0, N-1]. -/
def clampRow {n w : Nat} (N : Nat) (hN : 0 < N) (idx : IVec ⟨2, ![n, 1]⟩ w) (e : Fin n) : Fin N :=
  ⟨min (idx (ixP e)).toInt.toNat (N - 1), by omega⟩

/-- update row `e` lands on operand row `i`: its start index read SIGNED and NOT clamped is `i`. -/
def lands {n w : Nat} (idx : IVec ⟨2, ![n, 1]⟩ w) (e : Fin n) (i : Nat) : Prop := (idx (ixP e)).toInt = (i : Int)

instance {n w : Nat} (idx : IVec ⟨2, ![n, 1]⟩ w) (e : Fin n) (i : Nat) : Decidable (lands idx e i) := by
  unfold lands; infer_instance

/-- A word that reads signed as `i < N` is not negative and is not clamped. -/
theorem clampRow_of_lands {n w N : Nat} (hN : 0 < N) (idx : IVec ⟨2, ![n, 1]⟩ w) (e : Fin n) (i : Fin N)
    (h : lands idx e i.val) : clampRow N hN idx e = i := by
  apply Fin.ext
  show min (idx (ixP e)).toInt.toNat (N - 1) = i.val
  unfold lands at h
  rw [h, Int.toNat_natCast]
  have := i.isLt
  omega

/-! ## Gathers of rows -/

/-- Every element of a one-element list is that element. -/
private theorem getElem_singleton_of_eq {β : Type} {l : List β} {b : β} (h : l = [b]) (k : Nat) (hk : k < l.length) :
    l[k] = b :=
  List.mem_singleton.1 (h ▸ List.getElem_mem hk)

/-- THE ROW TAKE. A `stablehlo.gather` of an [N × D] operand whose start indices are an [n × 1] column of row numbers:
    operand axis 0 collapsed and start-indexed, operand axis 1 whole (slice sizes [1, D]) and read by the result's
    offset axis 1, no batching axes, the index vector on axis 1. Result element (e, j) is the operand's element (r, j),
    r the start index of row `e` read signed and clamped into [0, N − 1]. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (j : Fin D) (hN : 0 < N) :
    Host.gather d x idx (ix2 e j) = x (ix2 (clampRow N hN idx e) j) := by
  have hb : ∀ a : Fin 2, a ∉ d.operandBatchingDims := fun a => by rw [hob]; exact List.not_mem_nil
  -- the result's batch axes: the one axis that is not the offset axis
  have hbd : d.batchDims = [0] := by
    show Shape.kept _ d.offsetDims = [0]
    rw [hoff]
    show (List.finRange 2).filter (fun a : Fin 2 => a ∉ [(1 : Fin 2)]) = [0]
    decide
  -- axis 0: collapsed and start-indexed, the clamped start alone
  have h0 : (d.operandIdx (ix2 e j) idx (0 : Fin 2)).val = (clampRow N hN idx e).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ixP e)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 2, X = 0 → ((ix2 e j : (⟨2, ![n, D]⟩ : Shape).Idx) X).val = e.val := fun X hX => by subst hX; rfl
      exact he _ (getElem_singleton_of_eq hbd _ _)
    | ⟨1, _⟩ =>
      unfold GatherDims.siIdx
      rw [dif_pos (by rw [hivd])]
      apply Fin.ext
      show List.idxOf (0 : Fin 2) d.startIndexMap = 0
      rw [hsim]; simp
  -- axis 1: neither start-indexed nor collapsed, the offset coordinate alone
  have h1 : (d.operandIdx (ix2 e j) idx (1 : Fin 2)).val = j.val := by
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1), Nat.add_zero]
    unfold GatherDims.start GatherDims.offCoord
    rw [dif_neg hm, dif_pos hk, Nat.zero_add]
    have hj : ∀ X : Fin 2, X = 1 → ((ix2 e j : (⟨2, ![n, D]⟩ : Shape).Idx) X).val = j.val := fun X hX => by subst hX; rfl
    exact hj _ (getElem_singleton_of_eq hoff _ _)
  unfold Host.gather
  congr 1
  funext a
  apply Fin.ext
  match a with
  | ⟨0, _⟩ => exact h0
  | ⟨1, _⟩ => exact h1

/-- The library's rank-1 index at coordinate `p` is `ix1 p`. -/
theorem ofFin_eq_ix1 {n : Nat} (p : Fin n) : Shape.Idx.ofFin p = ix1 p := by
  funext a
  match a with
  | ⟨0, _⟩ => rfl

/-- The take over a rank-1 table (the library's `gather_take`), its indices written by coordinates: result position `e`
    reads the table at start index `e` read signed and clamped into [0, N − 1]. -/
theorem gather_row1 {α : Type} {N n w : Nat} (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![n, 1]⟩ w) (e : Fin n) (hN : 0 < N) :
    Host.gather d x idx (ix1 e) = x (ix1 (clampRow N hN idx e)) := by
  have h := gather_take d hcoll hob hsim hivd x idx e hN
  rw [ofFin_eq_ix1, ofFin_eq_ix1] at h
  exact h

/-! ## Scatter-adds of rows -/

/-- An update index lands on operand index `r` exactly when, on every axis, its start plus its window coordinate is
    `r`'s coordinate (so is inside the operand there). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro heq a
      have hr := Option.some.inj heq
      subst hr
      show _ = (((d.start j idx a + (d.window j a : Int)).toNat : Nat) : Int)
      rw [Int.toNat_of_nonneg (h a).1]
    · intro hall
      congr 1
      funext a
      apply Fin.ext
      show (d.start j idx a + (d.window j a : Int)).toNat = (r a).val
      rw [hall a]; exact Int.toNat_natCast _
  · next h =>
    constructor
    · intro heq; cases heq
    · intro hall
      exfalso
      apply h
      intro a
      rw [hall a]
      exact ⟨Int.natCast_nonneg _, by exact_mod_cast (r a).isLt⟩

/-- Rank 2, [n × 1] indices, operand axis 0 inserted and scattered to, update axis 1 the window: update index `u`
    lands on operand element (i, j) exactly when the start index of row `u 0` reads signed as `i` and `u`'s column is `j`. -/
theorem resultIdx?_rows_iff {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1) (idx : IVec ⟨2, ![n, 1]⟩ w) (u : (⟨2, ![n, D]⟩ : Shape).Idx) (i : Fin K) (j : Fin D) :
    d.resultIdx? u idx = some (ix2 i j) ↔ lands idx (u 0 : Fin n) i.val ∧ (u 1 : Fin D) = j := by
  -- the updates' scatter axes: the one axis that is not the window axis
  have hus : d.uScatter = [0] := by
    show Shape.kept _ d.updateWindowDims = [0]
    rw [huw]
    show (List.finRange 2).filter (fun a : Fin 2 => a ∉ [(1 : Fin 2)]) = [0]
    decide
  have hmem_sKept : ∀ a : Fin 2, a ∈ d.sKept ↔ a ≠ 0 := fun a => by
    show a ∈ Shape.kept _ d.insertedWindowDims ↔ a ≠ 0
    rw [hiw]; simp [Shape.kept, List.mem_filter, List.mem_finRange]
  -- axis 0: the start is the signed word of row `u 0`, the window coordinate 0
  have hs0 : d.start u idx (0 : Fin 2) = (idx (ixP (u 0 : Fin n))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 2, X = 0 → (u X).val = (u 0).val := fun X hX => by subst hX; rfl
      exact he _ (getElem_singleton_of_eq hus _ _)
    | ⟨1, _⟩ =>
      unfold ScatterDims.siIdx
      rw [dif_pos (by rw [hivd])]
      apply Fin.ext
      show List.idxOf (0 : Fin 2) d.scatterDimsToOperandDims = 0
      rw [hsd]; simp
  have hw0 : d.window u (0 : Fin 2) = 0 := by
    unfold ScatterDims.window
    rw [dif_neg (by rw [hmem_sKept]; simp)]
  -- axis 1: no start, the window coordinate `u`'s column
  have hs1 : d.start u idx (1 : Fin 2) = 0 := by
    unfold ScatterDims.start
    rw [dif_neg (by rw [hsd]; simp)]
  have hw1 : d.window u (1 : Fin 2) = (u 1).val := by
    unfold ScatterDims.window
    rw [dif_pos (by rw [hmem_sKept]; simp)]
    have he : ∀ X : Fin 2, X = 1 → (u X).val = (u 1).val := fun X hX => by subst hX; rfl
    exact he _ (getElem_singleton_of_eq huw _ _)
  rw [resultIdx?_eq_some_iff]
  constructor
  · intro h
    have h0 := h 0
    have h1 := h 1
    rw [hs0, hw0] at h0
    rw [hs1, hw1] at h1
    refine ⟨?_, ?_⟩
    · show (idx (ixP (u 0 : Fin n))).toInt = (i.val : Int)
      have : ((ix2 i j : (⟨2, ![K, D]⟩ : Shape).Idx) 0).val = i.val := rfl
      rw [this] at h0
      simpa using h0
    · apply Fin.ext
      have : ((ix2 i j : (⟨2, ![K, D]⟩ : Shape).Idx) 1).val = j.val := rfl
      rw [this] at h1
      have h1' : ((u 1).val : Int) = (j.val : Int) := by simpa using h1
      exact_mod_cast h1'
  · rintro ⟨hl, hj⟩ a
    match a with
    | ⟨0, _⟩ =>
      show d.start u idx (0 : Fin 2) + (d.window u (0 : Fin 2) : Int) = (i.val : Int)
      rw [hs0, hw0]
      unfold lands at hl
      rw [hl]; simp
    | ⟨1, _⟩ =>
      show d.start u idx (1 : Fin 2) + (d.window u (1 : Fin 2) : Int) = (j.val : Int)
      rw [hs1, hw1, ← hj]; simp

/-- THE ROW SCATTER-ADD. A float `stablehlo.scatter` with an `add` body of [n × D] updates into a [K × D] operand at an
    [n × 1] column of row numbers (operand axis 0 inserted and scattered to, update axis 1 the window, the index vector
    on axis 1): operand element (i, j) gains column `j` of every update row whose start index reads signed as `i`. -/
theorem scatterAdd_rows {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : (⟨2, ![K, D]⟩ : Shape).Idx → EReal) (idx : IVec ⟨2, ![n, 1]⟩ w) (upd : (⟨2, ![n, D]⟩ : Shape).Idx → EReal)
    (i : Fin K) (j : Fin D) :
    Ideal.hostScatterAdd d x idx upd (ix2 i j)
      = x (ix2 i j) + ∑ e ∈ Finset.univ.filter (fun e : Fin n => lands idx e i.val), upd (ix2 e j) := by
  have hiff := resultIdx?_rows_iff d huw hiw hsd hivd idx
  unfold Ideal.hostScatterAdd
  congr 1
  have hback : ∀ u : (⟨2, ![n, D]⟩ : Shape).Idx, (u 1 : Fin D) = j → ix2 (u 0 : Fin n) j = u := fun u hu => by
    rw [← hu]; exact (eq_ix2 u).symm
  refine Finset.sum_bij' (fun u _ => (u 0 : Fin n)) (fun e _ => ix2 e j) ?_ ?_ ?_ ?_ ?_
  · intro u hu
    exact Finset.mem_filter.2 ⟨Finset.mem_univ _, ((hiff u i j).1 (Finset.mem_filter.1 hu).2).1⟩
  · intro e he
    exact Finset.mem_filter.2 ⟨Finset.mem_univ _, (hiff (ix2 e j) i j).2 ⟨(Finset.mem_filter.1 he).2, rfl⟩⟩
  · intro u hu
    exact hback u ((hiff u i j).1 (Finset.mem_filter.1 hu).2).2
  · intro e _
    rfl
  · intro u hu
    exact (congrArg upd (hback u ((hiff u i j).1 (Finset.mem_filter.1 hu).2).2)).symm

/-- Rank 1, [n × 1] indices, the operand's one axis inserted and scattered to, no window axes: update index `u` lands on
    operand position `i` exactly when the start index of row `u 0` reads signed as `i`. -/
theorem resultIdx?_row1_iff {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (u : (⟨1, ![n]⟩ : Shape).Idx) (i : Fin K) :
    d.resultIdx? u idx = some (ix1 i) ↔ lands idx (u 0 : Fin n) i.val := by
  -- the start is the signed word of row `u 0` (the updates' one axis is their scatter axis), the window coordinate 0
  have hs0 : d.start u idx (0 : Fin 1) = (idx (ixP (u 0 : Fin n))).toInt := by
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 1, (u X).val = (u 0).val := fun X => by
        have hX : X = 0 := Subsingleton.elim _ _
        subst hX; rfl
      exact he _
    | ⟨1, _⟩ =>
      unfold ScatterDims.siIdx
      rw [dif_pos (by rw [hivd])]
      apply Fin.ext
      show List.idxOf (0 : Fin 1) d.scatterDimsToOperandDims = 0
      rw [hsd]; simp
  have hw0 : d.window u (0 : Fin 1) = 0 := by
    have hk : (0 : Fin 1) ∉ d.sKept := by
      show (0 : Fin 1) ∉ Shape.kept _ d.insertedWindowDims
      rw [hiw]; simp [Shape.kept, List.mem_filter]
    unfold ScatterDims.window
    rw [dif_neg hk]
  rw [resultIdx?_eq_some_iff]
  constructor
  · intro h
    have h0 := h 0
    rw [hs0, hw0] at h0
    show (idx (ixP (u 0 : Fin n))).toInt = (i.val : Int)
    have : ((ix1 i : (⟨1, ![K]⟩ : Shape).Idx) 0).val = i.val := rfl
    rw [this] at h0
    simpa using h0
  · intro hl a
    have ha : a = 0 := Subsingleton.elim _ _
    subst ha
    show d.start u idx (0 : Fin 1) + (d.window u (0 : Fin 1) : Int) = (i.val : Int)
    rw [hs0, hw0]
    unfold lands at hl
    rw [hl]; simp

/-- THE SCATTER-ADD OF A VECTOR. A float `stablehlo.scatter` with an `add` body of [n] updates into a [K] operand at an
    [n × 1] column of positions (the operand's one axis inserted and scattered to, no window axes, the index vector on
    axis 1): operand position `i` gains every update whose start index reads signed as `i`. -/
theorem scatterAdd_row1 {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → EReal) (idx : IVec ⟨2, ![n, 1]⟩ w) (upd : (⟨1, ![n]⟩ : Shape).Idx → EReal) (i : Fin K) :
    Ideal.hostScatterAdd d x idx upd (ix1 i)
      = x (ix1 i) + ∑ e ∈ Finset.univ.filter (fun e : Fin n => lands idx e i.val), upd (ix1 e) := by
  have hiff := resultIdx?_row1_iff d huw hiw hsd hivd idx
  unfold Ideal.hostScatterAdd
  congr 1
  refine Finset.sum_bij' (fun u _ => (u 0 : Fin n)) (fun e _ => ix1 e) ?_ ?_ ?_ ?_ ?_
  · intro u hu
    exact Finset.mem_filter.2 ⟨Finset.mem_univ _, (hiff u i).1 (Finset.mem_filter.1 hu).2⟩
  · intro e he
    exact Finset.mem_filter.2 ⟨Finset.mem_univ _, (hiff (ix1 e) i).2 (Finset.mem_filter.1 he).2⟩
  · intro u _
    exact (eq_ix1 u).symm
  · intro e _
    rfl
  · intro u _
    exact congrArg upd (eq_ix1 u)

end Idealize.ShloMosaic.RowOps
-- ==== Proof.RSeg.lean ====
/-
  The reference flattens the batch: pixel `(h, w)` of image `b` becomes row `b·524288 + h·1024 + w` of arrays with
  4194304 rows, and its segment number is `label + 9·b`. With every label in 0 … 8 the segment `9·b + l` collects exactly
  the pixels of image `b` labelled `l`, so a sum over the rows that land on that segment is a sum over the pixels of image
  `b` against the label's 0/1 indicator.
-/
import proofs.«410175_j15839839388116_2_alg».proof.Proof.RefRead
import proofs.«410175_j15839839388116_2_alg».proof.Proof.Spec
import proofs.«410175_j15839839388116_2_alg».proof.Proof.LibGatherScatter
import Idealize.ShloMosaic.Lib.Affine
import Mathlib.Algebra.BigOperators.Group.Finset.Defs
import Mathlib.Algebra.BigOperators.Group.Finset.Basic
import Mathlib.Data.Fintype.BigOperators

open scoped BigOperators

noncomputable section

namespace Cert.ReferenceIdeal.RSeg

open Idealize.ShloMosaic Idealize.ShloMosaic.TcCoe Idealize.ShloMosaic.ValueIdx Idealize.ShloMosaic.StableHlo.Predicate Idealize.ShloMosaic.RowOps Cert.ReferenceIdeal Cert.ReferenceIdeal.Read

variable (x : Cert.Spec.SX.Idx → EReal) (t : Cert.Spec.ST.Idx → BitVec 32)

/-- Pixel `(h, w)` of image `b` as a row of the flattened arrays. -/
def pix (b : Fin 8) (h : Fin 512) (w : Fin 1024) : Fin 4194304 :=
  ⟨b.val * 524288 + h.val * 1024 + w.val, by have := b.isLt; have := h.isLt; have := w.isLt; omega⟩

/-- A signed 32-bit reading of an integer inside the signed range is that integer. -/
private theorem bmod_small {n : Int} (h₁ : -2 ^ 31 ≤ n) (h₂ : n < 2 ^ 31) : n.bmod (2 ^ 32) = n :=
  Int.bmod_eq_of_le (by omega) (by omega)

/-- The word arithmetic of a segment number: image number times nine plus a label in 0 … 8 does not wrap. -/
private theorem seg_word (bb : Nat) (hb : bb < 8) (v : BitVec 32) (h0 : 0 ≤ v.toInt) (h8 : v.toInt ≤ 8) :
    (IntOp.addi v (IntOp.muli (BitVec.ofNat 32 bb) 9#32)).toInt = (bb : Int) * 9 + v.toInt := by
  have hb' : (BitVec.ofNat 32 bb).toInt = (bb : Int) := by
    rw [BitVec.toInt_ofNat']
    exact bmod_small (by omega) (by omega)
  have h9 : (9#32 : BitVec 32).toInt = 9 := by decide
  have hm : ((bb : Int) * 9).bmod (2 ^ 32) = (bb : Int) * 9 := bmod_small (by omega) (by omega)
  unfold IntOp.addi IntOp.muli
  rw [BitVec.toInt_add, BitVec.toInt_mul, hb', h9, hm, bmod_small (by omega) (by omega)]
  omega

/-- The row's segment number, read signed: nine segments per image. -/
theorem seg_toInt (hl : Cert.Spec.InRange t) (b : Fin 8) (h : Fin 512) (w : Fin 1024) :
    (val_main_v7 (F := Ideal) t (ix1 (pix b h w))).toInt = (b.val : Int) * 9 + (t (ix3 b h w)).toInt := by
  have hb := b.isLt; have hh := h.isLt; have hw := w.isLt
  rw [val_main_v7_apply, val_main_v6_apply, val_main_v0_apply, val_main_v5_apply, val_main_v4_apply,
    val_main_v3_apply, val_main_v1_apply, val_main_v2_apply, val_main_c_apply]
  -- the row's image is `b` and its pixel is `(h, w)`
  have hi : idx_main_v0 (idx_main_v7 (ix1 (pix b h w))) = ix3 b h w := by
    funext a
    match a with
    | ⟨0, _⟩ => exact Fin.ext (by show ((b.val * 524288 + h.val * 1024 + w.val) / 524288 * 524288 + (b.val * 524288 + h.val * 1024 + w.val) % 524288) / 524288 = b.val; omega)
    | ⟨1, _⟩ => exact Fin.ext (by show ((b.val * 524288 + h.val * 1024 + w.val) / 524288 * 524288 + (b.val * 524288 + h.val * 1024 + w.val) % 524288) / 1024 % 512 = h.val; omega)
    | ⟨2, _⟩ => exact Fin.ext (by show ((b.val * 524288 + h.val * 1024 + w.val) / 524288 * 524288 + (b.val * 524288 + h.val * 1024 + w.val) % 524288) % 1024 = w.val; omega)
  have hbv : (idx_main_v4 (idx_main_v5 (idx_main_v7 (ix1 (pix b h w)))) 0).val = b.val := by
    show (b.val * 524288 + h.val * 1024 + w.val) / 524288 = b.val
    omega
  rw [hi, hbv]
  exact seg_word b.val hb _ (hl _).1 (hl _).2

/-- The row's channel values are the pixel's. -/
theorem px_apply (b : Fin 8) (h : Fin 512) (w : Fin 1024) (ch : Fin 4) :
    val_main_v10 (F := Ideal) x (ix2 (pix b h w) ch) = x (ix4 b ch h w) := by
  have hb := b.isLt; have hh := h.isLt; have hw := w.isLt; have hc := ch.isLt
  rw [val_main_v10_apply, val_main_v9_apply, val_main_v8_apply]
  -- element `4·row + ch` of the flattened array: its image, its channel and its pixel
  have e1 : ((b.val * 524288 + h.val * 1024 + w.val) * 4 + ch.val) / 2097152 = b.val := by omega
  have e2 : ((b.val * 524288 + h.val * 1024 + w.val) * 4 + ch.val) % 4 = ch.val := by omega
  have e3 : ((b.val * 524288 + h.val * 1024 + w.val) * 4 + ch.val) / 4 % 524288 = h.val * 1024 + w.val := by omega
  congr 1
  funext a
  match a with
  | ⟨0, _⟩ => exact Fin.ext (by
      show ((((b.val * 524288 + h.val * 1024 + w.val) * 4 + ch.val) / 2097152 * 4 + ((b.val * 524288 + h.val * 1024 + w.val) * 4 + ch.val) % 4) * 524288 + ((b.val * 524288 + h.val * 1024 + w.val) * 4 + ch.val) / 4 % 524288) / 2097152 = b.val
      rw [e1, e2, e3]
      omega)
  | ⟨1, _⟩ => exact Fin.ext (by
      show ((((b.val * 524288 + h.val * 1024 + w.val) * 4 + ch.val) / 2097152 * 4 + ((b.val * 524288 + h.val * 1024 + w.val) * 4 + ch.val) % 4) * 524288 + ((b.val * 524288 + h.val * 1024 + w.val) * 4 + ch.val) / 4 % 524288) / 524288 % 4 = ch.val
      rw [e1, e2, e3]
      clear e1 e2 e3
      have hq : ((b.val * 4 + ch.val) * 524288 + (h.val * 1024 + w.val)) / 524288 = b.val * 4 + ch.val := by omega
      rw [hq]
      omega)
  | ⟨2, _⟩ => exact Fin.ext (by
      show ((((b.val * 524288 + h.val * 1024 + w.val) * 4 + ch.val) / 2097152 * 4 + ((b.val * 524288 + h.val * 1024 + w.val) * 4 + ch.val) % 4) * 524288 + ((b.val * 524288 + h.val * 1024 + w.val) * 4 + ch.val) / 4 % 524288) / 1024 % 512 = h.val
      rw [e1, e2, e3]
      clear e1 e2 e3
      have hq : ((b.val * 4 + ch.val) * 524288 + (h.val * 1024 + w.val)) / 1024 = (b.val * 4 + ch.val) * 512 + h.val := by omega
      rw [hq]
      omega)
  | ⟨3, _⟩ => exact Fin.ext (by
      show ((((b.val * 524288 + h.val * 1024 + w.val) * 4 + ch.val) / 2097152 * 4 + ((b.val * 524288 + h.val * 1024 + w.val) * 4 + ch.val) % 4) * 524288 + ((b.val * 524288 + h.val * 1024 + w.val) * 4 + ch.val) / 4 % 524288) % 1024 = w.val
      rw [e1, e2, e3]
      omega)

/-- The three scatters' index columns, and (labels in range, so no segment is negative) the gather's, are the segment
    numbers. -/
theorem col13 (e : Fin 4194304) : val_main_v13 (F := Ideal) t (ixP e) = val_main_v7 (F := Ideal) t (ix1 e) := by
  rw [val_main_v13_apply]
  exact congrArg _ (funext fun a => by match a with | ⟨0, _⟩ => rfl)
theorem col16 (e : Fin 4194304) : val_main_v16 (F := Ideal) t (ixP e) = val_main_v7 (F := Ideal) t (ix1 e) := by
  rw [val_main_v16_apply]
  exact congrArg _ (funext fun a => by match a with | ⟨0, _⟩ => rfl)
theorem col42 (e : Fin 4194304) : val_main_v42 (F := Ideal) t (ixP e) = val_main_v7 (F := Ideal) t (ix1 e) := by
  rw [val_main_v42_apply]
  exact congrArg _ (funext fun a => by match a with | ⟨0, _⟩ => rfl)

/-- Every row is the row of a pixel: image `e / 524288`, pixel `(e / 1024 % 512, e % 1024)`. -/
theorem row_eq_pix (e : Fin 4194304) :
    e = pix ⟨e.val / 524288, by have := e.isLt; omega⟩ ⟨e.val / 1024 % 512, by omega⟩ ⟨e.val % 1024, by omega⟩ := by
  apply Fin.ext
  show e.val = e.val / 524288 * 524288 + e.val / 1024 % 512 * 1024 + e.val % 1024
  omega

/-- In range no segment number is negative. -/
theorem seg_nonneg (hl : Cert.Spec.InRange t) (e : Fin 4194304) :
    0 ≤ (val_main_v7 (F := Ideal) t (ix1 e)).toInt := by
  rw [row_eq_pix e, seg_toInt t hl]
  have := (hl (ix3 (⟨e.val / 524288, by have := e.isLt; omega⟩ : Fin 8) (⟨e.val / 1024 % 512, by omega⟩ : Fin 512) (⟨e.val % 1024, by omega⟩ : Fin 1024))).1
  omega

theorem col28 (hl : Cert.Spec.InRange t) (e : Fin 4194304) :
    val_main_v28 (F := Ideal) t (ixP e) = val_main_v7 (F := Ideal) t (ix1 e) := by
  rw [val_main_v28_apply]
  have hi : idx_main_v28 (ixP e) = ix1 e := funext fun a => by match a with | ⟨0, _⟩ => rfl
  rw [hi, val_main_v27_apply, val_main_v24_apply, val_main_v23_apply, val_main_c_3_apply]
  -- the signed comparison with 0 fails, so the select keeps the segment number
  have hn : ¬ IntOp.cmpi .slt (val_main_v7 (F := Ideal) t (ix1 e)) 0#32 = 1#1 := by
    rw [IntOp.cmpi_slt]
    have h0 : (0#32 : BitVec 32).toInt = 0 := by decide
    have := seg_nonneg t hl e
    omega
  rw [eq_zero_of_ne_one hn, select_zero]

/-- Rows and pixels: `(b, h, w) ↦ b·524288 + h·1024 + w` is a bijection, inverted by quotient and remainder. -/
def pixEquiv : Fin 8 × Fin 512 × Fin 1024 ≃ Fin 4194304 where
  toFun p := pix p.1 p.2.1 p.2.2
  invFun e := (⟨e.val / 524288, by have := e.isLt; omega⟩, ⟨e.val / 1024 % 512, by omega⟩, ⟨e.val % 1024, by omega⟩)
  left_inv p := by
    obtain ⟨b, h, w⟩ := p
    have hb := b.isLt; have hh := h.isLt; have hw := w.isLt
    refine Prod.ext (Fin.ext ?_) (Prod.ext (Fin.ext ?_) (Fin.ext ?_))
    · show (b.val * 524288 + h.val * 1024 + w.val) / 524288 = b.val
      omega
    · show (b.val * 524288 + h.val * 1024 + w.val) / 1024 % 512 = h.val
      omega
    · show (b.val * 524288 + h.val * 1024 + w.val) % 1024 = w.val
      omega
  right_inv e := (row_eq_pix e).symm

/-- A sum over the rows is the sum over images, then pixels. -/
theorem sum_rows (g : Fin 4194304 → EReal) :
    ∑ e : Fin 4194304, g e = ∑ b : Fin 8, ∑ h : Fin 512, ∑ w : Fin 1024, g (pix b h w) := by
  rw [← Fintype.sum_equiv pixEquiv (fun p => g (pix p.1 p.2.1 p.2.2)) g (fun p => rfl), Fintype.sum_prod_type]
  exact Finset.sum_congr rfl fun b _ => Fintype.sum_prod_type _

/-- A word whose signed reading is a label `l < 9` is the word of `l`. -/
private theorem word_of_toInt (v : BitVec 32) (l : Nat) (hl : l < 9) : v.toInt = (l : Int) ↔ v = BitVec.ofNat 32 l := by
  have hl' : (BitVec.ofNat 32 l).toInt = (l : Int) := by
    rw [BitVec.toInt_ofNat']
    exact bmod_small (by omega) (by omega)
  constructor
  · intro h
    exact BitVec.eq_of_toInt_eq (h.trans hl'.symm)
  · rintro rfl
    exact hl'

/-- Row `(b', h, w)` lands on segment `9·b + l` exactly when `b' = b` and the pixel's label is `l`. -/
theorem lands_pix_iff (hl : Cert.Spec.InRange t) (idx : IVec ⟨2, ![4194304, 1]⟩ 32)
    (hidx : ∀ e : Fin 4194304, idx (ixP e) = val_main_v7 (F := Ideal) t (ix1 e))
    (b b' : Fin 8) (h : Fin 512) (w : Fin 1024) (l : Fin 9) :
    lands idx (pix b' h w) (b.val * 9 + l.val) ↔ (b' = b ∧ t (ix3 b' h w) = BitVec.ofNat 32 l.val) := by
  unfold lands
  rw [hidx, seg_toInt t hl, ← word_of_toInt _ l.val l.isLt]
  have h0 := (hl (ix3 b' h w)).1
  have h8 := (hl (ix3 b' h w)).2
  have hlt := l.isLt
  constructor
  · intro hh
    push_cast at hh
    have hbb : b'.val = b.val := by omega
    exact ⟨Fin.ext hbb, by omega⟩
  · rintro ⟨rfl, hh⟩
    push_cast
    omega

/-- THE LANDING LEMMA: over any index column that holds the segment numbers, the rows landing on segment `9·b + l` are
    the pixels of image `b` labelled `l`. -/
theorem sum_lands (hl : Cert.Spec.InRange t) (idx : IVec ⟨2, ![4194304, 1]⟩ 32)
    (hidx : ∀ e : Fin 4194304, idx (ixP e) = val_main_v7 (F := Ideal) t (ix1 e))
    (f : Fin 4194304 → EReal) (b : Fin 8) (l : Fin 9) :
    ∑ e ∈ Finset.univ.filter (fun e : Fin 4194304 => lands idx e (b.val * 9 + l.val)), f e
      = ∑ h : Fin 512, ∑ w : Fin 1024, (if t (ix3 b h w) = BitVec.ofNat 32 l.val then f (pix b h w) else 0) := by
  rw [Finset.sum_filter, sum_rows]
  -- only image `b` contributes
  rw [Finset.sum_eq_single_of_mem b (Finset.mem_univ b)]
  · refine Finset.sum_congr rfl fun h _ => Finset.sum_congr rfl fun w _ => ?_
    refine if_congr ?_ rfl rfl
    rw [lands_pix_iff t hl idx hidx]
    exact ⟨fun hh => hh.2, fun hh => ⟨rfl, hh⟩⟩
  · intro b' _ hne
    refine Finset.sum_eq_zero fun h _ => Finset.sum_eq_zero fun w _ => ?_
    refine if_neg ?_
    rw [lands_pix_iff t hl idx hidx]
    exact fun hh => hne hh.1

end Cert.ReferenceIdeal.RSeg

end
-- ==== Proof.RHeads.lean ====
/-
  The reference's counts and means are the specification's: its scatter-add of ones into 72 segments, reshaped to
  [8, 9], counts the pixels of image `b` labelled `l`; its scatter-add of the pixels' channel rows, divided by the counts
  clamped below by 1 and reshaped to [8, 9, 4], gives the label means.
-/
import proofs.«410175_j15839839388116_2_alg».proof.Proof.RefRead
import proofs.«410175_j15839839388116_2_alg».proof.Proof.Spec
import proofs.«410175_j15839839388116_2_alg».proof.Proof.LibGatherScatter
import proofs.«410175_j15839839388116_2_alg».proof.Proof.RSeg
import Idealize.ShloMosaic.Lib.IdealHost
import Idealize.ShloMosaic.Lib.ValueIdx
import Idealize.ShloMosaic.PureOps.Ideal
import Idealize.ShloMosaic.PureOps.Ideal.Laws

open scoped BigOperators

noncomputable section

namespace Cert.ReferenceIdeal.RHeads

open Idealize.ShloMosaic Idealize.ShloMosaic.TcCoe Idealize.ShloMosaic.ValueIdx Idealize.ShloMosaic.StableHlo.Predicate Idealize.ShloMosaic.RowOps Cert.ReferenceIdeal Cert.ReferenceIdeal.Read Cert.ReferenceIdeal.RSeg

variable (x : Cert.Spec.SX.Idx → EReal) (t : Cert.Spec.ST.Idx → BitVec 32)

/-- The count scatter, as a function of the index: the exact scatter-add of the ones column into zeros. -/
private theorem v14_fun :
    val_main_v14 (F := Ideal) t
      = Ideal.hostScatterAdd scatter_S72_S4194304x1_S4194304_n_0_0_1 (val_main_v12 (F := Ideal))
          (val_main_v13 (F := Ideal) t) (val_main_v11 (F := Ideal)) := by
  unfold val_main_v14 Host.scatterAdd
  rw [Ideal.hostScatterAdd_def]

/-- Segment `9·b + l` of the count vector. -/
theorem v14_apply (hl : Cert.Spec.InRange t) (b : Fin 8) (l : Fin 9) :
    val_main_v14 (F := Ideal) t (ix1 (⟨b.val * 9 + l.val, by have := b.isLt; have := l.isLt; omega⟩ : Fin 72))
      = Cert.Spec.cnt t b l := by
  -- the segment gains every row whose index reads as 9·b + l; those rows are the pixels of image b labelled l
  rw [v14_fun, scatterAdd_row1 scatter_S72_S4194304x1_S4194304_n_0_0_1 rfl rfl rfl rfl]
  rw [sum_lands t hl (val_main_v13 (F := Ideal) t) (col13 t) (fun e => val_main_v11 (F := Ideal) (ix1 e)) b l]
  -- the operand is zero everywhere and every update is the word of 1.0, the extended real one
  rw [val_main_v12_apply, val_main_cst_0_apply, Ideal.ofBits_def, Ideal.ofBits_zero_f32, zero_add]
  unfold Cert.Spec.cnt Cert.Spec.ind Cert.Spec.isLab
  refine Finset.sum_congr rfl (fun h _ => Finset.sum_congr rfl (fun w _ => ?_))
  rw [val_main_v11_apply, val_main_cst_apply, Ideal.ofBits_def, Ideal.ofBits_one_f32]

/-- The sums scatter, as a function of the index: the exact scatter-add of the pixel rows into zeros. -/
private theorem v17_fun :
    val_main_v17 (F := Ideal) x t
      = Ideal.hostScatterAdd scatter_S72x4_S4194304x1_S4194304x4_1_0_0_1 (val_main_v15 (F := Ideal))
          (val_main_v16 (F := Ideal) t) (val_main_v10 (F := Ideal) x) := by
  unfold val_main_v17 Host.scatterAdd
  rw [Ideal.hostScatterAdd_def]

/-- Row `9·b + l` of the channel sums: channel `ch` summed over the pixels of image `b` labelled `l`. -/
private theorem v17_apply (hl : Cert.Spec.InRange t) (b : Fin 8) (l : Fin 9) (ch : Fin 4) :
    val_main_v17 (F := Ideal) x t (ix2 (⟨b.val * 9 + l.val, by have := b.isLt; have := l.isLt; omega⟩ : Fin 72) ch)
      = Cert.Spec.lsum x t b ch l := by
  -- as for the counts; a row's channel value is its pixel's, and a value times the 0/1 indicator is the guarded value
  rw [v17_fun, scatterAdd_rows scatter_S72x4_S4194304x1_S4194304x4_1_0_0_1 rfl rfl rfl rfl]
  rw [sum_lands t hl (val_main_v16 (F := Ideal) t) (col16 t) (fun e => val_main_v10 (F := Ideal) x (ix2 e ch)) b l]
  rw [val_main_v15_apply, val_main_cst_1_apply, Ideal.ofBits_def, Ideal.ofBits_zero_f32, zero_add]
  unfold Cert.Spec.lsum Cert.Spec.ind
  refine Finset.sum_congr rfl (fun h _ => Finset.sum_congr rfl (fun w _ => ?_))
  rw [px_apply, Cert.Spec.mul_isLab]

/-- Segment `9·b + l` of the clamped counts. -/
theorem v19_apply (hl : Cert.Spec.InRange t) (b : Fin 8) (l : Fin 9) :
    val_main_v19 (F := Ideal) t (ix1 (⟨b.val * 9 + l.val, by have := b.isLt; have := l.isLt; omega⟩ : Fin 72))
      = Cert.Spec.safe t b l := by
  -- the float maximum is the order's; the constant stays the printed word of 1.0
  rw [val_main_v19_apply, Ideal.maximumf_def, v14_apply t hl b l, val_main_v18_apply, val_main_cst_2_apply,
    Ideal.ofBits_def]
  rfl

/-- Row `9·b + l` of the means. -/
theorem v22_apply (hl : Cert.Spec.InRange t) (b : Fin 8) (l : Fin 9) (ch : Fin 4) :
    val_main_v22 (F := Ideal) x t (ix2 (⟨b.val * 9 + l.val, by have := b.isLt; have := l.isLt; omega⟩ : Fin 72) ch)
      = Cert.Spec.mean x t b l ch := by
  -- the divisor column, broadcast along the channels, reads the clamped count of the row's segment
  have hidx : idx_main_v20 (idx_main_v21 (ix2 (⟨b.val * 9 + l.val, by have := b.isLt; have := l.isLt; omega⟩ : Fin 72) ch))
      = ix1 (⟨b.val * 9 + l.val, by have := b.isLt; have := l.isLt; omega⟩ : Fin 72) := by
    funext a
    match a with
    | ⟨0, _⟩ => rfl
  rw [val_main_v22_apply, Ideal.hostDivf_def, v17_apply x t hl b l ch, val_main_v21_apply, val_main_v20_apply, hidx,
    v19_apply t hl b l]
  rfl

theorem counts_eq (hl : Cert.Spec.InRange t) : val_main_v45 (F := Ideal) t = Cert.Spec.countsG t := by
  funext i
  obtain ⟨b, l, rfl⟩ : ∃ (b : Fin 8) (l : Fin 9), i = ix2 b l := ⟨i 0, i 1, eq_ix2 i⟩
  -- position (b, l) of the [8, 9] array is segment 9·b + l of the vector
  have hidx : idx_main_v45 (ix2 b l)
      = ix1 (⟨b.val * 9 + l.val, by have := b.isLt; have := l.isLt; omega⟩ : Fin 72) := by
    funext a
    match a with
    | ⟨0, _⟩ => rfl
  rw [val_main_v45_apply, hidx, v14_apply t hl b l, Cert.Spec.countsG_apply]

theorem means_eq (hl : Cert.Spec.InRange t) : val_main_v47 (F := Ideal) x t = Cert.Spec.meansG x t := by
  funext i
  obtain ⟨b, l, ch, rfl⟩ : ∃ (b : Fin 8) (l : Fin 9) (ch : Fin 4), i = ix3 b l ch := ⟨i 0, i 1, i 2, eq_ix3 i⟩
  -- position (b, l, ch) of the [8, 9, 4] array is row 9·b + l, column ch of the [72, 4] one
  have hidx : idx_main_v47 (ix3 b l ch)
      = ix2 (⟨b.val * 9 + l.val, by have := b.isLt; have := l.isLt; omega⟩ : Fin 72) ch := by
    funext a
    have := b.isLt; have := l.isLt; have := ch.isLt
    match a with
    | ⟨0, _⟩ => exact Fin.ext (show ((b.val * 9 + l.val) * 4 + ch.val) / 4 = b.val * 9 + l.val by omega)
    | ⟨1, _⟩ => exact Fin.ext (show ((b.val * 9 + l.val) * 4 + ch.val) % 4 = ch.val by omega)
  rw [val_main_v47_apply, hidx, v22_apply x t hl b l ch, Cert.Spec.meansG_apply]

end Cert.ReferenceIdeal.RHeads

end
-- ==== Proof.RVar.lean ====
/-
  The reference's per-label mean hinge is the specification's: each row gathers its own segment's mean, the row's hinge
  against it is scatter-added into the segment, and the sum is divided by the clamped count and reshaped to [8, 9].
-/
import proofs.«410175_j15839839388116_2_alg».proof.Proof.RefRead
import proofs.«410175_j15839839388116_2_alg».proof.Proof.Spec
import proofs.«410175_j15839839388116_2_alg».proof.Proof.LibGatherScatter
import proofs.«410175_j15839839388116_2_alg».proof.Proof.RSeg
import proofs.«410175_j15839839388116_2_alg».proof.Proof.RHeads

open scoped BigOperators

noncomputable section

namespace Cert.ReferenceIdeal.RVar

open Idealize.ShloMosaic Idealize.ShloMosaic.TcCoe Idealize.ShloMosaic.ValueIdx Idealize.ShloMosaic.StableHlo.Predicate Idealize.ShloMosaic.RowOps Cert.ReferenceIdeal Cert.ReferenceIdeal.Read Cert.ReferenceIdeal.RSeg Cert.ReferenceIdeal.RHeads

variable (x : Cert.Spec.SX.Idx → EReal) (t : Cert.Spec.ST.Idx → BitVec 32)

/-- A label 0 … 8 written as a 32-bit word reads back, signed, as itself. -/
theorem toInt_lab (l : Fin 9) : (BitVec.ofNat 32 l.val).toInt = (l.val : Int) := by
  revert l; decide

/-- The gathered mean of a row: a pixel of image `b` labelled `l` has segment number `9·b + l`, which is a row of the
    72 means (not negative, not clamped), so the row it takes is the mean of label `l` in image `b`. -/
theorem v29_apply (hl : Cert.Spec.InRange t) (b : Fin 8) (l : Fin 9) (h : Fin 512) (w : Fin 1024)
    (hlab : t (ix3 b h w) = BitVec.ofNat 32 l.val) (ch : Fin 4) :
    val_main_v29 (F := Ideal) x t (ix2 (pix b h w) ch) = Cert.Spec.mean x t b l ch := by
  have hland : lands (val_main_v28 (F := Ideal) t) (pix b h w)
      (⟨b.val * 9 + l.val, by have := b.isLt; have := l.isLt; omega⟩ : Fin 72).val := by
    show (val_main_v28 (F := Ideal) t (ixP (pix b h w))).toInt = ((b.val * 9 + l.val : Nat) : Int)
    rw [col28 t hl, seg_toInt t hl, hlab, toInt_lab]
    push_cast; rfl
  unfold val_main_v29
  rw [gather_rows _ rfl rfl rfl rfl rfl rfl _ _ _ _ (by decide : 0 < 72),
    clampRow_of_lands (by decide) _ _ _ hland]
  exact v22_apply x t hl b l ch

/-- A row's hinge, at a pixel of image `b` whose label is `l`: the pixel's hinge against the mean of label `l`.
    The sum over the four channels starts from the zero word, which is 0; each summand is the square of the pixel's
    channel minus the gathered mean; ε, ½ and 0 stay the printed words, the square root is the extended reals' one,
    and the final square is the value times itself. -/
theorem v40_apply (hl : Cert.Spec.InRange t) (b : Fin 8) (l : Fin 9) (h : Fin 512) (w : Fin 1024)
    (hlab : t (ix3 b h w) = BitVec.ofNat 32 l.val) :
    val_main_v40 (F := Ideal) x t (ix1 (pix b h w))
      = Cert.Spec.hingeAt (fun ch => x (ix4 b ch h w)) (Cert.Spec.mean x t b l) := by
  have hidx : ∀ k : Fin 4, idx_main_v32 (ix1 (pix b h w)) k = ix2 (pix b h w) k := fun k => by
    funext a
    match a with
    | ⟨0, _⟩ => rfl
    | ⟨1, _⟩ => rfl
  have h32 : val_main_v32 (F := Ideal) x t (ix1 (pix b h w))
      = ∑ c : Fin 4, (x (ix4 b c h w) - Cert.Spec.mean x t b l c) * (x (ix4 b c h w) - Cert.Spec.mean x t b l c) := by
    rw [val_main_v32_apply, val_main_cst_5_apply, Ideal.ofBits_def, Ideal.ofBits_zero_f32, zero_add]
    refine Finset.sum_congr rfl fun c _ => ?_
    rw [hidx c, val_main_v31_apply, val_main_v30_apply, px_apply, v29_apply x t hl b l h w hlab c]
    rfl
  rw [val_main_v40_apply, val_main_v39_apply, val_main_v38_apply, val_main_cst_8_apply, val_main_v37_apply,
    val_main_v36_apply, val_main_cst_7_apply, val_main_v35_apply, val_main_v34_apply, val_main_v33_apply,
    val_main_cst_6_apply, h32]
  rfl

/-- A scatter-add of a vector of updates into 72 segments at a column of segment numbers, whatever the three arrays:
    segment `i` gains every update whose segment number is `i`. -/
theorem scatter72 (v : S72.Idx → EReal) (idx : IVec S4194304x1 32) (upd : S4194304.Idx → EReal) (i : Fin 72) :
    Host.scatterAdd (F := Ideal) (φ := .f32) scatter_S72_S4194304x1_S4194304_n_0_0_1 v idx upd (ix1 i)
      = v (ix1 i) + ∑ e ∈ Finset.univ.filter (fun e : Fin 4194304 => lands idx e i.val), upd (ix1 e) :=
  scatterAdd_row1 scatter_S72_S4194304x1_S4194304_n_0_0_1 rfl rfl rfl rfl v idx upd i

/-- The hinge sums: a scatter-add into a zero vector of the rows' hinges. Segment `9·b + l` collects the hinges of the
    pixels of image `b` labelled `l`, each against that label's mean. -/
theorem v43_apply (hl : Cert.Spec.InRange t) (b : Fin 8) (l : Fin 9) :
    val_main_v43 (F := Ideal) x t (ix1 (⟨b.val * 9 + l.val, by have := b.isLt; have := l.isLt; omega⟩ : Fin 72))
      = Cert.Spec.hsum x t b l := by
  show Host.scatterAdd (F := Ideal) scatter_S72_S4194304x1_S4194304_n_0_0_1 (val_main_v41 (F := Ideal))
    (val_main_v42 (F := Ideal) t) (val_main_v40 (F := Ideal) x t) _ = _
  rw [scatter72, val_main_v41_apply, val_main_cst_9_apply, Ideal.ofBits_def, Ideal.ofBits_zero_f32, zero_add,
    sum_lands t hl (val_main_v42 (F := Ideal) t) (col42 t) (fun e => val_main_v40 (F := Ideal) x t (ix1 e)) b l]
  unfold Cert.Spec.hsum
  refine Finset.sum_congr rfl fun h _ => Finset.sum_congr rfl fun w _ => ?_
  unfold Cert.Spec.ind
  rw [Cert.Spec.mul_isLab]
  by_cases hlab : t (ix3 b h w) = BitVec.ofNat 32 l.val
  · rw [if_pos hlab, if_pos hlab]
    exact v40_apply x t hl b l h w hlab
  · rw [if_neg hlab, if_neg hlab]

/-- The reference's per-label mean hinge: the hinge sum over the clamped count, segment `9·b + l` at position (b, l). -/
theorem var_eq (hl : Cert.Spec.InRange t) : val_main_v46 (F := Ideal) x t = Cert.Spec.varG x t := by
  funext i
  obtain ⟨b, l, rfl⟩ : ∃ (b : Fin 8) (l : Fin 9), i = ix2 b l := ⟨i 0, i 1, eq_ix2 i⟩
  have hidx : idx_main_v46 (ix2 b l)
      = ix1 (⟨b.val * 9 + l.val, by have := b.isLt; have := l.isLt; omega⟩ : Fin 72) := by
    funext a
    match a with
    | ⟨0, _⟩ => rfl
  rw [val_main_v46_apply, hidx, val_main_v44_apply, Ideal.hostDivf_def, v43_apply x t hl b l, v19_apply t hl b l,
    Cert.Spec.varG_apply]
  rfl

end Cert.ReferenceIdeal.RVar

end
-- ==== Proof.RTail.lean ====
/-
  From its three arrays on, the reference applies the same host operations as the kernel's program: its result is the
  common tail of its counts, its per-label mean hinge and its means.
-/
import proofs.«410175_j15839839388116_2_alg».proof.Proof.RefRead
import proofs.«410175_j15839839388116_2_alg».proof.Proof.Spec
import proofs.«410175_j15839839388116_2_alg».proof.Proof.Tail

open scoped BigOperators

noncomputable section

namespace Cert.ReferenceIdeal.RTail

open Idealize.ShloMosaic Idealize.ShloMosaic.TcCoe Idealize.ShloMosaic.ValueIdx Cert.ReferenceIdeal Cert.ReferenceIdeal.Read

/-- Stage by stage the reference's operations after its three arrays are the tail's, whatever the float family: the two
    chains are the same operations on the same shapes, so unfolding both sides leaves one term. -/
theorem ref_tail_gen {F : FTy → Type} [FloatOps F] (x : (⟨S8x4x512x1024, .f32⟩ : BufTy).Contents (Elt F))
    (t : (⟨S8x512x1024, .i32⟩ : BufTy).Contents (Elt F)) :
    val_main_v104 (F := F) x t
      = Cert.KernelIdeal.Tail.tail (F := F) (val_main_v45 (F := F) t) (val_main_v46 (F := F) x t)
          (val_main_v47 (F := F) x t) := by
  simp only [val_main_v104, val_main_v103, val_main_cst_26, val_main_v102, val_main_cst_25, val_main_v101, val_main_v100, val_main_call2_v1, val_main_call2_v0, val_main_cst_24, val_main_v99, val_main_v98, val_main_v97, val_main_cst_23, val_main_v96, val_main_v95, val_main_cst_22, val_main_v94, val_main_v93, val_main_cst_21, val_main_v92, val_main_v91, val_main_c_20, val_main_v90, val_main_v89, val_main_cst_19, val_main_v88, val_main_call1_v1, val_main_call1_v0, val_main_cst_18, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_cst_17, val_main_v69, val_main_v68, val_main_cst_16, val_main_v67, val_main_v66, val_main_v65, val_main_cst_15, val_main_v64, val_main_cst_14, val_main_v63, val_main_v62, val_main_v61, val_main_v60, val_main_v59, val_main_v58, val_main_v57, val_main_cst_13, val_main_v56, val_main_call0_v1, val_main_call0_v0, val_main_cst_12, val_main_v55, val_main_v54, val_main_v53, val_main_v52, val_main_c_11, val_main_v51, val_main_v50, val_main_v49, val_main_v48, val_main_cst_10]
  rfl

theorem ref_tail (x : Cert.Spec.SX.Idx → EReal) (t : Cert.Spec.ST.Idx → BitVec 32) :
    val_main_v104 (F := Ideal) x t
      = Cert.KernelIdeal.Tail.tail (F := Ideal) (val_main_v45 (F := Ideal) t) (val_main_v46 (F := Ideal) x t)
          (val_main_v47 (F := Ideal) x t) :=
  ref_tail_gen (F := Ideal) x t

end Cert.ReferenceIdeal.RTail

end
-- ==== Proof.lean ====
/-
  An instance-segmentation loss over `x : f32[8, 4, 512, 1024]` with labels `t : i32[8, 512, 1024]` in 0 … 8. Both programs
  compute, per image `b` and label `l`, the number of pixels labelled `l`, the mean of each channel over them, and the mean
  over them of the pixel's hinge `(max (√(Σ_c (x_c − mean_c)² + ε) − ½) 0)²`, and then apply the same host operations to
  these three small arrays. The kernel's program gets them from two kernels gridded over the images, each comparing the
  label image against 0, …, 8 in turn and summing against the resulting 0/1 masks; the reference flattens the batch,
  numbers the segments `label + 9·b`, and scatter-adds into 72 segments. With the labels in range the segment `9·b + l`
  collects exactly the pixels of image `b` labelled `l`, and a sum over them is the sum over all pixels of the summand times
  the 0/1 indicator (`a · 1 = a`, `a · 0 = 0` on every extended real), so the three arrays agree and the common tail gives
  equal results. The label range 0 ≤ t ≤ 8 is part of the precondition; finiteness of `x` is not used.
-/
import proofs.«410175_j15839839388116_2_alg».proof.Defs
import proofs.«410175_j15839839388116_2_alg».proof.Proof.Gen.Kernel
import proofs.«410175_j15839839388116_2_alg».proof.Proof.Gen.Kernel.Skeleton
import proofs.«410175_j15839839388116_2_alg».proof.Proof.Gen.Kernel.Launch
import proofs.«410175_j15839839388116_2_alg».proof.Proof.Gen.Kernel.Points
import proofs.«410175_j15839839388116_2_alg».proof.Proof.Gen.Kernel.Frame
import proofs.«410175_j15839839388116_2_alg».proof.Proof.Gen.KernelIdeal
import proofs.«410175_j15839839388116_2_alg».proof.Proof.Gen.KernelIdeal.Skeleton
import proofs.«410175_j15839839388116_2_alg».proof.Proof.Gen.KernelIdeal.Launch
import proofs.«410175_j15839839388116_2_alg».proof.Proof.Gen.KernelIdeal.Points
import proofs.«410175_j15839839388116_2_alg».proof.Proof.Gen.KernelIdeal.Frame
import proofs.«410175_j15839839388116_2_alg».proof.Proof.Gen.ReferenceIdeal
import proofs.«410175_j15839839388116_2_alg».proof.Proof.RefRun
import proofs.«410175_j15839839388116_2_alg».proof.Proof.RefRead
import proofs.«410175_j15839839388116_2_alg».proof.Proof.Gen.Pre_finite_inputs
import proofs.«410175_j15839839388116_2_alg».proof.Proof.Spec
import proofs.«410175_j15839839388116_2_alg».proof.Proof.PreLab
import proofs.«410175_j15839839388116_2_alg».proof.Proof.FrameV
import proofs.«410175_j15839839388116_2_alg».proof.Proof.KGlue
import proofs.«410175_j15839839388116_2_alg».proof.Proof.RHeads
import proofs.«410175_j15839839388116_2_alg».proof.Proof.RVar
import proofs.«410175_j15839839388116_2_alg».proof.Proof.RTail
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the common tail of the specification's three arrays: the kernel's program by its
    frame run read back through the host operations and the two kernels' blocks, the reference by its run, its three
    arrays being the specification's where the labels are in range. -/
theorem algebraic : Cert.algebraic_KernelIdeal_ReferenceIdeal := by
  intro m ρ m' ρ' hpre hagree
  refine ⟨fun c => Cert.KernelIdeal.Tail.tail (F := Ideal)
      (Cert.Spec.countsG (Cert.KernelIdeal.KArrays.ts m c))
      (Cert.Spec.varG (Cert.KernelIdeal.KArrays.xs m c) (Cert.KernelIdeal.KArrays.ts m c))
      (Cert.Spec.meansG (Cert.KernelIdeal.KArrays.xs m c) (Cert.KernelIdeal.KArrays.ts m c)), ?_, ?_⟩
  · exact (θ_run Cert.KernelIdeal.defs _ _).mono
      (fun r h c => ⟨(h c).1.trans (Cert.KernelIdeal.KGlue.W10_result m ρ c), (h c).2⟩)
      (Cert.KernelIdeal.GenV.run_result (F := Ideal) m ρ)
  · refine (θ_run Cert.ReferenceIdeal.defs _ _).mono (fun r h c => ⟨?_, (h c).2⟩)
      (Cert.ReferenceIdeal.Value.run (F := Ideal) m' ρ')
    have hl : Cert.Spec.InRange (Cert.KernelIdeal.KArrays.ts m c) := Cert.PreLab.inRange_of_fn _ _ (hpre c)
    rw [(h c).1, Cert.ReferenceIdeal.Read.val_main_v104_eq, (hagree c).1, (hagree c).2,
      Cert.ReferenceIdeal.RTail.ref_tail, Cert.ReferenceIdeal.RHeads.counts_eq _ hl,
      Cert.ReferenceIdeal.RVar.var_eq _ _ hl, Cert.ReferenceIdeal.RHeads.means_eq _ _ hl]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
